-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x50257 : Shape := ⟨3, ![1, 1024, 50257]⟩
abbrev S1x1024x1024 : Shape := ⟨3, ![1, 1024, 1024]⟩
abbrev S768x50257 : Shape := ⟨2, ![768, 50257]⟩
abbrev S768 : Shape := ⟨1, ![768]⟩
abbrev S768x1024 : Shape := ⟨2, ![768, 1024]⟩
abbrev S_ : Shape := ⟨0, ![]⟩

class Facts : Prop where
  bcast_S_S1x1024x50257 : S_.BroadcastsInDim S1x1024x50257 (![] : Fin 0 → Fin S1x1024x50257.rank)
  reducesTo_S1x1024x50257_S_d0_1_2 : S1x1024x50257.ReducesTo [0, 1, 2] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S768x50257 : S_.BroadcastsInDim S768x50257 (![] : Fin 0 → Fin S768x50257.rank)
  reducesTo_S768x50257_S_d0_1 : S768x50257.ReducesTo [0, 1] S_
  bcast_S_S768 : S_.BroadcastsInDim S768 (![] : Fin 0 → Fin S768.rank)
  reducesTo_S768_S_d0 : S768.ReducesTo [0] S_
  bcast_S_S768x1024 : S_.BroadcastsInDim S768x1024 (![] : Fin 0 → Fin S768x1024.rank)
  reducesTo_S768x1024_S_d0_1 : S768x1024.ReducesTo [0, 1] S_

variable [Facts]

def fn_part1 {F : FTy → Type} [FloatOps F] (main_arg4 : FVec F S768x1024 .f32) (main_arg5 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x1024 .f32 := Host.absf main_arg4
  let main_cst_6 : FVec F S_ .f32 := constant S_ .f32 0x7F800000#32
  let main_v20 : FVec F S768x1024 .f32 := broadcastInDim S768x1024 ![] bcast_S_S768x1024 main_cst_6
  let main_v21 : IVec S768x1024 1 := cmpf .olt main_v19 main_v20
  let main_c_7 : IVec S_ 1 := constantI S_ 1 1#1
  let main_v22 : IVec S_ 1 := (fun x v => Host.reduce IntOp.andi x v reducesTo_S768x1024_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S1x1024x50257 .f32) (main_arg1 : FVec F S1x1024x1024 .f32) (main_arg2 : FVec F S768x50257 .f32) (main_arg3 : FVec F S768 .f32) (main_arg4 : FVec F S768x1024 .f32) (main_arg5 : FVec F S768 .f32) : IVec S_ 1 :=
  let main_v0 : FVec F S1x1024x50257 .f32 := Host.absf main_arg0
  let main_cst : FVec F S_ .f32 := constant S_ .f32 0x7F800000#32
  let main_v1 : FVec F S1x1024x50257 .f32 := broadcastInDim S1x1024x50257 ![] bcast_S_S1x1024x50257 main_cst
  let main_v2 : IVec S1x1024x50257 1 := cmpf .olt main_v0 main_v1
  let main_c : IVec S_ 1 := constantI S_ 1 1#1
  let main_v3 : IVec S_ 1 := (fun x v => Host.reduce IntOp.andi x v reducesTo_S1x1024x50257_S_d0_1_2 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  let main_v9 : FVec F S768x50257 .f32 := Host.absf main_arg2
  let main_cst_2 : FVec F S_ .f32 := constant S_ .f32 0x7F800000#32
  let main_v10 : FVec F S768x50257 .f32 := broadcastInDim S768x50257 ![] bcast_S_S768x50257 main_cst_2
  let main_v11 : IVec S768x50257 1 := cmpf .olt main_v9 main_v10
  let main_c_3 : IVec S_ 1 := constantI S_ 1 1#1
  let main_v12 : IVec S_ 1 := (fun x v => Host.reduce IntOp.andi x v reducesTo_S768x50257_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_v13 main_v16
-- ==== Kernel.lean ====
abbrev S1x1024x50257 : Shape := ⟨3, ![1, 1024, 50257]⟩
abbrev S1x1024x1024 : Shape := ⟨3, ![1, 1024, 1024]⟩
abbrev S768x50257 : Shape := ⟨2, ![768, 50257]⟩
abbrev S768 : Shape := ⟨1, ![768]⟩
abbrev S768x1024 : Shape := ⟨2, ![768, 1024]⟩
abbrev S50257x1x1024 : Shape := ⟨3, ![50257, 1, 1024]⟩
abbrev S50257x8x128 : Shape := ⟨3, ![50257, 8, 128]⟩
abbrev S50257x768 : Shape := ⟨2, ![50257, 768]⟩
abbrev S1024x1024 : Shape := ⟨2, ![1024, 1024]⟩
abbrev S1x768 : Shape := ⟨2, ![1, 768]⟩
abbrev S81x8x128 : Shape := ⟨3, ![81, 8, 128]⟩
abbrev S8x81x128 : Shape := ⟨3, ![8, 81, 128]⟩
abbrev S81x768 : Shape := ⟨2, ![81, 768]⟩
abbrev S1024x768 : Shape := ⟨2, ![1024, 768]⟩
abbrev S1024x8x128 : Shape := ⟨3, ![1024, 8, 128]⟩
abbrev S128x768 : Shape := ⟨2, ![128, 768]⟩
abbrev S1x81x128 : Shape := ⟨3, ![1, 81, 128]⟩
abbrev S81x128 : Shape := ⟨2, ![81, 128]⟩
abbrev S1024x1x128 : Shape := ⟨3, ![1024, 1, 128]⟩
abbrev S1024x128 : Shape := ⟨2, ![1024, 128]⟩
abbrev S1x1024x768 : Shape := ⟨3, ![1, 1024, 768]⟩

abbrev nBuf : Space → Nat
  | .hbm => 17
  | .vmem => 10
  | .smem => 0
  | _ => 0

abbrev bufTy : (tb : Table) → Fin (tcTables nBuf tb) → BufTy
  | .hbm, ⟨0, _⟩ => ⟨S1x1024x50257, .f32⟩
  | .hbm, ⟨1, _⟩ => ⟨S1x1024x1024, .f32⟩
  | .hbm, ⟨2, _⟩ => ⟨S768x50257, .f32⟩
  | .hbm, ⟨3, _⟩ => ⟨S768, .f32⟩
  | .hbm, ⟨4, _⟩ => ⟨S768x1024, .f32⟩
  | .hbm, ⟨5, _⟩ => ⟨S768, .f32⟩
  | .hbm, ⟨6, _⟩ => ⟨S50257x1x1024, .f32⟩
  | .hbm, ⟨7, _⟩ => ⟨S50257x8x128, .f32⟩
  | .hbm, ⟨8, _⟩ => ⟨S50257x768, .f32⟩
  | .hbm, ⟨9, _⟩ => ⟨S1024x1024, .f32⟩
  | .hbm, ⟨10, _⟩ => ⟨S768, .f32⟩
  | .hbm, ⟨11, _⟩ => ⟨S1x768, .f32⟩
  | .hbm, ⟨12, _⟩ => ⟨S81x8x128, .f32⟩
  | .hbm, ⟨13, _⟩ => ⟨S8x81x128, .f32⟩
  | .hbm, ⟨14, _⟩ => ⟨S81x768, .f32⟩
  | .hbm, ⟨15, _⟩ => ⟨S1024x768, .f32⟩
  | .hbm, ⟨16, _⟩ => ⟨S1x1024x768, .f32⟩
  | .local _ .vmem, ⟨0, _⟩ => ⟨S1024x8x128, .f32⟩
  | .local _ .vmem, ⟨1, _⟩ => ⟨S1024x8x128, .f32⟩
  | .local _ .vmem, ⟨2, _⟩ => ⟨S1024x1024, .f32⟩
  | .local _ .vmem, ⟨3, _⟩ => ⟨S1024x768, .f32⟩
  | .local _ .vmem, ⟨4, _⟩ => ⟨S1024x768, .f32⟩
  | .local _ .vmem, ⟨5, _⟩ => ⟨S768x1024, .f32⟩
  | .local _ .vmem, ⟨6, _⟩ => ⟨S1x768, .f32⟩
  | .local _ .vmem, ⟨7, _⟩ => ⟨S8x81x128, .f32⟩
  | .local _ .vmem, ⟨8, _⟩ => ⟨S81x768, .f32⟩
  | .local _ .vmem, ⟨9, _⟩ => ⟨S1024x768, .f32⟩
  | _, _ => ⟨S1x1024x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x81x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S81x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  transposes_S1x1024x50257_S50257x1x1024_2_0_1 : S1x1024x50257.Transposes [2, 0, 1] S50257x1x1024
  shapeCasts_S50257x1x1024_S50257x8x128 : S50257x1x1024.ShapeCasts S50257x8x128
  transposes_S768x50257_S50257x768_1_0 : S768x50257.Transposes [1, 0] S50257x768
  shapeCasts_S1x1024x1024_S1024x1024 : S1x1024x1024.ShapeCasts S1024x1024
  shapeCasts_S768_S1x768 : S768.ShapeCasts S1x768
  slices_S50257x8x128_S81x8x128_50176_0_0 : S50257x8x128.Slices ![50176, 0, 0] S81x8x128
  transposes_S81x8x128_S8x81x128_1_0_2 : S81x8x128.Transposes [1, 0, 2] S8x81x128
  slices_S50257x768_S81x768_50176_0 : S50257x768.Slices ![50176, 0] S81x768
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S768x1024_S768x1024_0_0 : ∀ a, (![0, 0] : Fin 2 → Nat) a + S768x1024.size a ≤ S768x1024.size a
  h_S768x1024 : 0 < S768x1024.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  inb_S81x768_S81x768_0_0 : ∀ a, (![0, 0] : Fin 2 → Nat) a + S81x768.size a ≤ S81x768.size a
  h_S81x768 : 0 < S81x768.numel
  shapeCasts_S81x768_S81x768 : S81x768.ShapeCasts S81x768
  inb_S1024x768_S128x768_0_0 : ∀ a, (![0, 0] : Fin 2 → Nat) a + S128x768.size a ≤ S1024x768.size a
  h_S128x768 : 0 < S128x768.numel
  shapeCasts_S128x768_S128x768 : S128x768.ShapeCasts S128x768
  inb_S8x81x128_S1x81x128_0_0_0 : ∀ a, (![0, 0, 0] : Fin 3 → Nat) a + S1x81x128.size a ≤ S8x81x128.size a
  h_S1x81x128 : 0 < S1x81x128.numel
  shapeCasts_S1x81x128_S81x128 : S1x81x128.ShapeCasts S81x128
  inb_S1024x768_S128x768_128_0 : ∀ a, (![128, 0] : Fin 2 → Nat) a + S128x768.size a ≤ S1024x768.size a
  inb_S8x81x128_S1x81x128_1_0_0 : ∀ a, (![1, 0, 0] : Fin 3 → Nat) a + S1x81x128.size a ≤ S8x81x128.size a
  inb_S1024x768_S128x768_256_0 : ∀ a, (![256, 0] : Fin 2 → Nat) a + S128x768.size a ≤ S1024x768.size a
  inb_S8x81x128_S1x81x128_2_0_0 : ∀ a, (![2, 0, 0] : Fin 3 → Nat) a + S1x81x128.size a ≤ S8x81x128.size a
  inb_S1024x768_S128x768_384_0 : ∀ a, (![384, 0] : Fin 2 → Nat) a + S128x768.size a ≤ S1024x768.size a
  inb_S8x81x128_S1x81x128_3_0_0 : ∀ a, (![3, 0, 0] : Fin 3 → Nat) a + S1x81x128.size a ≤ S8x81x128.size a
  inb_S1024x768_S128x768_512_0 : ∀ a, (![512, 0] : Fin 2 → Nat) a + S128x768.size a ≤ S1024x768.size a
  inb_S8x81x128_S1x81x128_4_0_0 : ∀ a, (![4, 0, 0] : Fin 3 → Nat) a + S1x81x128.size a ≤ S8x81x128.size a
  inb_S1024x768_S128x768_640_0 : ∀ a, (![640, 0] : Fin 2 → Nat) a + S128x768.size a ≤ S1024x768.size a
  inb_S8x81x128_S1x81x128_5_0_0 : ∀ a, (![5, 0, 0] : Fin 3 → Nat) a + S1x81x128.size a ≤ S8x81x128.size a
  inb_S1024x768_S128x768_768_0 : ∀ a, (![768, 0] : Fin 2 → Nat) a + S128x768.size a ≤ S1024x768.size a
  inb_S8x81x128_S1x81x128_6_0_0 : ∀ a, (![6, 0, 0] : Fin 3 → Nat) a + S1x81x128.size a ≤ S8x81x128.size a
  inb_S1024x768_S128x768_896_0 : ∀ a, (![896, 0] : Fin 2 → Nat) a + S128x768.size a ≤ S1024x768.size a
  inb_S8x81x128_S1x81x128_7_0_0 : ∀ a, (![7, 0, 0] : Fin 3 → Nat) a + S1x81x128.size a ≤ S8x81x128.size a
  shapeCasts_S1024x768_S1024x768 : S1024x768.ShapeCasts S1024x768
  inb_S1024x8x128_S1024x1x128_0_0_0 : ∀ a, (![0, 0, 0] : Fin 3 → Nat) a + S1024x1x128.size a ≤ S1024x8x128.size a
  h_S1024x1x128 : 0 < S1024x1x128.numel
  shapeCasts_S1024x1x128_S1024x128 : S1024x1x128.ShapeCasts S1024x128
  inb_S1024x8x128_S1024x1x128_0_1_0 : ∀ a, (![0, 1, 0] : Fin 3 → Nat) a + S1024x1x128.size a ≤ S1024x8x128.size a
  inb_S1024x8x128_S1024x1x128_0_2_0 : ∀ a, (![0, 2, 0] : Fin 3 → Nat) a + S1024x1x128.size a ≤ S1024x8x128.size a
  inb_S1024x8x128_S1024x1x128_0_3_0 : ∀ a, (![0, 3, 0] : Fin 3 → Nat) a + S1024x1x128.size a ≤ S1024x8x128.size a
  inb_S1024x8x128_S1024x1x128_0_4_0 : ∀ a, (![0, 4, 0] : Fin 3 → Nat) a + S1024x1x128.size a ≤ S1024x8x128.size a
  inb_S1024x8x128_S1024x1x128_0_5_0 : ∀ a, (![0, 5, 0] : Fin 3 → Nat) a + S1024x1x128.size a ≤ S1024x8x128.size a
  inb_S1024x8x128_S1024x1x128_0_6_0 : ∀ a, (![0, 6, 0] : Fin 3 → Nat) a + S1024x1x128.size a ≤ S1024x8x128.size a
  inb_S1024x8x128_S1024x1x128_0_7_0 : ∀ a, (![0, 7, 0] : Fin 3 → Nat) a + S1024x1x128.size a ≤ S1024x8x128.size a
  shapeCasts_S1024x768_S1x1024x768 : S1024x768.ShapeCasts S1x1024x768
  dot_S1024x1024_S768x1024_S1024x768_1_1_0_0_n_n_wf : DotDims.WF S1024x1024 S768x1024 S1024x768 [1] [1] [0] [0] [] []
  dot_S81x128_S81x768_S128x768_0_0_1_1_n_n_wf : DotDims.WF S81x128 S81x768 S128x768 [0] [0] [1] [1] [] []
  dot_S1024x128_S1024x768_S128x768_0_0_1_1_n_n_wf : DotDims.WF S1024x128 S1024x768 S128x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x8x128.size a < S50257x8x128.size a
  hwx0_0 : ∀ i : grid0.Coords, EltTy.bits .f32 = 32 ∨ (Rect.unit (s := S50257x8x128) (fun a => cc0_transform_0 i a * S1024x8x128.size a) (fun a => (Pipeline.Clip.of (cc0_transform_0 i a) (S1024x8x128.size a) (S50257x8x128.size a)).extent (S1024x8x128.size a)) fun a => Pipeline.Clip.inb (Pipeline.Clip.ok_of (hstart0_0 i a))).WholeWords (EltTy.packing .f32)
  hwxs0_0 : ∀ i : grid0.Coords, EltTy.bits .f32 = 32 ∨ (Rect.unit (s := S1024x8x128) (fun _ => 0) (fun a => (Pipeline.Clip.of (cc0_transform_0 i a) (S1024x8x128.size a) (S50257x8x128.size a)).extent (S1024x8x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x768.size a < S50257x768.size a
  hwx0_2 : ∀ i : grid0.Coords, EltTy.bits .f32 = 32 ∨ (Rect.unit (s := S50257x768) (fun a => cc0_transform_2 i a * S1024x768.size a) (fun a => (Pipeline.Clip.of (cc0_transform_2 i a) (S1024x768.size a) (S50257x768.size a)).extent (S1024x768.size a)) fun a => Pipeline.Clip.inb (Pipeline.Clip.ok_of (hstart0_2 i a))).WholeWords (EltTy.packing .f32)
  hwxs0_2 : ∀ i : grid0.Coords, EltTy.bits .f32 = 32 ∨ (Rect.unit (s := S1024x768) (fun _ => 0) (fun a => (Pipeline.Clip.of (cc0_transform_2 i a) (S1024x768.size a) (S50257x768.size a)).extent (S1024x768.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1024.size a ≤ S768x1024.size a
  hwx0_3 : ∀ i : grid0.Coords, EltTy.bits .f32 = 32 ∨ (Rect.block (s := S768x1024) S768x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x81x128.size a ≤ S8x81x128.size a
  hwx0_5 : ∀ i : grid0.Coords, EltTy.bits .f32 = 32 ∨ (Rect.block (s := S8x81x128) S8x81x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S81x768.size a ≤ S81x768.size a
  hwx0_6 : ∀ i : grid0.Coords, EltTy.bits .f32 = 32 ∨ (Rect.block (s := S81x768) S81x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x768.size a ≤ S1024x768.size a
  hwx0_7 : ∀ i : grid0.Coords, EltTy.bits .f32 = 32 ∨ (Rect.block (s := S1024x768) S1024x768.size (cc0_transform_7 i) (hinb0_7 i)).WholeWords (EltTy.packing .f32)

variable [Facts₀]

def dot_S1024x1024_S768x1024_S1024x768_1_1_0_0_n_n : DotDims S1024x1024 S768x1024 S1024x768 where
  lhsContracting := [1]
  rhsContracting := [1]
  lhsNonContracting := [0]
  rhsNonContracting := [0]
  lhsBatch := []
  rhsBatch := []
  wf := dot_S1024x1024_S768x1024_S1024x768_1_1_0_0_n_n_wf
def dot_S81x128_S81x768_S128x768_0_0_1_1_n_n : DotDims S81x128 S81x768 S128x768 where
  lhsContracting := [0]
  rhsContracting := [0]
  lhsNonContracting := [1]
  rhsNonContracting := [1]
  lhsBatch := []
  rhsBatch := []
  wf := dot_S81x128_S81x768_S128x768_0_0_1_1_n_n_wf
def dot_S1024x128_S1024x768_S128x768_0_0_1_1_n_n : DotDims S1024x128 S1024x768 S128x768 where
  lhsContracting := [0]
  rhsContracting := [0]
  lhsNonContracting := [1]
  rhsNonContracting := [1]
  lhsBatch := []
  rhsBatch := []
  wf := dot_S1024x128_S1024x768_S128x768_0_0_1_1_n_n_wf

abbrev win0_0 : Pipeline.Window sig grid0 :=
  Pipeline.Window.ofSpecClip (Memref.whole main_v1) S1024x8x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v2) S1024x768.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg4) S768x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S8x81x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S81x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1024x768.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x1024x50257 : Shape := ⟨3, ![1, 1024, 50257]⟩
abbrev S1x1024x1024 : Shape := ⟨3, ![1, 1024, 1024]⟩
abbrev S768x50257 : Shape := ⟨2, ![768, 50257]⟩
abbrev S768 : Shape := ⟨1, ![768]⟩
abbrev S768x1024 : Shape := ⟨2, ![768, 1024]⟩
abbrev S1x1024x768 : Shape := ⟨3, ![1, 1024, 768]⟩
abbrev S1x1x768 : Shape := ⟨3, ![1, 1, 768]⟩

abbrev nBuf : Space → Nat
  | .hbm => 15
  | .vmem => 0
  | .smem => 0
  | _ => 0

abbrev bufTy : (tb : Table) → Fin (tcTables nBuf tb) → BufTy
  | .hbm, ⟨0, _⟩ => ⟨S1x1024x50257, .f32⟩
  | .hbm, ⟨1, _⟩ => ⟨S1x1024x1024, .f32⟩
  | .hbm, ⟨2, _⟩ => ⟨S768x50257, .f32⟩
  | .hbm, ⟨3, _⟩ => ⟨S768, .f32⟩
  | .hbm, ⟨4, _⟩ => ⟨S768x1024, .f32⟩
  | .hbm, ⟨5, _⟩ => ⟨S768, .f32⟩
  | .hbm, ⟨6, _⟩ => ⟨S1x1024x768, .f32⟩
  | .hbm, ⟨7, _⟩ => ⟨S1x1x768, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S1x1x768, .f32⟩
  | .hbm, ⟨12, _⟩ => ⟨S1x1024x768, .f32⟩
  | .hbm, ⟨13, _⟩ => ⟨S1x1024x768, .f32⟩
  | .hbm, ⟨14, _⟩ => ⟨S1x1024x768, .f32⟩
  | _, _ => ⟨S1x1024x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S1x1024x768_0_1_2 : S1x1x768.BroadcastsInDim S1x1024x768 (![0, 1, 2] : Fin 3 → Fin S1x1024x768.rank)
  dot_S1x1024x50257_S768x50257_S1x1024x768_2_1_01_0_n_n_wf : DotDims.WF S1x1024x50257 S768x50257 S1x1024x768 [2] [1] [0, 1] [0] [] []
  dot_S1x1024x1024_S768x1024_S1x1024x768_2_1_01_0_n_n_wf : DotDims.WF S1x1024x1024 S768x1024 S1x1024x768 [2] [1] [0, 1] [0] [] []

variable [Facts₀]

def dot_S1x1024x50257_S768x50257_S1x1024x768_2_1_01_0_n_n : DotDims S1x1024x50257 S768x50257 S1x1024x768 where
  lhsContracting := [2]
  rhsContracting := [1]
  lhsNonContracting := [0, 1]
  rhsNonContracting := [0]
  lhsBatch := []
  rhsBatch := []
  wf := dot_S1x1024x50257_S768x50257_S1x1024x768_2_1_01_0_n_n_wf
def dot_S1x1024x1024_S768x1024_S1x1024x768_2_1_01_0_n_n : DotDims S1x1024x1024 S768x1024 S1x1024x768 where
  lhsContracting := [2]
  rhsContracting := [1]
  lhsNonContracting := [0, 1]
  rhsNonContracting := [0]
  lhsBatch := []
  rhsBatch := []
  wf := dot_S1x1024x1024_S768x1024_S1x1024x768_2_1_01_0_n_n_wf

class Facts : Prop extends Facts₀ where

variable [Facts]
-- ==== Proof.KShared.lean ====
/-
  What the two runs of the kernel body share. The body branches once, on the grid coordinate: at the first point
  (k = 0) it first resets the output block to the positional product plus the bias row and adds the products of the
  ragged vocabulary tail, and at every point it adds, row group by row group, the product of the point's vocabulary
  block. The condition of that branch is decided over the 49 points; the staging memrefs the pipeline hands the body
  at a point are named as it spells them.
-/
import proofs.«134926_g86148454023849_cont_9to1_m_880_16_alg».proof.Proof.Gen.Kernel.Launch
import proofs.«134926_g86148454023849_cont_9to1_m_880_16_alg».proof.Proof.Gen.Kernel.Skeleton
import proofs.«134926_g86148454023849_cont_9to1_m_880_16_alg».proof.Proof.Gen.Kernel.Points
import proofs.«134926_g86148454023849_cont_9to1_m_880_16_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, from the grid coordinate: the scalar chain `(k == 0) != 0`. -/
abbrev isFirst (i : grid0.Coords) : Prop :=
  (Scalar.cmpi .ne (Scalar.extui (Scalar.cmpi .eq (BitVec.ofNat 32 (i 0).val) 0#32)) 0#32) = 1#1

/-- It holds at the first of the 49 points only. -/
theorem isFirst_iff : ∀ t : Fin cfg0.N, isFirst (grid0.coords t) ↔ t.val = 0 :=
  (by decide +kernel : ∀ t : Fin grid0.N, isFirst (grid0.coords t) ↔ t.val = 0)

/-- The view through which the output block's contents are stated (any staging buffer of the window would do). -/
abbrev outView : View sig .tc .vmem S1024x768 .f32 := (Memref.whole cc0_stg7_0 : Memref sig .tc .vmem S1024x768 .f32).view

/-- Each window's current staging memref at point `t`, as the pipeline passes it to the body, and its wholeness. -/
abbrev mr0 (t : Fin cfg0.N) : Memref sig .tc .vmem S1024x8x128 .f32 := win0_0.stage (cfg0.slots t 0)
abbrev hr0 (t : Fin cfg0.N) : (mr0 t).IsWhole := hstage0_0 ((cfg0.slots t 0).cast nbuf0_0)
abbrev mr1 (t : Fin cfg0.N) : Memref sig .tc .vmem S1024x1024 .f32 := win0_1.stage (cfg0.slots t 1)
abbrev hr1 (t : Fin cfg0.N) : (mr1 t).IsWhole := hstage0_1 ((cfg0.slots t 1).cast nbuf0_1)
abbrev mr2 (t : Fin cfg0.N) : Memref sig .tc .vmem S1024x768 .f32 := win0_2.stage (cfg0.slots t 2)
abbrev hr2 (t : Fin cfg0.N) : (mr2 t).IsWhole := hstage0_2 ((cfg0.slots t 2).cast nbuf0_2)
abbrev mr3 (t : Fin cfg0.N) : Memref sig .tc .vmem S768x1024 .f32 := win0_3.stage (cfg0.slots t 3)
abbrev hr3 (t : Fin cfg0.N) : (mr3 t).IsWhole := hstage0_3 ((cfg0.slots t 3).cast nbuf0_3)
abbrev mr4 (t : Fin cfg0.N) : Memref sig .tc .vmem S1x768 .f32 := win0_4.stage (cfg0.slots t 4)
abbrev hr4 (t : Fin cfg0.N) : (mr4 t).IsWhole := hstage0_4 ((cfg0.slots t 4).cast nbuf0_4)
abbrev mr5 (t : Fin cfg0.N) : Memref sig .tc .vmem S8x81x128 .f32 := win0_5.stage (cfg0.slots t 5)
abbrev hr5 (t : Fin cfg0.N) : (mr5 t).IsWhole := hstage0_5 ((cfg0.slots t 5).cast nbuf0_5)
abbrev mr6 (t : Fin cfg0.N) : Memref sig .tc .vmem S81x768 .f32 := win0_6.stage (cfg0.slots t 6)
abbrev hr6 (t : Fin cfg0.N) : (mr6 t).IsWhole := hstage0_6 ((cfg0.slots t 6).cast nbuf0_6)
abbrev mr7 (t : Fin cfg0.N) : Memref sig .tc .vmem S1024x768 .f32 := win0_7.stage (cfg0.slots t 7)
abbrev hr7 (t : Fin cfg0.N) : (mr7 t).IsWhole := hstage0_7 ((cfg0.slots t 7).cast nbuf0_7)

end Cert.Kernel.Acc

end
-- ==== Proof.KStepLater.lean ====
/-
  The body at a point after the first: the branch is not taken, and the body adds to each of the eight row groups of
  the output block (128 rows each, read back from the block itself) the product of that group's slab of the point's
  activation block with the point's weight block. What the eight stores leave is found by running the body.
-/
import proofs.«134926_g86148454023849_cont_9to1_m_880_16_alg».proof.Proof.KShared

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces the body's eight stores leave in the output block (last first) at a point where the branch is not
    taken, with the proof that the body, given the activation block `x0`, the weight block `x2` and the output block at
    `xo`, runs to the continuation with the two inputs as they were and the output block with those pieces written. -/
noncomputable def laterRun (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : ¬isFirst i)
    (x0 : Vec F S1024x8x128 .f32) (x2 : Vec F S1024x768 .f32) (xo : Vec F S1024x768 .f32) :
    { L : List (View.Piece (Elt F) S1024x768 .f32) //
      ∀ (E : Set ℕ) (K : PUnit → sProp 𝕄),
        iprop(owns (c : Thread nD τ) arg1 fullShare x0 ∗ owns (c : Thread nD τ) arg3 fullShare x2 ∗ owns (c : Thread nD τ) arg8 fullShare xo
            ∗ (iprop(owns (c : Thread nD τ) arg1 fullShare x0 ∗ owns (c : Thread nD τ) arg3 fullShare x2
                ∗ (∃ f, arg8.view.loc (c : Thread nD τ) ↦[arg8.view.set]{fullShare} arg8.view.writes (Elt F) f L)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, fun E K => ?run⟩
  case run =>
    simp only [cc0__body_eq_skeleton]; unfold cc0__body_skel
    simp only [k0_part3_eq_skeleton, k0_part4_eq_skeleton]
    unfold owns
    iintro ⟨⟨%f0, %hf0, H0⟩, ⟨%f2, %hf2, H2⟩, ⟨%fo, %hfo, Ho⟩, Hk⟩
    obtain rfl := harg1.eq_unread hf0; obtain rfl := harg3.eq_unread hf2; obtain rfl := harg8.eq_unread hfo
    sl_exec (disch := first | exact hc)
    sl_step
    iapply Hk
    isplitl [H0]
    · iexists _; isplitr; · ipureintro; exact harg1.read_unread _
      iexact H0
    isplitl [H2]
    · iexists _; isplitr; · ipureintro; exact harg3.read_unread _
      iexact H2
    iexists _; iexact Ho

end Cert.Kernel.Acc

end
-- ==== Proof.KStepFirst.lean ====
/-
  The body at the first point: the branch is taken. The body stores into the whole output block the positional
  product plus the bias row; adds to each of the eight row groups the product of that group's slab of the
  vocabulary tail with the tail's weights; and then, as at every point, adds to each row group the product of its
  slab of the point's activation block with the point's weight block. What the seventeen stores leave is found
  by running the body.
-/
import proofs.«134926_g86148454023849_cont_9to1_m_880_16_alg».proof.Proof.KStepLater

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- The pieces the body's stores leave in the output block (last first) at a point where the branch is taken, with
    the proof that the body, given the seven input blocks and the output block at anything, runs to the continuation
    with the inputs as they were and the output block with those pieces written. -/
noncomputable def firstRun (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : isFirst i)
    (x0 : Vec F S1024x8x128 .f32) (x1 : Vec F S1024x1024 .f32) (x2 : Vec F S1024x768 .f32) (x3 : Vec F S768x1024 .f32)
    (x4 : Vec F S1x768 .f32) (x5 : Vec F S8x81x128 .f32) (x6 : Vec F S81x768 .f32) :
    { L : List (View.Piece (Elt F) S1024x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare x6
                ∗ (∃ f, arg8.view.loc (c : Thread nD τ) ↦[arg8.view.set]{fullShare} arg8.view.writes (Elt F) f L)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, fun E K => ?run⟩
  case run =>
    simp only [cc0__body_eq_skeleton]; unfold cc0__body_skel
    simp only [k0_part3_eq_skeleton, k0_part1_eq_skeleton, k0_part2_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.Kernel.Acc

end
-- ==== Proof.KCarried.lean ====
/-
  What the output block holds after each of the 49 points, and the frame of the whole program.

  The output block is written back to its array once, after the last point; between points it stays in its staging
  buffer. After the first point it holds what the first step builds from the seven input blocks; after every later
  point it holds what the later step builds from the point's activation and weight blocks and from what the point
  before left. The two vocabulary-blocked inputs are fetched anew at every point, and each of their 49 blocks lies
  wholly inside its array (49·1024 ≤ 50257), so that a fetch fills the whole staging buffer. With these contents the
  pipeline's body obligation holds at every point, and the library's launch theorem gives the run, from which the
  frame claim is read.
-/
import proofs.«134926_g86148454023849_cont_9to1_m_880_16_alg».proof.Proof.KStepFirst
import Idealize.ShloMosaic.Lib.Pipeline.Frame
import Idealize.ShloMosaic.Lib.Pipeline.FrameSuffix

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs' stores cover the output block -/

/-- The later step's eight stores tile the output block in row groups of 128. -/
theorem cover_later (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : ¬isFirst i)
    (x0 : Vec F S1024x8x128 .f32) (x2 : Vec F S1024x768 .f32) (xo : Vec F S1024x768 .f32) (y : S1024x768.Idx) :
    ∃ pc ∈ (laterRun c i arg1 harg1 arg2 harg2 arg3 harg3 arg4 harg4 arg5 harg5 arg6 harg6 arg7 harg7 arg8 harg8 hc x0 x2 xo).1, y ∈ pc.1.set :=
  View.cover_of_tiledL (laterRun c i arg1 harg1 arg2 harg2 arg3 harg3 arg4 harg4 arg5 harg5 arg6 harg6 arg7 harg7 arg8 harg8 hc x0 x2 xo).1 S128x768.size (by sl_kernel_rfl) y

/-- What the later step leaves in the output block: its stores read back. -/
def outLater (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : ¬isFirst i)
    (x0 : Vec F S1024x8x128 .f32) (x2 : Vec F S1024x768 .f32) (xo : Vec F S1024x768 .f32) : Vec F S1024x768 .f32 :=
  outView.read (Elt F) (outView.writes (Elt F) outView.junk (laterRun c i arg1 harg1 arg2 harg2 arg3 harg3 arg4 harg4 arg5 harg5 arg6 harg6 arg7 harg7 arg8 harg8 hc x0 x2 xo).1)

/-- Among the first step's stores, the last eight tile the output block in row groups of 128. -/
theorem cover_first (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : isFirst i)
    (x0 : Vec F S1024x8x128 .f32) (x1 : Vec F S1024x1024 .f32) (x2 : Vec F S1024x768 .f32) (x3 : Vec F S768x1024 .f32)
    (x4 : Vec F S1x768 .f32) (x5 : Vec F S8x81x128 .f32) (x6 : Vec F S81x768 .f32) (y : S1024x768.Idx) :
    ∃ pc ∈ (firstRun c i arg1 harg1 arg2 harg2 arg3 harg3 arg4 harg4 arg5 harg5 arg6 harg6 arg7 harg7 arg8 harg8 hc x0 x1 x2 x3 x4 x5 x6).1, y ∈ pc.1.set :=
  View.cover_of_tiledL (firstRun c i arg1 harg1 arg2 harg2 arg3 harg3 arg4 harg4 arg5 harg5 arg6 harg6 arg7 harg7 arg8 harg8 hc x0 x1 x2 x3 x4 x5 x6).1 S128x768.size (by sl_kernel_rfl) y

/-- What the first step leaves in the output block: its stores read back. -/
def outFirst (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : isFirst i)
    (x0 : Vec F S1024x8x128 .f32) (x1 : Vec F S1024x1024 .f32) (x2 : Vec F S1024x768 .f32) (x3 : Vec F S768x1024 .f32)
    (x4 : Vec F S1x768 .f32) (x5 : Vec F S8x81x128 .f32) (x6 : Vec F S81x768 .f32) : Vec F S1024x768 .f32 :=
  outView.read (Elt F) (outView.writes (Elt F) outView.junk (firstRun c i arg1 harg1 arg2 harg2 arg3 harg3 arg4 harg4 arg5 harg5 arg6 harg6 arg7 harg7 arg8 harg8 hc x0 x1 x2 x3 x4 x5 x6).1)

/-! ## The vocabulary-blocked inputs: every block inside its array -/

/-- No block of the activation window overhangs its array on the grid: (k + 1)·1024 ≤ 50257 for k < 49. -/
theorem noClip0 : ∀ t : Fin cfg0.N, ∀ a, (cfg0.win 0).clip (cfg0.grid.coords t) a = none :=
  (by decide +kernel : ∀ t : Fin grid0.N, ∀ a, win0_0.clip (grid0.coords t) a = none)
/-- Nor does a block of the weight window. -/
theorem noClip2 : ∀ t : Fin cfg0.N, ∀ a, (cfg0.win 2).clip (cfg0.grid.coords t) a = none :=
  (by decide +kernel : ∀ t : Fin grid0.N, ∀ a, win0_2.clip (grid0.coords t) a = none)

/-- The activation window's staging buffer after the fetch at point `t`: the block, which fills the buffer (the
    filler is never read: `noClip0`). -/
def blk0 (c : Dev nD) (t : Fin cfg0.N) : Vec F S1024x8x128 .f32 :=
  win0_0.fill (grid0.coords t) (fun _ => Scalar.ofBits .f32 0#32) (iblk m c 0 t)
/-- The weight window's likewise. -/
def blk2 (c : Dev nD) (t : Fin cfg0.N) : Vec F S1024x768 .f32 :=
  win0_2.fill (grid0.coords t) (fun _ => Scalar.ofBits .f32 0#32) (iblk m c 2 t)

/-! ## What the output block holds after each point -/

/-- The output block after the body at point `n`: the first step's result at point 0, and at a later point the later
    step's result over what point `n - 1` left. -/
def outsAt (c : Dev nD) : (n : ℕ) → n < cfg0.N → Vec F S1024x768 .f32
  | 0, hn => outFirst c (grid0.coords ⟨0, hn⟩) (mr0 ⟨0, hn⟩) (hr0 ⟨0, hn⟩) (mr1 ⟨0, hn⟩) (hr1 ⟨0, hn⟩) (mr2 ⟨0, hn⟩) (hr2 ⟨0, hn⟩) (mr3 ⟨0, hn⟩) (hr3 ⟨0, hn⟩) (mr4 ⟨0, hn⟩) (hr4 ⟨0, hn⟩) (mr5 ⟨0, hn⟩) (hr5 ⟨0, hn⟩) (mr6 ⟨0, hn⟩) (hr6 ⟨0, hn⟩) (mr7 ⟨0, hn⟩) (hr7 ⟨0, hn⟩) ((isFirst_iff ⟨0, hn⟩).mpr rfl) (blk0 m c ⟨0, hn⟩) (iblk m c 1 ⟨0, hn⟩) (blk2 m c ⟨0, hn⟩) (iblk m c 3 ⟨0, hn⟩) (iblk m c 4 ⟨0, hn⟩) (iblk m c 5 ⟨0, hn⟩) (iblk m c 6 ⟨0, hn⟩)
  | n + 1, hn => outLater c (grid0.coords ⟨n + 1, hn⟩) (mr0 ⟨n + 1, hn⟩) (hr0 ⟨n + 1, hn⟩) (mr1 ⟨n + 1, hn⟩) (hr1 ⟨n + 1, hn⟩) (mr2 ⟨n + 1, hn⟩) (hr2 ⟨n + 1, hn⟩) (mr3 ⟨n + 1, hn⟩) (hr3 ⟨n + 1, hn⟩) (mr4 ⟨n + 1, hn⟩) (hr4 ⟨n + 1, hn⟩) (mr5 ⟨n + 1, hn⟩) (hr5 ⟨n + 1, hn⟩) (mr6 ⟨n + 1, hn⟩) (hr6 ⟨n + 1, hn⟩) (mr7 ⟨n + 1, hn⟩) (hr7 ⟨n + 1, hn⟩) (fun h => Nat.succ_ne_zero n ((isFirst_iff ⟨n + 1, hn⟩).mp h))
      (blk0 m c ⟨n + 1, hn⟩) (blk2 m c ⟨n + 1, hn⟩) (outsAt c n (Nat.lt_of_succ_lt hn))

theorem outsAt_first (c : Dev nD) (t : Fin cfg0.N) (h0 : t.val = 0) :
    outsAt m c t.val t.isLt = outFirst c (grid0.coords t) (mr0 t) (hr0 t) (mr1 t) (hr1 t) (mr2 t) (hr2 t) (mr3 t) (hr3 t) (mr4 t) (hr4 t) (mr5 t) (hr5 t) (mr6 t) (hr6 t) (mr7 t) (hr7 t) ((isFirst_iff t).mpr h0) (blk0 m c t) (iblk m c 1 t) (blk2 m c t) (iblk m c 3 t) (iblk m c 4 t) (iblk m c 5 t) (iblk m c 6 t) := by
  obtain ⟨n, hn⟩ := t
  cases n with
  | zero => rfl
  | succ n => exact absurd h0 (Nat.succ_ne_zero n)

theorem outsAt_later (c : Dev nD) (t : Fin cfg0.N) (h0 : ¬t.val = 0) :
    outsAt m c t.val t.isLt = outLater c (grid0.coords t) (mr0 t) (hr0 t) (mr1 t) (hr1 t) (mr2 t) (hr2 t) (mr3 t) (hr3 t) (mr4 t) (hr4 t) (mr5 t) (hr5 t) (mr6 t) (hr6 t) (mr7 t) (hr7 t) (fun h => h0 ((isFirst_iff t).mp h))
      (blk0 m c t) (blk2 m c t) (outsAt m c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the region finds them; after the body at point `t` every input's buffer at its block and the
    output's at `outsAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => blk2 m c t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = blk2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outsAt m c t.val t.isLt := by dsimp only [dats]

/-- The activation buffer is fetched at every point and the fetch fills it. -/
theorem before_0 (c : Dev nD) (t : Fin cfg0.N) (d) : (dats m 0 c).before 0 t d = blk0 m c t := by
  rw [Dat.before_fetched _ 0 t (fetch0_0 t)]
  unfold Dat.fetched Dat.blockOf blk0 iblk
  rw [A_eq m c 0]
  exact Pipeline.fill_of_clip_none (cfg := cfg0) (0 : Fin cfg0.W) _ (noClip0 t) _ _ _
/-- So is the weight buffer. -/
theorem before_2 (c : Dev nD) (t : Fin cfg0.N) (d) : (dats m 0 c).before 2 t d = blk2 m c t := by
  rw [Dat.before_fetched _ 2 t (fetch0_2 t)]
  unfold Dat.fetched Dat.blockOf blk2 iblk
  rw [A_eq m c 2]
  exact Pipeline.fill_of_clip_none (cfg := cfg0) (2 : Fin cfg0.W) _ (noClip2 t) _ _ _
/-- The five inputs fetched once hold their block at every point. -/
theorem before_1 (c : Dev nD) (t : Fin cfg0.N) (d) : (dats m 0 c).before 1 t d = iblk m c 1 t :=
  before0_1_of m (dats m 0 c) (A_eq m c 1) (after_1 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
/-- At the first point the output buffer holds anything. -/
theorem before_7_first (c : Dev nD) (t : Fin cfg0.N) (h0 : t.val = 0) (d) : (dats m 0 c).before 7 t d = d :=
  Dat.before_out_reset _ 7 rfl t (.inl h0) d
/-- At a later point it holds what the point before left: it is written back only after the last point. -/
theorem before_7_later (c : Dev nD) (t : Fin cfg0.N) (h0 : ¬t.val = 0) (d) :
    (dats m 0 c).before 7 t d = outsAt m c (t.val - 1) (Nat.lt_of_le_of_lt (Nat.sub_le _ _) t.isLt) := by
  have hN : t.val < 49 := lt_of_lt_of_eq t.isLt (show cfg0.N = 49 from N_0)
  rw [Dat.before_out_kept _ 7 rfl t h0 (Bool.eq_false_iff.mpr fun h => by have := (flush0_7 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d))
    ∗ (∃ d, owns (c : Thread nD τ) (mr7 t) fullShare ((dats m 0 c).before 7 t d)))

/-- and what it returns: the two vocabulary-blocked buffers are stated on the part a fetch fills (all of it). -/
def bodyPost (c : Dev nD) (t : Fin cfg0.N) : sProp 𝕄 :=
  iprop((dats m 0 c).Φ t.succ ∗ (dats m 0 c).owesAt () t.succ
    ∗ (∃ d, owns (c : Thread nD τ) (mr0 t) fullShare (win0_0.fill (grid0.coords t) d (win0_0.cut (grid0.coords t) ((dats m 0 c).after 0 t))))
    ∗ owns (c : Thread nD τ) (mr1 t) fullShare ((dats m 0 c).after 1 t)
    ∗ (∃ d, owns (c : Thread nD τ) (mr2 t) fullShare (win0_2.fill (grid0.coords t) d (win0_2.cut (grid0.coords t) ((dats m 0 c).after 2 t))))
    ∗ owns (c : Thread nD τ) (mr3 t) fullShare ((dats m 0 c).after 3 t)
    ∗ owns (c : Thread nD τ) (mr4 t) fullShare ((dats m 0 c).after 4 t)
    ∗ owns (c : Thread nD τ) (mr5 t) fullShare ((dats m 0 c).after 5 t)
    ∗ owns (c : Thread nD τ) (mr6 t) fullShare ((dats m 0 c).after 6 t)
    ∗ owns (c : Thread nD τ) (mr7 t) fullShare ((dats m 0 c).after 7 t))

set_option maxHeartbeats 1600000 in
/-- The body at any point: the inputs' buffers hold their blocks; at the first point the first step's run applies,
    the output buffer at anything; at a later point the later step's, the output buffer at what the point before
    left. The invariant passes through unread and nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val = 0
  · rw [outsAt_first m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstRun c (grid0.coords t) (mr0 t) (hr0 t) (mr1 t) (hr1 t) (mr2 t) (hr2 t) (mr3 t) (hr3 t) (mr4 t) (hr4 t) (mr5 t) (hr5 t) (mr6 t) (hr6 t) (mr7 t) (hr7 t) ((isFirst_iff t).mpr h0) (blk0 m c t) (iblk m c 1 t) (blk2 m c t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]
    · iexists (blk0 m c t); rw [Window.fill_cut]; iexact H0
    isplitl [H1]; · iexact H1
    isplitl [H2]
    · iexists (blk2 m c t); rw [Window.fill_cut]; iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_first c _ (mr0 t) (hr0 t) (mr1 t) (hr1 t) (mr2 t) (hr2 t) (mr3 t) (hr3 t) (mr4 t) (hr4 t) (mr5 t) (hr5 t) (mr6 t) (hr6 t) (mr7 t) (hr7 t) _ _ _ _ _ _ _ _)
  · rw [outsAt_later m c t h0]
    simp only [before_7_later m c t h0]
    unfold outLater
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((laterRun c (grid0.coords t) (mr0 t) (hr0 t) (mr1 t) (hr1 t) (mr2 t) (hr2 t) (mr3 t) (hr3 t) (mr4 t) (hr4 t) (mr5 t) (hr5 t) (mr6 t) (hr6 t) (mr7 t) (hr7 t) (fun h => h0 ((isFirst_iff t).mp h)) (blk0 m c t) (blk2 m c t)
      (outsAt m c (t.val - 1) (Nat.lt_of_le_of_lt (Nat.sub_le _ _) t.isLt))).2 Set.univ _)
    isplitl [H0]; · iexact H0
    isplitl [H2]; · iexact H2
    isplitl [H7]; · iexact H7
    iintro ⟨H0, H2, ⟨%e7, H7⟩⟩
    isplitl [HΦ]; · iexact HΦ
    isplitl [Ho]; · iexact Ho
    isplitl [H0]
    · iexists (blk0 m c t); rw [Window.fill_cut]; iexact H0
    isplitl [H1]; · iexact H1
    isplitl [H2]
    · iexists (blk2 m c t); rw [Window.fill_cut]; iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_later c _ (mr0 t) (hr0 t) (mr1 t) (hr1 t) (mr2 t) (hr2 t) (mr3 t) (hr3 t) (mr4 t) (hr4 t) (mr5 t) (hr5 t) (mr6 t) (hr6 t) (mr7 t) (hr7 t) _ _ _ _)

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline ending at what the library computes from the proof data and every other buffer as the host lines after
    the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its six argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Acc

end
-- ==== Proof.KIShared.lean ====
/-
  What the two runs of the kernel body share. The body branches once, on the grid coordinate: at the first point
  (k = 0) it first resets the output block to the positional product plus the bias row and adds the products of the
  ragged vocabulary tail, and at every point it adds, row group by row group, the product of the point's vocabulary
  block. The condition of that branch is decided over the 49 points; the staging memrefs the pipeline hands the body
  at a point are named as it spells them.
-/
import proofs.«134926_g86148454023849_cont_9to1_m_880_16_alg».proof.Proof.Gen.KernelIdeal.Launch
import proofs.«134926_g86148454023849_cont_9to1_m_880_16_alg».proof.Proof.Gen.KernelIdeal.Skeleton
import proofs.«134926_g86148454023849_cont_9to1_m_880_16_alg».proof.Proof.Gen.KernelIdeal.Points
import proofs.«134926_g86148454023849_cont_9to1_m_880_16_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, from the grid coordinate: the scalar chain `(k == 0) != 0`. -/
abbrev isFirst (i : grid0.Coords) : Prop :=
  (Scalar.cmpi .ne (Scalar.extui (Scalar.cmpi .eq (BitVec.ofNat 32 (i 0).val) 0#32)) 0#32) = 1#1

/-- It holds at the first of the 49 points only. -/
theorem isFirst_iff : ∀ t : Fin cfg0.N, isFirst (grid0.coords t) ↔ t.val = 0 :=
  (by decide +kernel : ∀ t : Fin grid0.N, isFirst (grid0.coords t) ↔ t.val = 0)

/-- The view through which the output block's contents are stated (any staging buffer of the window would do). -/
abbrev outView : View sig .tc .vmem S1024x768 .f32 := (Memref.whole cc0_stg7_0 : Memref sig .tc .vmem S1024x768 .f32).view

/-- Each window's current staging memref at point `t`, as the pipeline passes it to the body, and its wholeness. -/
abbrev mr0 (t : Fin cfg0.N) : Memref sig .tc .vmem S1024x8x128 .f32 := win0_0.stage (cfg0.slots t 0)
abbrev hr0 (t : Fin cfg0.N) : (mr0 t).IsWhole := hstage0_0 ((cfg0.slots t 0).cast nbuf0_0)
abbrev mr1 (t : Fin cfg0.N) : Memref sig .tc .vmem S1024x1024 .f32 := win0_1.stage (cfg0.slots t 1)
abbrev hr1 (t : Fin cfg0.N) : (mr1 t).IsWhole := hstage0_1 ((cfg0.slots t 1).cast nbuf0_1)
abbrev mr2 (t : Fin cfg0.N) : Memref sig .tc .vmem S1024x768 .f32 := win0_2.stage (cfg0.slots t 2)
abbrev hr2 (t : Fin cfg0.N) : (mr2 t).IsWhole := hstage0_2 ((cfg0.slots t 2).cast nbuf0_2)
abbrev mr3 (t : Fin cfg0.N) : Memref sig .tc .vmem S768x1024 .f32 := win0_3.stage (cfg0.slots t 3)
abbrev hr3 (t : Fin cfg0.N) : (mr3 t).IsWhole := hstage0_3 ((cfg0.slots t 3).cast nbuf0_3)
abbrev mr4 (t : Fin cfg0.N) : Memref sig .tc .vmem S1x768 .f32 := win0_4.stage (cfg0.slots t 4)
abbrev hr4 (t : Fin cfg0.N) : (mr4 t).IsWhole := hstage0_4 ((cfg0.slots t 4).cast nbuf0_4)
abbrev mr5 (t : Fin cfg0.N) : Memref sig .tc .vmem S8x81x128 .f32 := win0_5.stage (cfg0.slots t 5)
abbrev hr5 (t : Fin cfg0.N) : (mr5 t).IsWhole := hstage0_5 ((cfg0.slots t 5).cast nbuf0_5)
abbrev mr6 (t : Fin cfg0.N) : Memref sig .tc .vmem S81x768 .f32 := win0_6.stage (cfg0.slots t 6)
abbrev hr6 (t : Fin cfg0.N) : (mr6 t).IsWhole := hstage0_6 ((cfg0.slots t 6).cast nbuf0_6)
abbrev mr7 (t : Fin cfg0.N) : Memref sig .tc .vmem S1024x768 .f32 := win0_7.stage (cfg0.slots t 7)
abbrev hr7 (t : Fin cfg0.N) : (mr7 t).IsWhole := hstage0_7 ((cfg0.slots t 7).cast nbuf0_7)

end Cert.KernelIdeal.Acc

end
-- ==== Proof.KIStepLater.lean ====
/-
  The body at a point after the first: the branch is not taken, and the body adds to each of the eight row groups of
  the output block (128 rows each, read back from the block itself) the product of that group's slab of the point's
  activation block with the point's weight block. What the eight stores leave is found by running the body.
-/
import proofs.«134926_g86148454023849_cont_9to1_m_880_16_alg».proof.Proof.KIShared

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces the body's eight stores leave in the output block (last first) at a point where the branch is not
    taken, with the proof that the body, given the activation block `x0`, the weight block `x2` and the output block at
    `xo`, runs to the continuation with the two inputs as they were and the output block with those pieces written. -/
noncomputable def laterRun (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : ¬isFirst i)
    (x0 : Vec F S1024x8x128 .f32) (x2 : Vec F S1024x768 .f32) (xo : Vec F S1024x768 .f32) :
    { L : List (View.Piece (Elt F) S1024x768 .f32) //
      ∀ (E : Set ℕ) (K : PUnit → sProp 𝕄),
        iprop(owns (c : Thread nD τ) arg1 fullShare x0 ∗ owns (c : Thread nD τ) arg3 fullShare x2 ∗ owns (c : Thread nD τ) arg8 fullShare xo
            ∗ (iprop(owns (c : Thread nD τ) arg1 fullShare x0 ∗ owns (c : Thread nD τ) arg3 fullShare x2
                ∗ (∃ f, arg8.view.loc (c : Thread nD τ) ↦[arg8.view.set]{fullShare} arg8.view.writes (Elt F) f L)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, fun E K => ?run⟩
  case run =>
    simp only [cc0__body_eq_skeleton]; unfold cc0__body_skel
    simp only [k0_part3_eq_skeleton, k0_part4_eq_skeleton]
    unfold owns
    iintro ⟨⟨%f0, %hf0, H0⟩, ⟨%f2, %hf2, H2⟩, ⟨%fo, %hfo, Ho⟩, Hk⟩
    obtain rfl := harg1.eq_unread hf0; obtain rfl := harg3.eq_unread hf2; obtain rfl := harg8.eq_unread hfo
    sl_exec (disch := first | exact hc)
    sl_step
    iapply Hk
    isplitl [H0]
    · iexists _; isplitr; · ipureintro; exact harg1.read_unread _
      iexact H0
    isplitl [H2]
    · iexists _; isplitr; · ipureintro; exact harg3.read_unread _
      iexact H2
    iexists _; iexact Ho

end Cert.KernelIdeal.Acc

end
-- ==== Proof.KIStepFirst.lean ====
/-
  The body at the first point: the branch is taken. The body stores into the whole output block the positional
  product plus the bias row; adds to each of the eight row groups the product of that group's slab of the
  vocabulary tail with the tail's weights; and then, as at every point, adds to each row group the product of its
  slab of the point's activation block with the point's weight block. What the seventeen stores leave is found
  by running the body.
-/
import proofs.«134926_g86148454023849_cont_9to1_m_880_16_alg».proof.Proof.KIStepLater

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- The pieces the body's stores leave in the output block (last first) at a point where the branch is taken, with
    the proof that the body, given the seven input blocks and the output block at anything, runs to the continuation
    with the inputs as they were and the output block with those pieces written. -/
noncomputable def firstRun (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : isFirst i)
    (x0 : Vec F S1024x8x128 .f32) (x1 : Vec F S1024x1024 .f32) (x2 : Vec F S1024x768 .f32) (x3 : Vec F S768x1024 .f32)
    (x4 : Vec F S1x768 .f32) (x5 : Vec F S8x81x128 .f32) (x6 : Vec F S81x768 .f32) :
    { L : List (View.Piece (Elt F) S1024x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare x6
                ∗ (∃ f, arg8.view.loc (c : Thread nD τ) ↦[arg8.view.set]{fullShare} arg8.view.writes (Elt F) f L)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, fun E K => ?run⟩
  case run =>
    simp only [cc0__body_eq_skeleton]; unfold cc0__body_skel
    simp only [k0_part3_eq_skeleton, k0_part1_eq_skeleton, k0_part2_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.KernelIdeal.Acc

end
-- ==== Proof.KICarried.lean ====
/-
  What the output block holds after each of the 49 points, and the frame of the whole program.

  The output block is written back to its array once, after the last point; between points it stays in its staging
  buffer. After the first point it holds what the first step builds from the seven input blocks; after every later
  point it holds what the later step builds from the point's activation and weight blocks and from what the point
  before left. The two vocabulary-blocked inputs are fetched anew at every point, and each of their 49 blocks lies
  wholly inside its array (49·1024 ≤ 50257), so that a fetch fills the whole staging buffer. With these contents the
  pipeline's body obligation holds at every point, and the library's launch theorem gives the run, from which the
  frame claim is read.
-/
import proofs.«134926_g86148454023849_cont_9to1_m_880_16_alg».proof.Proof.KIStepFirst
import Idealize.ShloMosaic.Lib.Pipeline.Frame
import Idealize.ShloMosaic.Lib.Pipeline.FrameSuffix

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs' stores cover the output block -/

/-- The later step's eight stores tile the output block in row groups of 128. -/
theorem cover_later (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : ¬isFirst i)
    (x0 : Vec F S1024x8x128 .f32) (x2 : Vec F S1024x768 .f32) (xo : Vec F S1024x768 .f32) (y : S1024x768.Idx) :
    ∃ pc ∈ (laterRun c i arg1 harg1 arg2 harg2 arg3 harg3 arg4 harg4 arg5 harg5 arg6 harg6 arg7 harg7 arg8 harg8 hc x0 x2 xo).1, y ∈ pc.1.set :=
  View.cover_of_tiledL (laterRun c i arg1 harg1 arg2 harg2 arg3 harg3 arg4 harg4 arg5 harg5 arg6 harg6 arg7 harg7 arg8 harg8 hc x0 x2 xo).1 S128x768.size (by sl_kernel_rfl) y

/-- What the later step leaves in the output block: its stores read back. -/
def outLater (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : ¬isFirst i)
    (x0 : Vec F S1024x8x128 .f32) (x2 : Vec F S1024x768 .f32) (xo : Vec F S1024x768 .f32) : Vec F S1024x768 .f32 :=
  outView.read (Elt F) (outView.writes (Elt F) outView.junk (laterRun c i arg1 harg1 arg2 harg2 arg3 harg3 arg4 harg4 arg5 harg5 arg6 harg6 arg7 harg7 arg8 harg8 hc x0 x2 xo).1)

/-- Among the first step's stores, the last eight tile the output block in row groups of 128. -/
theorem cover_first (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : isFirst i)
    (x0 : Vec F S1024x8x128 .f32) (x1 : Vec F S1024x1024 .f32) (x2 : Vec F S1024x768 .f32) (x3 : Vec F S768x1024 .f32)
    (x4 : Vec F S1x768 .f32) (x5 : Vec F S8x81x128 .f32) (x6 : Vec F S81x768 .f32) (y : S1024x768.Idx) :
    ∃ pc ∈ (firstRun c i arg1 harg1 arg2 harg2 arg3 harg3 arg4 harg4 arg5 harg5 arg6 harg6 arg7 harg7 arg8 harg8 hc x0 x1 x2 x3 x4 x5 x6).1, y ∈ pc.1.set :=
  View.cover_of_tiledL (firstRun c i arg1 harg1 arg2 harg2 arg3 harg3 arg4 harg4 arg5 harg5 arg6 harg6 arg7 harg7 arg8 harg8 hc x0 x1 x2 x3 x4 x5 x6).1 S128x768.size (by sl_kernel_rfl) y

/-- What the first step leaves in the output block: its stores read back. -/
def outFirst (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : isFirst i)
    (x0 : Vec F S1024x8x128 .f32) (x1 : Vec F S1024x1024 .f32) (x2 : Vec F S1024x768 .f32) (x3 : Vec F S768x1024 .f32)
    (x4 : Vec F S1x768 .f32) (x5 : Vec F S8x81x128 .f32) (x6 : Vec F S81x768 .f32) : Vec F S1024x768 .f32 :=
  outView.read (Elt F) (outView.writes (Elt F) outView.junk (firstRun c i arg1 harg1 arg2 harg2 arg3 harg3 arg4 harg4 arg5 harg5 arg6 harg6 arg7 harg7 arg8 harg8 hc x0 x1 x2 x3 x4 x5 x6).1)

/-! ## The vocabulary-blocked inputs: every block inside its array -/

/-- No block of the activation window overhangs its array on the grid: (k + 1)·1024 ≤ 50257 for k < 49. -/
theorem noClip0 : ∀ t : Fin cfg0.N, ∀ a, (cfg0.win 0).clip (cfg0.grid.coords t) a = none :=
  (by decide +kernel : ∀ t : Fin grid0.N, ∀ a, win0_0.clip (grid0.coords t) a = none)
/-- Nor does a block of the weight window. -/
theorem noClip2 : ∀ t : Fin cfg0.N, ∀ a, (cfg0.win 2).clip (cfg0.grid.coords t) a = none :=
  (by decide +kernel : ∀ t : Fin grid0.N, ∀ a, win0_2.clip (grid0.coords t) a = none)

/-- The activation window's staging buffer after the fetch at point `t`: the block, which fills the buffer (the
    filler is never read: `noClip0`). -/
def blk0 (c : Dev nD) (t : Fin cfg0.N) : Vec F S1024x8x128 .f32 :=
  win0_0.fill (grid0.coords t) (fun _ => Scalar.ofBits .f32 0#32) (iblk m c 0 t)
/-- The weight window's likewise. -/
def blk2 (c : Dev nD) (t : Fin cfg0.N) : Vec F S1024x768 .f32 :=
  win0_2.fill (grid0.coords t) (fun _ => Scalar.ofBits .f32 0#32) (iblk m c 2 t)

/-! ## What the output block holds after each point -/

/-- The output block after the body at point `n`: the first step's result at point 0, and at a later point the later
    step's result over what point `n - 1` left. -/
def outsAt (c : Dev nD) : (n : ℕ) → n < cfg0.N → Vec F S1024x768 .f32
  | 0, hn => outFirst c (grid0.coords ⟨0, hn⟩) (mr0 ⟨0, hn⟩) (hr0 ⟨0, hn⟩) (mr1 ⟨0, hn⟩) (hr1 ⟨0, hn⟩) (mr2 ⟨0, hn⟩) (hr2 ⟨0, hn⟩) (mr3 ⟨0, hn⟩) (hr3 ⟨0, hn⟩) (mr4 ⟨0, hn⟩) (hr4 ⟨0, hn⟩) (mr5 ⟨0, hn⟩) (hr5 ⟨0, hn⟩) (mr6 ⟨0, hn⟩) (hr6 ⟨0, hn⟩) (mr7 ⟨0, hn⟩) (hr7 ⟨0, hn⟩) ((isFirst_iff ⟨0, hn⟩).mpr rfl) (blk0 m c ⟨0, hn⟩) (iblk m c 1 ⟨0, hn⟩) (blk2 m c ⟨0, hn⟩) (iblk m c 3 ⟨0, hn⟩) (iblk m c 4 ⟨0, hn⟩) (iblk m c 5 ⟨0, hn⟩) (iblk m c 6 ⟨0, hn⟩)
  | n + 1, hn => outLater c (grid0.coords ⟨n + 1, hn⟩) (mr0 ⟨n + 1, hn⟩) (hr0 ⟨n + 1, hn⟩) (mr1 ⟨n + 1, hn⟩) (hr1 ⟨n + 1, hn⟩) (mr2 ⟨n + 1, hn⟩) (hr2 ⟨n + 1, hn⟩) (mr3 ⟨n + 1, hn⟩) (hr3 ⟨n + 1, hn⟩) (mr4 ⟨n + 1, hn⟩) (hr4 ⟨n + 1, hn⟩) (mr5 ⟨n + 1, hn⟩) (hr5 ⟨n + 1, hn⟩) (mr6 ⟨n + 1, hn⟩) (hr6 ⟨n + 1, hn⟩) (mr7 ⟨n + 1, hn⟩) (hr7 ⟨n + 1, hn⟩) (fun h => Nat.succ_ne_zero n ((isFirst_iff ⟨n + 1, hn⟩).mp h))
      (blk0 m c ⟨n + 1, hn⟩) (blk2 m c ⟨n + 1, hn⟩) (outsAt c n (Nat.lt_of_succ_lt hn))

theorem outsAt_first (c : Dev nD) (t : Fin cfg0.N) (h0 : t.val = 0) :
    outsAt m c t.val t.isLt = outFirst c (grid0.coords t) (mr0 t) (hr0 t) (mr1 t) (hr1 t) (mr2 t) (hr2 t) (mr3 t) (hr3 t) (mr4 t) (hr4 t) (mr5 t) (hr5 t) (mr6 t) (hr6 t) (mr7 t) (hr7 t) ((isFirst_iff t).mpr h0) (blk0 m c t) (iblk m c 1 t) (blk2 m c t) (iblk m c 3 t) (iblk m c 4 t) (iblk m c 5 t) (iblk m c 6 t) := by
  obtain ⟨n, hn⟩ := t
  cases n with
  | zero => rfl
  | succ n => exact absurd h0 (Nat.succ_ne_zero n)

theorem outsAt_later (c : Dev nD) (t : Fin cfg0.N) (h0 : ¬t.val = 0) :
    outsAt m c t.val t.isLt = outLater c (grid0.coords t) (mr0 t) (hr0 t) (mr1 t) (hr1 t) (mr2 t) (hr2 t) (mr3 t) (hr3 t) (mr4 t) (hr4 t) (mr5 t) (hr5 t) (mr6 t) (hr6 t) (mr7 t) (hr7 t) (fun h => h0 ((isFirst_iff t).mp h))
      (blk0 m c t) (blk2 m c t) (outsAt m c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the region finds them; after the body at point `t` every input's buffer at its block and the
    output's at `outsAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => blk2 m c t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = blk2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outsAt m c t.val t.isLt := by dsimp only [dats]

/-- The activation buffer is fetched at every point and the fetch fills it. -/
theorem before_0 (c : Dev nD) (t : Fin cfg0.N) (d) : (dats m 0 c).before 0 t d = blk0 m c t := by
  rw [Dat.before_fetched _ 0 t (fetch0_0 t)]
  unfold Dat.fetched Dat.blockOf blk0 iblk
  rw [A_eq m c 0]
  exact Pipeline.fill_of_clip_none (cfg := cfg0) (0 : Fin cfg0.W) _ (noClip0 t) _ _ _
/-- So is the weight buffer. -/
theorem before_2 (c : Dev nD) (t : Fin cfg0.N) (d) : (dats m 0 c).before 2 t d = blk2 m c t := by
  rw [Dat.before_fetched _ 2 t (fetch0_2 t)]
  unfold Dat.fetched Dat.blockOf blk2 iblk
  rw [A_eq m c 2]
  exact Pipeline.fill_of_clip_none (cfg := cfg0) (2 : Fin cfg0.W) _ (noClip2 t) _ _ _
/-- The five inputs fetched once hold their block at every point. -/
theorem before_1 (c : Dev nD) (t : Fin cfg0.N) (d) : (dats m 0 c).before 1 t d = iblk m c 1 t :=
  before0_1_of m (dats m 0 c) (A_eq m c 1) (after_1 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
/-- At the first point the output buffer holds anything. -/
theorem before_7_first (c : Dev nD) (t : Fin cfg0.N) (h0 : t.val = 0) (d) : (dats m 0 c).before 7 t d = d :=
  Dat.before_out_reset _ 7 rfl t (.inl h0) d
/-- At a later point it holds what the point before left: it is written back only after the last point. -/
theorem before_7_later (c : Dev nD) (t : Fin cfg0.N) (h0 : ¬t.val = 0) (d) :
    (dats m 0 c).before 7 t d = outsAt m c (t.val - 1) (Nat.lt_of_le_of_lt (Nat.sub_le _ _) t.isLt) := by
  have hN : t.val < 49 := lt_of_lt_of_eq t.isLt (show cfg0.N = 49 from N_0)
  rw [Dat.before_out_kept _ 7 rfl t h0 (Bool.eq_false_iff.mpr fun h => by have := (flush0_7 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d))
    ∗ (∃ d, owns (c : Thread nD τ) (mr7 t) fullShare ((dats m 0 c).before 7 t d)))

/-- and what it returns: the two vocabulary-blocked buffers are stated on the part a fetch fills (all of it). -/
def bodyPost (c : Dev nD) (t : Fin cfg0.N) : sProp 𝕄 :=
  iprop((dats m 0 c).Φ t.succ ∗ (dats m 0 c).owesAt () t.succ
    ∗ (∃ d, owns (c : Thread nD τ) (mr0 t) fullShare (win0_0.fill (grid0.coords t) d (win0_0.cut (grid0.coords t) ((dats m 0 c).after 0 t))))
    ∗ owns (c : Thread nD τ) (mr1 t) fullShare ((dats m 0 c).after 1 t)
    ∗ (∃ d, owns (c : Thread nD τ) (mr2 t) fullShare (win0_2.fill (grid0.coords t) d (win0_2.cut (grid0.coords t) ((dats m 0 c).after 2 t))))
    ∗ owns (c : Thread nD τ) (mr3 t) fullShare ((dats m 0 c).after 3 t)
    ∗ owns (c : Thread nD τ) (mr4 t) fullShare ((dats m 0 c).after 4 t)
    ∗ owns (c : Thread nD τ) (mr5 t) fullShare ((dats m 0 c).after 5 t)
    ∗ owns (c : Thread nD τ) (mr6 t) fullShare ((dats m 0 c).after 6 t)
    ∗ owns (c : Thread nD τ) (mr7 t) fullShare ((dats m 0 c).after 7 t))

set_option maxHeartbeats 1600000 in
/-- The body at any point: the inputs' buffers hold their blocks; at the first point the first step's run applies,
    the output buffer at anything; at a later point the later step's, the output buffer at what the point before
    left. The invariant passes through unread and nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val = 0
  · rw [outsAt_first m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstRun c (grid0.coords t) (mr0 t) (hr0 t) (mr1 t) (hr1 t) (mr2 t) (hr2 t) (mr3 t) (hr3 t) (mr4 t) (hr4 t) (mr5 t) (hr5 t) (mr6 t) (hr6 t) (mr7 t) (hr7 t) ((isFirst_iff t).mpr h0) (blk0 m c t) (iblk m c 1 t) (blk2 m c t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]
    · iexists (blk0 m c t); rw [Window.fill_cut]; iexact H0
    isplitl [H1]; · iexact H1
    isplitl [H2]
    · iexists (blk2 m c t); rw [Window.fill_cut]; iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_first c _ (mr0 t) (hr0 t) (mr1 t) (hr1 t) (mr2 t) (hr2 t) (mr3 t) (hr3 t) (mr4 t) (hr4 t) (mr5 t) (hr5 t) (mr6 t) (hr6 t) (mr7 t) (hr7 t) _ _ _ _ _ _ _ _)
  · rw [outsAt_later m c t h0]
    simp only [before_7_later m c t h0]
    unfold outLater
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((laterRun c (grid0.coords t) (mr0 t) (hr0 t) (mr1 t) (hr1 t) (mr2 t) (hr2 t) (mr3 t) (hr3 t) (mr4 t) (hr4 t) (mr5 t) (hr5 t) (mr6 t) (hr6 t) (mr7 t) (hr7 t) (fun h => h0 ((isFirst_iff t).mp h)) (blk0 m c t) (blk2 m c t)
      (outsAt m c (t.val - 1) (Nat.lt_of_le_of_lt (Nat.sub_le _ _) t.isLt))).2 Set.univ _)
    isplitl [H0]; · iexact H0
    isplitl [H2]; · iexact H2
    isplitl [H7]; · iexact H7
    iintro ⟨H0, H2, ⟨%e7, H7⟩⟩
    isplitl [HΦ]; · iexact HΦ
    isplitl [Ho]; · iexact Ho
    isplitl [H0]
    · iexists (blk0 m c t); rw [Window.fill_cut]; iexact H0
    isplitl [H1]; · iexact H1
    isplitl [H2]
    · iexists (blk2 m c t); rw [Window.fill_cut]; iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_later c _ (mr0 t) (hr0 t) (mr1 t) (hr1 t) (mr2 t) (hr2 t) (mr3 t) (hr3 t) (mr4 t) (hr4 t) (mr5 t) (hr5 t) (mr6 t) (hr6 t) (mr7 t) (hr7 t) _ _ _ _)

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline ending at what the library computes from the proof data and every other buffer as the host lines after
    the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its six argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Acc

end
-- ==== Proof.KIValLater.lean ====
/-
  The later step of the kernel, entry by entry.

  At a grid point after the first the body passes the branch by and, for each of the eight row groups g of the output
  block (rows 128·g … 128·g + 127), stores back the group's rows plus the product of slab g of the activation block —
  the 1024 × 128 matrix (v, l) ↦ x0[v, g, l], contracted over the vocabulary position v — with the weight block x2
  (1024 × 768). Over the extended reals narrowing to the short format is the identity, and a product into a zero
  accumulator is the plain sum; so store g writes at its local index (p, q) the value
  xo[128·g + p, q] + ∑ᵥ x0[v, g, p] · x2[v, q]. As ONE function of the block index (row r, column d) this is
  xo[r, d] + ∑ᵥ x0[v, r / 128, r % 128] · x2[v, d]: every store's payload is that function under its rectangle, the eight
  rectangles tile the block, hence the block read back is that function everywhere, and at row 128·g + l (group g,
  lane l) it is the stated sum.
-/
import proofs.«134926_g86148454023849_cont_9to1_m_880_16_alg».proof.Proof.KICarried
import Idealize.ShloMosaic.Lib.ValueIdx
import Idealize.ShloMosaic.Lib.Pipeline.Value
import Idealize.ShloMosaic.PureOps.Ideal.Laws

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-! ## The product of a slab with the weight block, entry by entry -/

/-- The slab operand of the product is read at (contraction position, row within the group): its first axis is the
    contracted one, -/
theorem later_lhs_0 (i : S128x768.Idx) (q : dot_S1024x128_S1024x768_S128x768_0_0_1_1_n_n.contr.Idx) :
    (dot_S1024x128_S1024x768_S128x768_0_0_1_1_n_n.lhsIdx i q 0).val = (q ⟨0, by decide⟩).val :=
  dot_S1024x128_S1024x768_S128x768_0_0_1_1_n_n.lhsIdx_val_of_single rfl i q
/-- and its second axis is the result's row. -/
theorem later_lhs_1 (i : S128x768.Idx) (q : dot_S1024x128_S1024x768_S128x768_0_0_1_1_n_n.contr.Idx) :
    (dot_S1024x128_S1024x768_S128x768_0_0_1_1_n_n.lhsIdx i q 1).val = (i 0).val := by
  unfold DotDims.lhsIdx
  rw [dif_neg (show ¬(1 : Fin S1024x128.rank) ∈ dot_S1024x128_S1024x768_S128x768_0_0_1_1_n_n.lhsBatch by decide), dif_pos (show (1 : Fin S1024x128.rank) ∈ dot_S1024x128_S1024x768_S128x768_0_0_1_1_n_n.lhsNonContracting by decide)]
  rfl
/-- The weight operand is read at (contraction position, column): its first axis is the contracted one, -/
theorem later_rhs_0 (i : S128x768.Idx) (q : dot_S1024x128_S1024x768_S128x768_0_0_1_1_n_n.contr.Idx) :
    (dot_S1024x128_S1024x768_S128x768_0_0_1_1_n_n.rhsIdx i q 0).val = (q ⟨0, by decide⟩).val :=
  dot_S1024x128_S1024x768_S128x768_0_0_1_1_n_n.rhsIdx_val_of_single rfl i q
/-- and its second axis is the result's column. -/
theorem later_rhs_1 (i : S128x768.Idx) (q : dot_S1024x128_S1024x768_S128x768_0_0_1_1_n_n.contr.Idx) :
    (dot_S1024x128_S1024x768_S128x768_0_0_1_1_n_n.rhsIdx i q 1).val = (i 1).val := by
  unfold DotDims.rhsIdx
  rw [dif_neg (show ¬(1 : Fin S1024x768.rank) ∈ dot_S1024x128_S1024x768_S128x768_0_0_1_1_n_n.rhsBatch by decide), dif_pos (show (1 : Fin S1024x768.rank) ∈ dot_S1024x128_S1024x768_S128x768_0_0_1_1_n_n.rhsNonContracting by decide)]
  rfl

/-- The product into a zero accumulator, at row `p` and column `q` of the group: the sum over the 1024 vocabulary
    positions of slab entry times weight entry. -/
theorem later_matmul_apply (lhs : FVec Ideal S1024x128 .bf16) (rhs : FVec Ideal S1024x768 .bf16) (p : Fin 128) (q : Fin 768) :
    matmul dot_S1024x128_S1024x768_S128x768_0_0_1_1_n_n none lhs rhs (constant (F := Ideal) S128x768 .f32 0x00000000#32) (ix2 p q)
      = ∑ k : Fin 1024, lhs (ix2 k p) * rhs (ix2 k q) := by
  simp only [matmul]
  rw [Ideal.matmul_constant_zero_apply, ← Equiv.sum_comp (ValueIdx.contrEquiv1 dot_S1024x128_S1024x768_S128x768_0_0_1_1_n_n 1024 rfl rfl).symm]
  refine Finset.sum_congr rfl fun k _ => ?_
  have hk := ValueIdx.contrEquiv1_symm_val dot_S1024x128_S1024x768_S128x768_0_0_1_1_n_n 1024 rfl rfl k
  have el : dot_S1024x128_S1024x768_S128x768_0_0_1_1_n_n.lhsIdx (ix2 p q) ((ValueIdx.contrEquiv1 dot_S1024x128_S1024x768_S128x768_0_0_1_1_n_n 1024 rfl rfl).symm k) = ix2 k p := funext fun a => Fin.ext (by
    match a with
    | ⟨0, _⟩ => exact (later_lhs_0 _ _).trans hk
    | ⟨1, _⟩ => exact later_lhs_1 _ _)
  have er : dot_S1024x128_S1024x768_S128x768_0_0_1_1_n_n.rhsIdx (ix2 p q) ((ValueIdx.contrEquiv1 dot_S1024x128_S1024x768_S128x768_0_0_1_1_n_n 1024 rfl rfl).symm k) = ix2 k q := funext fun a => Fin.ext (by
    match a with
    | ⟨0, _⟩ => exact (later_rhs_0 _ _).trans hk
    | ⟨1, _⟩ => exact later_rhs_1 _ _)
  rw [el, er]

/-! ## The three operands of a row group's update, entry by entry -/

/-- What the later step leaves at an index of the output block: what was there, plus the product of the activation
    slab's column of that row (group `row / 128`, lane `row % 128`) with the weight block's column. -/
def laterAt (x0 : Vec Ideal S1024x8x128 .f32) (x2 xo : Vec Ideal S1024x768 .f32) (y : S1024x768.Idx) : EReal :=
  xo y + ∑ v : Fin 1024, x0 (ix3 v ⟨(y 0).val / 128, by have := idx2_lt0 y; omega⟩ ⟨(y 0).val % 128, Nat.mod_lt _ (by norm_num)⟩)
    * x2 (ix2 v ⟨(y 1).val, idx2_lt1 y⟩)

/-- The weight block, loaded whole and narrowed, is the weight block: narrowing does nothing to an extended real. -/
theorem later_weight_apply (x2 : Vec Ideal S1024x768 .f32) (inb : ∀ a, (![0, 0] : Fin 2 → ℕ) a + S1024x768.size a ≤ S1024x768.size a)
    (k : Fin 1024) (q : Fin 768) :
    k0_pay15 (F := Ideal) (View.ld (Val := Elt Ideal) (e' := .f32) x2 (Rect.unit (s := S1024x768) ![0, 0] S1024x768.size inb)) (ix2 k q) = x2 (ix2 k q) := by
  unfold k0_pay15
  refine (truncf_apply (ψ := .bf16) (φ := .f32) (s := S1024x768) _ bitsLt_bf16_f32 (ix2 k q)).trans ?_
  refine (congrFun (shapeCast_self (s := S1024x768) _ shapeCasts_S1024x768_S1024x768) (ix2 k q)).trans ?_
  rw [View.ld_unit_zero (S := S1024x768) (funext fun a => by match a with | ⟨0, _⟩ => rfl | ⟨1, _⟩ => rfl)]

/-- Slab `g` of the activation block, loaded as 1024 × 1 × 128, flattened to 1024 × 128 and narrowed, reads the block at
    (position, `g`, lane). -/
theorem later_slab_apply (g : ℕ) (hg : g < 8) (x0 : Vec Ideal S1024x8x128 .f32)
    (inb : ∀ a, (![0, g, 0] : Fin 3 → ℕ) a + S1024x1x128.size a ≤ S1024x8x128.size a) (k : Fin 1024) (p : Fin 128) :
    truncf (F := Ideal) .bf16 (shapeCast S1024x128 (View.ld (Val := Elt Ideal) (e' := .f32) x0 (Rect.unit (s := S1024x8x128) ![0, g, 0] S1024x1x128.size inb)) shapeCasts_S1024x1x128_S1024x128)
      bitsLt_bf16_f32 (ix2 k p) = x0 (ix3 k ⟨g, hg⟩ p) := by
  refine (truncf_apply (ψ := .bf16) (φ := .f32) (s := S1024x128) _ bitsLt_bf16_f32 (ix2 k p)).trans ?_
  refine (shapeCast_apply _ _ (ix2 k p) (ix3 k (0 : Fin 1) p) (by
    rw [Shape.rowMajor_val_three, Shape.rowMajor_val_two]
    show (k.val * 1 + 0) * 128 + p.val = k.val * 128 + p.val
    omega)).trans ?_
  show x0 ((Rect.unit (s := S1024x8x128) ![0, g, 0] S1024x1x128.size inb).emb (ix3 k (0 : Fin 1) p)) = _
  refine congrArg x0 (funext fun a => Fin.ext ?_)
  rw [Rect.emb_apply]
  match a with
  | ⟨0, _⟩ => show 0 + 1 * k.val = k.val; omega
  | ⟨1, _⟩ => show g + 1 * 0 = g; omega
  | ⟨2, _⟩ => show 0 + 1 * p.val = p.val; omega

/-- Row group `g` of the output block, loaded as 128 × 768, reads the block at row `128·g + p`. -/
theorem later_rows_apply (g : ℕ) (xo : Vec Ideal S1024x768 .f32)
    (inb : ∀ a, (![128 * g, 0] : Fin 2 → ℕ) a + S128x768.size a ≤ S1024x768.size a) (p : Fin 128) (q : Fin 768) :
    shapeCast S128x768 (View.ld (Val := Elt Ideal) (e' := .f32) xo (Rect.unit (s := S1024x768) ![128 * g, 0] S128x768.size inb)) shapeCasts_S128x768_S128x768 (ix2 p q)
      = xo ((Rect.unit (s := S1024x768) ![128 * g, 0] S128x768.size inb).emb (ix2 p q)) :=
  congrFun (shapeCast_self (s := S128x768) _ shapeCasts_S128x768_S128x768) (ix2 p q)

/-! ## A row group's update, entry by entry -/

/-- The update of row group `g`, whatever spells its three operands: the accumulator rows plus the product of the
    slab with the weights, read at a local index, is `laterAt` at the block index under it. -/
theorem later_step_apply (g : ℕ) (hg : g < 8)
    (inb : ∀ a, (![128 * g, 0] : Fin 2 → ℕ) a + S128x768.size a ≤ S1024x768.size a)
    (x0 : Vec Ideal S1024x8x128 .f32) (x2 xo : Vec Ideal S1024x768 .f32)
    (acc : FVec Ideal S128x768 .f32) (lhs : FVec Ideal S1024x128 .bf16) (w : FVec Ideal S1024x768 .bf16)
    (ha : ∀ (p : Fin 128) (q : Fin 768), acc (ix2 p q) = xo ((Rect.unit (s := S1024x768) ![128 * g, 0] S128x768.size inb).emb (ix2 p q)))
    (hl : ∀ (k : Fin 1024) (p : Fin 128), lhs (ix2 k p) = x0 (ix3 k ⟨g, hg⟩ p))
    (hw : ∀ (k : Fin 1024) (q : Fin 768), w (ix2 k q) = x2 (ix2 k q))
    (x : S128x768.Idx) :
    addf acc (matmul dot_S1024x128_S1024x768_S128x768_0_0_1_1_n_n none lhs w (constant (F := Ideal) S128x768 .f32 0x00000000#32)) x
      = laterAt x0 x2 xo ((Rect.unit (s := S1024x768) ![128 * g, 0] S128x768.size inb).emb x) := by
  obtain ⟨p, q, rfl⟩ : ∃ (p : Fin 128) (q : Fin 768), x = ix2 p q := ⟨x 0, x 1, eq_ix2 x⟩
  refine (addf_apply _ _ _).trans ?_
  rw [later_matmul_apply, ha]
  unfold laterAt
  have e0 : ((Rect.unit (s := S1024x768) ![128 * g, 0] S128x768.size inb).emb (ix2 p q) 0).val = 128 * g + p.val := by
    rw [Rect.emb_apply]; show 128 * g + 1 * p.val = _; omega
  have e1 : ((Rect.unit (s := S1024x768) ![128 * g, 0] S128x768.size inb).emb (ix2 p q) 1).val = q.val := by
    rw [Rect.emb_apply]; show 0 + 1 * q.val = _; omega
  refine congrArg (xo _ + ·) (Finset.sum_congr rfl fun k _ => ?_)
  rw [hl, hw]
  have hp := p.isLt
  refine congrArg₂ (· * ·) (congrArg x0 ?_) (congrArg x2 ?_)
  · funext a
    match a with
    | ⟨0, _⟩ => rfl
    | ⟨1, _⟩ => exact Fin.ext (by show g = _ / 128; rw [e0]; omega)
    | ⟨2, _⟩ => exact Fin.ext (by show p.val = _ % 128; rw [e0]; omega)
  · funext a
    match a with
    | ⟨0, _⟩ => rfl
    | ⟨1, _⟩ => exact Fin.ext e1.symm

/-! ## The eight stores, and the block they leave -/

set_option maxHeartbeats 1600000 in
/-- Each of the later step's eight stores writes, at every local index, `laterAt` at the block index under it: store
    `g` adds to rows `128·g … 128·g + 127` the product of slab `g` with the weights. (The stores are listed last
    first: row groups 7, 6, …, 0.) -/
theorem later_pieces (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : ¬isFirst i)
    (x0 : Vec Ideal S1024x8x128 .f32) (x2 : Vec Ideal S1024x768 .f32) (xo : Vec Ideal S1024x768 .f32) :
    ∀ pc ∈ (laterRun (F := Ideal) c i arg1 harg1 arg2 harg2 arg3 harg3 arg4 harg4 arg5 harg5 arg6 harg6 arg7 harg7 arg8 harg8 hc x0 x2 xo).1, ∀ x : pc.1.shape.Idx, pc.2 x = laterAt x0 x2 xo (pc.1.emb x) := by
  unfold laterRun
  dsimp only
  sl_unfold_words
  simp only [View.readAt_eq_ld, harg1.read_unread, harg3.read_unread, harg8.read_unread]
  intro pc hpc x
  rcases List.mem_cons.mp hpc with rfl | hpc
  · unfold k0_pay2
    exact later_step_apply 7 (by norm_num) _ x0 x2 xo _ _ _ (later_rows_apply 7 xo _) (later_slab_apply 7 (by norm_num) x0 _) (later_weight_apply x2 _) x
  rcases List.mem_cons.mp hpc with rfl | hpc
  · unfold k0_pay1 k0_pay22
    exact later_step_apply 6 (by norm_num) _ x0 x2 xo _ _ _ (later_rows_apply 6 xo _) (later_slab_apply 6 (by norm_num) x0 _) (later_weight_apply x2 _) x
  rcases List.mem_cons.mp hpc with rfl | hpc
  · unfold k0_pay21
    exact later_step_apply 5 (by norm_num) _ x0 x2 xo _ _ _ (later_rows_apply 5 xo _) (later_slab_apply 5 (by norm_num) x0 _) (later_weight_apply x2 _) x
  rcases List.mem_cons.mp hpc with rfl | hpc
  · unfold k0_pay20
    exact later_step_apply 4 (by norm_num) _ x0 x2 xo _ _ _ (later_rows_apply 4 xo _) (later_slab_apply 4 (by norm_num) x0 _) (later_weight_apply x2 _) x
  rcases List.mem_cons.mp hpc with rfl | hpc
  · unfold k0_pay19
    exact later_step_apply 3 (by norm_num) _ x0 x2 xo _ _ _ (later_rows_apply 3 xo _) (later_slab_apply 3 (by norm_num) x0 _) (later_weight_apply x2 _) x
  rcases List.mem_cons.mp hpc with rfl | hpc
  · unfold k0_pay18
    exact later_step_apply 2 (by norm_num) _ x0 x2 xo _ _ _ (later_rows_apply 2 xo _) (later_slab_apply 2 (by norm_num) x0 _) (later_weight_apply x2 _) x
  rcases List.mem_cons.mp hpc with rfl | hpc
  · unfold k0_pay17
    exact later_step_apply 1 (by norm_num) _ x0 x2 xo _ _ _ (later_rows_apply 1 xo _) (later_slab_apply 1 (by norm_num) x0 _) (later_weight_apply x2 _) x
  rcases List.mem_cons.mp hpc with rfl | hpc
  · unfold k0_pay16
    exact later_step_apply 0 (by norm_num) _ x0 x2 xo _ _ _ (later_rows_apply 0 xo _) (later_slab_apply 0 (by norm_num) x0 _) (later_weight_apply x2 _) x
  nomatch hpc

/-- The later step, entry by entry: at row `128·g + l` and column `d` of the output block it adds to what was there
    the sum over the 1024 vocabulary positions `v` of the point of activation `x0[v, g, l]` times weight `x2[v, d]`. The
    eight stores tile the block, each leaves `laterAt` under it, so the block read back is `laterAt` everywhere; row
    `128·g + l` lies in group `g` at lane `l`. -/
theorem outLater_apply (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : ¬isFirst i)
    (x0 : Vec Ideal S1024x8x128 .f32) (x2 : Vec Ideal S1024x768 .f32) (xo : Vec Ideal S1024x768 .f32)
    (g : Fin 8) (l : Fin 128) (d : Fin 768) :
    outLater (F := Ideal) c i arg1 harg1 arg2 harg2 arg3 harg3 arg4 harg4 arg5 harg5 arg6 harg6 arg7 harg7 arg8 harg8 hc x0 x2 xo (ix2 ⟨128 * g.val + l.val, by omega⟩ d)
      = xo (ix2 ⟨128 * g.val + l.val, by omega⟩ d) + ∑ v : Fin 1024, x0 (ix3 v g l) * x2 (ix2 v d) := by
  unfold outLater
  refine (View.read_writes_apply_eq_canon _ _ _ _ (cover_later c i arg1 harg1 arg2 harg2 arg3 harg3 arg4 harg4 arg5 harg5 arg6 harg6 arg7 harg7 arg8 harg8 hc x0 x2 xo _)).trans ?_
  refine (View.canon_apply_of_pieces (laterAt x0 x2 xo) _ (later_pieces c i arg1 harg1 arg2 harg2 arg3 harg3 arg4 harg4 arg5 harg5 arg6 harg6 arg7 harg7 arg8 harg8 hc x0 x2 xo) _ (cover_later c i arg1 harg1 arg2 harg2 arg3 harg3 arg4 harg4 arg5 harg5 arg6 harg6 arg7 harg7 arg8 harg8 hc x0 x2 xo _)).trans ?_
  unfold laterAt
  have hl := l.isLt
  refine congrArg (xo _ + ·) (Finset.sum_congr rfl fun v _ => ?_)
  refine congrArg₂ (· * ·) (congrArg x0 ?_) (congrArg x2 ?_)
  · funext a
    match a with
    | ⟨0, _⟩ => rfl
    | ⟨1, _⟩ => exact Fin.ext (by show (128 * g.val + l.val) / 128 = g.val; omega)
    | ⟨2, _⟩ => exact Fin.ext (by show (128 * g.val + l.val) % 128 = l.val; omega)
  · funext a
    match a with
    | ⟨0, _⟩ => rfl
    | ⟨1, _⟩ => rfl

end Cert.KernelIdeal.Acc

end
-- ==== Proof.KIValFirst.lean ====
/-
  What the first step leaves in the output block, entry by entry, over the extended reals.

  The first step writes the block seventeen times. One store fills the whole block with the positional product plus
  the bias row: entry (r, d) is ∑_q pos(r, q)·w(d, q) + bias(d). Eight stores then go over the block in row groups of
  128: the store for group g loads the rows of its group, which no earlier store of this kind has touched and which
  therefore still hold the first contents, and adds the product of slab g of the vocabulary tail with the tail's
  weights, ∑_{v<81} tail(g, v, l)·wt(v, d) at place l of the group. Eight more stores go over the row groups again:
  each loads its rows, which now hold the sum of the first two terms, and adds the product of slab g of the
  activation block with the weight block, ∑_{v<1024} act(v, g, l)·wm(v, d). Narrowing an operand and casting a shape
  change no value here, and a product accumulated from zero is the plain sum over the contracted axis.

  So the block ends, at row 128·g + l and column d, at the three-term sum. The argument reads the stores from the
  last back: the last eight are blocks of one function of the block's index laid over the nine earlier ones, and the
  eight before them are blocks of another laid over the first; a row group's load reads, at each entry, what the
  stores made before it leave at that row, which is found by passing over the stores whose rows end before it.
-/
import proofs.«134926_g86148454023849_cont_9to1_m_880_16_alg».proof.Proof.KICarried
import Idealize.ShloMosaic.Lib.ValueIdx
import Idealize.ShloMosaic.Lib.Pipeline.Value
import Idealize.ShloMosaic.Lib.Pipeline.CanonAppend
import Idealize.ShloMosaic.PureOps.Ideal.Laws

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-! ## Three products read at an index -/

/-- The main product contracts the vocabulary axis (axis 0) of both operands. -/
theorem first_lhs_mainDot_0 (j : S128x768.Idx) (q : dot_S1024x128_S1024x768_S128x768_0_0_1_1_n_n.contr.Idx) :
    (dot_S1024x128_S1024x768_S128x768_0_0_1_1_n_n.lhsIdx j q 0).val = (q ⟨0, by decide⟩).val :=
  dot_S1024x128_S1024x768_S128x768_0_0_1_1_n_n.lhsIdx_val_of_single rfl j q
theorem first_lhs_mainDot_1 (j : S128x768.Idx) (q : dot_S1024x128_S1024x768_S128x768_0_0_1_1_n_n.contr.Idx) :
    (dot_S1024x128_S1024x768_S128x768_0_0_1_1_n_n.lhsIdx j q 1).val = (j 0).val := by
  unfold DotDims.lhsIdx
  rw [dif_neg (show ¬(1 : Fin S1024x128.rank) ∈ dot_S1024x128_S1024x768_S128x768_0_0_1_1_n_n.lhsBatch by decide), dif_pos (show (1 : Fin S1024x128.rank) ∈ dot_S1024x128_S1024x768_S128x768_0_0_1_1_n_n.lhsNonContracting by decide)]
  rfl
theorem first_rhs_mainDot_0 (j : S128x768.Idx) (q : dot_S1024x128_S1024x768_S128x768_0_0_1_1_n_n.contr.Idx) :
    (dot_S1024x128_S1024x768_S128x768_0_0_1_1_n_n.rhsIdx j q 0).val = (q ⟨0, by decide⟩).val :=
  dot_S1024x128_S1024x768_S128x768_0_0_1_1_n_n.rhsIdx_val_of_single rfl j q
theorem first_rhs_mainDot_1 (j : S128x768.Idx) (q : dot_S1024x128_S1024x768_S128x768_0_0_1_1_n_n.contr.Idx) :
    (dot_S1024x128_S1024x768_S128x768_0_0_1_1_n_n.rhsIdx j q 1).val = (j 1).val := by
  unfold DotDims.rhsIdx
  rw [dif_neg (show ¬(1 : Fin S1024x768.rank) ∈ dot_S1024x128_S1024x768_S128x768_0_0_1_1_n_n.rhsBatch by decide), dif_pos (show (1 : Fin S1024x768.rank) ∈ dot_S1024x128_S1024x768_S128x768_0_0_1_1_n_n.rhsNonContracting by decide)]
  rfl

/-- Into a zero accumulator the main product at lane l, column d is the sum over the 1024 vocabulary entries. -/
theorem first_mainDot_apply (A : FVec Ideal S1024x128 .bf16) (B : FVec Ideal S1024x768 .bf16) (l : Fin 128) (d : Fin 768) :
    matmul dot_S1024x128_S1024x768_S128x768_0_0_1_1_n_n none A B (constant (F := Ideal) S128x768 .f32 0x00000000#32) (ix2 l d)
      = ∑ v : Fin 1024, A (ix2 v l) * B (ix2 v d) := by
  simp only [matmul]
  rw [Ideal.matmul_constant_zero_apply, ← Equiv.sum_comp (contrEquiv1 dot_S1024x128_S1024x768_S128x768_0_0_1_1_n_n 1024 rfl rfl).symm]
  refine Finset.sum_congr rfl fun k _ => ?_
  have hk := contrEquiv1_symm_val dot_S1024x128_S1024x768_S128x768_0_0_1_1_n_n 1024 rfl rfl k
  have el : dot_S1024x128_S1024x768_S128x768_0_0_1_1_n_n.lhsIdx (ix2 l d) ((contrEquiv1 dot_S1024x128_S1024x768_S128x768_0_0_1_1_n_n 1024 rfl rfl).symm k) = ix2 k l := funext fun a => Fin.ext (by
    match a with
    | ⟨0, _⟩ => exact (first_lhs_mainDot_0 _ _).trans hk
    | ⟨1, _⟩ => exact first_lhs_mainDot_1 _ _)
  have er : dot_S1024x128_S1024x768_S128x768_0_0_1_1_n_n.rhsIdx (ix2 l d) ((contrEquiv1 dot_S1024x128_S1024x768_S128x768_0_0_1_1_n_n 1024 rfl rfl).symm k) = ix2 k d := funext fun a => Fin.ext (by
    match a with
    | ⟨0, _⟩ => exact (first_rhs_mainDot_0 _ _).trans hk
    | ⟨1, _⟩ => exact first_rhs_mainDot_1 _ _)
  rw [el, er]

/-- The tail product likewise contracts axis 0 of both operands, over the 81 tail entries. -/
theorem first_lhs_tailDot_0 (j : S128x768.Idx) (q : dot_S81x128_S81x768_S128x768_0_0_1_1_n_n.contr.Idx) :
    (dot_S81x128_S81x768_S128x768_0_0_1_1_n_n.lhsIdx j q 0).val = (q ⟨0, by decide⟩).val :=
  dot_S81x128_S81x768_S128x768_0_0_1_1_n_n.lhsIdx_val_of_single rfl j q
theorem first_lhs_tailDot_1 (j : S128x768.Idx) (q : dot_S81x128_S81x768_S128x768_0_0_1_1_n_n.contr.Idx) :
    (dot_S81x128_S81x768_S128x768_0_0_1_1_n_n.lhsIdx j q 1).val = (j 0).val := by
  unfold DotDims.lhsIdx
  rw [dif_neg (show ¬(1 : Fin S81x128.rank) ∈ dot_S81x128_S81x768_S128x768_0_0_1_1_n_n.lhsBatch by decide), dif_pos (show (1 : Fin S81x128.rank) ∈ dot_S81x128_S81x768_S128x768_0_0_1_1_n_n.lhsNonContracting by decide)]
  rfl
theorem first_rhs_tailDot_0 (j : S128x768.Idx) (q : dot_S81x128_S81x768_S128x768_0_0_1_1_n_n.contr.Idx) :
    (dot_S81x128_S81x768_S128x768_0_0_1_1_n_n.rhsIdx j q 0).val = (q ⟨0, by decide⟩).val :=
  dot_S81x128_S81x768_S128x768_0_0_1_1_n_n.rhsIdx_val_of_single rfl j q
theorem first_rhs_tailDot_1 (j : S128x768.Idx) (q : dot_S81x128_S81x768_S128x768_0_0_1_1_n_n.contr.Idx) :
    (dot_S81x128_S81x768_S128x768_0_0_1_1_n_n.rhsIdx j q 1).val = (j 1).val := by
  unfold DotDims.rhsIdx
  rw [dif_neg (show ¬(1 : Fin S81x768.rank) ∈ dot_S81x128_S81x768_S128x768_0_0_1_1_n_n.rhsBatch by decide), dif_pos (show (1 : Fin S81x768.rank) ∈ dot_S81x128_S81x768_S128x768_0_0_1_1_n_n.rhsNonContracting by decide)]
  rfl

theorem first_tailDot_apply (A : FVec Ideal S81x128 .bf16) (B : FVec Ideal S81x768 .bf16) (l : Fin 128) (d : Fin 768) :
    matmul dot_S81x128_S81x768_S128x768_0_0_1_1_n_n none A B (constant (F := Ideal) S128x768 .f32 0x00000000#32) (ix2 l d)
      = ∑ v : Fin 81, A (ix2 v l) * B (ix2 v d) := by
  simp only [matmul]
  rw [Ideal.matmul_constant_zero_apply, ← Equiv.sum_comp (contrEquiv1 dot_S81x128_S81x768_S128x768_0_0_1_1_n_n 81 rfl rfl).symm]
  refine Finset.sum_congr rfl fun k _ => ?_
  have hk := contrEquiv1_symm_val dot_S81x128_S81x768_S128x768_0_0_1_1_n_n 81 rfl rfl k
  have el : dot_S81x128_S81x768_S128x768_0_0_1_1_n_n.lhsIdx (ix2 l d) ((contrEquiv1 dot_S81x128_S81x768_S128x768_0_0_1_1_n_n 81 rfl rfl).symm k) = ix2 k l := funext fun a => Fin.ext (by
    match a with
    | ⟨0, _⟩ => exact (first_lhs_tailDot_0 _ _).trans hk
    | ⟨1, _⟩ => exact first_lhs_tailDot_1 _ _)
  have er : dot_S81x128_S81x768_S128x768_0_0_1_1_n_n.rhsIdx (ix2 l d) ((contrEquiv1 dot_S81x128_S81x768_S128x768_0_0_1_1_n_n 81 rfl rfl).symm k) = ix2 k d := funext fun a => Fin.ext (by
    match a with
    | ⟨0, _⟩ => exact (first_rhs_tailDot_0 _ _).trans hk
    | ⟨1, _⟩ => exact first_rhs_tailDot_1 _ _)
  rw [el, er]

/-- The positional product contracts axis 1 of both operands: row r of the positions against row d of the weights. -/
theorem first_lhs_posDot_0 (j : S1024x768.Idx) (q : dot_S1024x1024_S768x1024_S1024x768_1_1_0_0_n_n.contr.Idx) :
    (dot_S1024x1024_S768x1024_S1024x768_1_1_0_0_n_n.lhsIdx j q 0).val = (j 0).val := by
  unfold DotDims.lhsIdx
  rw [dif_neg (show ¬(0 : Fin S1024x1024.rank) ∈ dot_S1024x1024_S768x1024_S1024x768_1_1_0_0_n_n.lhsBatch by decide), dif_pos (show (0 : Fin S1024x1024.rank) ∈ dot_S1024x1024_S768x1024_S1024x768_1_1_0_0_n_n.lhsNonContracting by decide)]
  rfl
theorem first_lhs_posDot_1 (j : S1024x768.Idx) (q : dot_S1024x1024_S768x1024_S1024x768_1_1_0_0_n_n.contr.Idx) :
    (dot_S1024x1024_S768x1024_S1024x768_1_1_0_0_n_n.lhsIdx j q 1).val = (q ⟨0, by decide⟩).val :=
  dot_S1024x1024_S768x1024_S1024x768_1_1_0_0_n_n.lhsIdx_val_of_single rfl j q
theorem first_rhs_posDot_0 (j : S1024x768.Idx) (q : dot_S1024x1024_S768x1024_S1024x768_1_1_0_0_n_n.contr.Idx) :
    (dot_S1024x1024_S768x1024_S1024x768_1_1_0_0_n_n.rhsIdx j q 0).val = (j 1).val := by
  unfold DotDims.rhsIdx
  rw [dif_neg (show ¬(0 : Fin S768x1024.rank) ∈ dot_S1024x1024_S768x1024_S1024x768_1_1_0_0_n_n.rhsBatch by decide), dif_pos (show (0 : Fin S768x1024.rank) ∈ dot_S1024x1024_S768x1024_S1024x768_1_1_0_0_n_n.rhsNonContracting by decide)]
  rfl
theorem first_rhs_posDot_1 (j : S1024x768.Idx) (q : dot_S1024x1024_S768x1024_S1024x768_1_1_0_0_n_n.contr.Idx) :
    (dot_S1024x1024_S768x1024_S1024x768_1_1_0_0_n_n.rhsIdx j q 1).val = (q ⟨0, by decide⟩).val :=
  dot_S1024x1024_S768x1024_S1024x768_1_1_0_0_n_n.rhsIdx_val_of_single rfl j q

theorem first_posDot_apply (A : FVec Ideal S1024x1024 .bf16) (B : FVec Ideal S768x1024 .bf16) (r : Fin 1024) (d : Fin 768) :
    matmul dot_S1024x1024_S768x1024_S1024x768_1_1_0_0_n_n none A B (constant (F := Ideal) S1024x768 .f32 0x00000000#32) (ix2 r d)
      = ∑ q : Fin 1024, A (ix2 r q) * B (ix2 d q) := by
  simp only [matmul]
  rw [Ideal.matmul_constant_zero_apply, ← Equiv.sum_comp (contrEquiv1 dot_S1024x1024_S768x1024_S1024x768_1_1_0_0_n_n 1024 rfl rfl).symm]
  refine Finset.sum_congr rfl fun k _ => ?_
  have hk := contrEquiv1_symm_val dot_S1024x1024_S768x1024_S1024x768_1_1_0_0_n_n 1024 rfl rfl k
  have el : dot_S1024x1024_S768x1024_S1024x768_1_1_0_0_n_n.lhsIdx (ix2 r d) ((contrEquiv1 dot_S1024x1024_S768x1024_S1024x768_1_1_0_0_n_n 1024 rfl rfl).symm k) = ix2 r k := funext fun a => Fin.ext (by
    match a with
    | ⟨0, _⟩ => exact first_lhs_posDot_0 _ _
    | ⟨1, _⟩ => exact (first_lhs_posDot_1 _ _).trans hk)
  have er : dot_S1024x1024_S768x1024_S1024x768_1_1_0_0_n_n.rhsIdx (ix2 r d) ((contrEquiv1 dot_S1024x1024_S768x1024_S1024x768_1_1_0_0_n_n 1024 rfl rfl).symm k) = ix2 d k := funext fun a => Fin.ext (by
    match a with
    | ⟨0, _⟩ => exact first_rhs_posDot_0 _ _
    | ⟨1, _⟩ => exact (first_rhs_posDot_1 _ _).trans hk)
  rw [el, er]

/-! ## The casts that drop a slab's unit axis -/

/-- An activation slab [1024, 1, 128] read as [1024, 128]. -/
theorem first_slab_cast_apply (s : Vec Ideal S1024x1x128 .f32) (v : Fin 1024) (l : Fin 128) :
    shapeCast S1024x128 s shapeCasts_S1024x1x128_S1024x128 (ix2 v l) = s (ix3 v 0 l) := by
  refine shapeCast_apply s _ (ix2 v l) (ix3 v 0 l) ?_
  rw [Shape.rowMajor_val_three, Shape.rowMajor_val_two]
  show (v.val * 1 + 0) * 128 + l.val = v.val * 128 + l.val
  omega

/-- A tail slab [1, 81, 128] read as [81, 128]. -/
theorem first_tslab_cast_apply (s : Vec Ideal S1x81x128 .f32) (v : Fin 81) (l : Fin 128) :
    shapeCast S81x128 s shapeCasts_S1x81x128_S81x128 (ix2 v l) = s (ix3 0 v l) := by
  refine shapeCast_apply s _ (ix2 v l) (ix3 0 v l) ?_
  rw [Shape.rowMajor_val_three, Shape.rowMajor_val_two]
  show (0 * 81 + v.val) * 128 + l.val = v.val * 128 + l.val
  omega

/-! ## The payloads at an index

Every store's payload adds a product to rows it was given: the whole-block store the positional product to the
broadcast bias row, a tail store the tail product of its slab to the loaded rows, a main store the main product of
its slab. The spellings differ only in where the operands are narrowed. -/

/-- The whole-block payload: the positional product's entry plus the bias row's. -/
theorem first_pay3_apply (a : Vec Ideal S1024x1024 .f32) (b : Vec Ideal S768x1024 .f32) (bias : Vec Ideal S1x768 .f32)
    (r : Fin 1024) (d : Fin 768) :
    k0_pay3 (F := Ideal) a b bias (ix2 r d) = (∑ q : Fin 1024, a (ix2 r q) * b (ix2 d q)) + bias (ix2 0 d) := by
  unfold k0_pay3
  show matmul dot_S1024x1024_S768x1024_S1024x768_1_1_0_0_n_n none
        (truncf .bf16 (shapeCast S1024x1024 a _) _) (truncf .bf16 b _) (constant (F := Ideal) S1024x768 .f32 0x00000000#32) (ix2 r d)
      + broadcastTo S1024x768 (shapeCast S1x768 bias _) broadcasts_S1x768_S1024x768 (ix2 r d) = _
  rw [first_posDot_apply, shapeCast_self, shapeCast_self]
  refine congrArg ((∑ q : Fin 1024, a (ix2 r q) * b (ix2 d q)) + ·) ?_
  exact broadcastTo_apply bias _ (ix2 r d) (ix2 0 d) (fun x => by match x with | ⟨0, _⟩ => rfl | ⟨1, _⟩ => rfl)

/-- A tail payload over tail weights still wide. -/
theorem first_tailA_apply (w : Vec Ideal S81x768 .f32) (R : Vec Ideal S128x768 .f32) (s : Vec Ideal S1x81x128 .f32)
    (l : Fin 128) (d : Fin 768) :
    (shapeCast S128x768 R shapeCasts_S128x768_S128x768) (ix2 l d)
      + matmul dot_S81x128_S81x768_S128x768_0_0_1_1_n_n none (truncf .bf16 (shapeCast S81x128 s shapeCasts_S1x81x128_S81x128) bitsLt_bf16_f32)
          (k0_pay4 (F := Ideal) w) (constant (F := Ideal) S128x768 .f32 0x00000000#32) (ix2 l d)
      = R (ix2 l d) + ∑ v : Fin 81, s (ix3 0 v l) * w (ix2 v d) := by
  rw [shapeCast_self, first_tailDot_apply]
  refine congrArg (R (ix2 l d) + ·) (Finset.sum_congr rfl fun v _ => ?_)
  unfold k0_pay4
  show shapeCast S81x128 s _ (ix2 v l) * shapeCast S81x768 w _ (ix2 v d) = _
  rw [shapeCast_self, first_tslab_cast_apply]

/-- A tail payload over tail weights already narrowed. -/
theorem first_tailB_apply (w : FVec Ideal S81x768 .bf16) (R : Vec Ideal S128x768 .f32) (s : Vec Ideal S1x81x128 .f32)
    (l : Fin 128) (d : Fin 768) :
    (shapeCast S128x768 R shapeCasts_S128x768_S128x768) (ix2 l d)
      + matmul dot_S81x128_S81x768_S128x768_0_0_1_1_n_n none (truncf .bf16 (shapeCast S81x128 s shapeCasts_S1x81x128_S81x128) bitsLt_bf16_f32)
          w (constant (F := Ideal) S128x768 .f32 0x00000000#32) (ix2 l d)
      = R (ix2 l d) + ∑ v : Fin 81, s (ix3 0 v l) * w (ix2 v d) := by
  rw [shapeCast_self, first_tailDot_apply]
  refine congrArg (R (ix2 l d) + ·) (Finset.sum_congr rfl fun v _ => ?_)
  show shapeCast S81x128 s _ (ix2 v l) * w (ix2 v d) = _
  rw [first_tslab_cast_apply]

theorem first_pay5_apply (w : Vec Ideal S81x768 .f32) (R : Vec Ideal S128x768 .f32) (s : Vec Ideal S1x81x128 .f32) (l : Fin 128) (d : Fin 768) :
    k0_pay5 (F := Ideal) w R s (ix2 l d) = R (ix2 l d) + ∑ v : Fin 81, s (ix3 0 v l) * w (ix2 v d) := by
  unfold k0_pay5; exact first_tailA_apply w R s l d
theorem first_pay6_apply (w : Vec Ideal S81x768 .f32) (R : Vec Ideal S128x768 .f32) (s : Vec Ideal S1x81x128 .f32) (l : Fin 128) (d : Fin 768) :
    k0_pay6 (F := Ideal) w R s (ix2 l d) = R (ix2 l d) + ∑ v : Fin 81, s (ix3 0 v l) * w (ix2 v d) := by
  unfold k0_pay6; exact first_tailA_apply w R s l d
theorem first_pay7_apply (w : FVec Ideal S81x768 .bf16) (R : Vec Ideal S128x768 .f32) (s : Vec Ideal S1x81x128 .f32) (l : Fin 128) (d : Fin 768) :
    k0_pay7 (F := Ideal) w R s (ix2 l d) = R (ix2 l d) + ∑ v : Fin 81, s (ix3 0 v l) * w (ix2 v d) := by
  unfold k0_pay7; exact first_tailB_apply w R s l d
theorem first_pay8_apply (w : FVec Ideal S81x768 .bf16) (R : Vec Ideal S128x768 .f32) (s : Vec Ideal S1x81x128 .f32) (l : Fin 128) (d : Fin 768) :
    k0_pay8 (F := Ideal) w R s (ix2 l d) = R (ix2 l d) + ∑ v : Fin 81, s (ix3 0 v l) * w (ix2 v d) := by
  unfold k0_pay8; exact first_tailB_apply w R s l d
theorem first_pay9_apply (w : FVec Ideal S81x768 .bf16) (R : Vec Ideal S128x768 .f32) (s : Vec Ideal S1x81x128 .f32) (l : Fin 128) (d : Fin 768) :
    k0_pay9 (F := Ideal) w R s (ix2 l d) = R (ix2 l d) + ∑ v : Fin 81, s (ix3 0 v l) * w (ix2 v d) := by
  unfold k0_pay9; exact first_tailB_apply w R s l d
theorem first_pay13_apply (w : FVec Ideal S81x768 .bf16) (R : Vec Ideal S128x768 .f32) (s : Vec Ideal S1x81x128 .f32) (l : Fin 128) (d : Fin 768) :
    k0_pay13 (F := Ideal) w R s (ix2 l d) = R (ix2 l d) + ∑ v : Fin 81, s (ix3 0 v l) * w (ix2 v d) := by
  unfold k0_pay13; exact first_tailB_apply w R s l d
theorem first_pay14_apply (w : FVec Ideal S81x768 .bf16) (R : Vec Ideal S128x768 .f32) (s : Vec Ideal S1x81x128 .f32) (l : Fin 128) (d : Fin 768) :
    k0_pay14 (F := Ideal) w R s (ix2 l d) = R (ix2 l d) + ∑ v : Fin 81, s (ix3 0 v l) * w (ix2 v d) := by
  unfold k0_pay14; exact first_tailB_apply w R s l d
/-- The tail payload whose rows and slab were cast before it. -/
theorem first_pay12_apply (w : FVec Ideal S81x768 .bf16) (R : Vec Ideal S128x768 .f32) (s : Vec Ideal S1x81x128 .f32) (l : Fin 128) (d : Fin 768) :
    k0_pay12 (F := Ideal) w (k0_pay10 (F := Ideal) R) (k0_pay11 (F := Ideal) s) (ix2 l d) = R (ix2 l d) + ∑ v : Fin 81, s (ix3 0 v l) * w (ix2 v d) := by
  unfold k0_pay12 k0_pay10 k0_pay11; exact first_tailB_apply w R s l d

/-- The narrowed tail weights read as the weights. -/
theorem first_pay4_apply (w : Vec Ideal S81x768 .f32) (j : S81x768.Idx) : k0_pay4 (F := Ideal) w j = w j := by
  unfold k0_pay4
  show shapeCast S81x768 w _ j = _
  rw [shapeCast_self]

/-- The narrowed main weights read as the weights. -/
theorem first_pay15_apply (w : Vec Ideal S1024x768 .f32) (j : S1024x768.Idx) : k0_pay15 (F := Ideal) w j = w j := by
  unfold k0_pay15
  show shapeCast S1024x768 w _ j = _
  rw [shapeCast_self]

/-- A main payload over main weights still wide. -/
theorem first_mainA_apply (w : Vec Ideal S1024x768 .f32) (s : Vec Ideal S1024x1x128 .f32) (R : Vec Ideal S128x768 .f32)
    (l : Fin 128) (d : Fin 768) :
    (shapeCast S128x768 R shapeCasts_S128x768_S128x768) (ix2 l d)
      + matmul dot_S1024x128_S1024x768_S128x768_0_0_1_1_n_n none (truncf .bf16 (shapeCast S1024x128 s shapeCasts_S1024x1x128_S1024x128) bitsLt_bf16_f32)
          (k0_pay15 (F := Ideal) w) (constant (F := Ideal) S128x768 .f32 0x00000000#32) (ix2 l d)
      = R (ix2 l d) + ∑ v : Fin 1024, s (ix3 v 0 l) * w (ix2 v d) := by
  rw [shapeCast_self, first_mainDot_apply]
  refine congrArg (R (ix2 l d) + ·) (Finset.sum_congr rfl fun v _ => ?_)
  unfold k0_pay15
  show shapeCast S1024x128 s _ (ix2 v l) * shapeCast S1024x768 w _ (ix2 v d) = _
  rw [shapeCast_self, first_slab_cast_apply]

/-- A main payload over main weights already narrowed. -/
theorem first_mainB_apply (w : FVec Ideal S1024x768 .bf16) (s : Vec Ideal S1024x1x128 .f32) (R : Vec Ideal S128x768 .f32)
    (l : Fin 128) (d : Fin 768) :
    (shapeCast S128x768 R shapeCasts_S128x768_S128x768) (ix2 l d)
      + matmul dot_S1024x128_S1024x768_S128x768_0_0_1_1_n_n none (truncf .bf16 (shapeCast S1024x128 s shapeCasts_S1024x1x128_S1024x128) bitsLt_bf16_f32)
          w (constant (F := Ideal) S128x768 .f32 0x00000000#32) (ix2 l d)
      = R (ix2 l d) + ∑ v : Fin 1024, s (ix3 v 0 l) * w (ix2 v d) := by
  rw [shapeCast_self, first_mainDot_apply]
  refine congrArg (R (ix2 l d) + ·) (Finset.sum_congr rfl fun v _ => ?_)
  show shapeCast S1024x128 s _ (ix2 v l) * w (ix2 v d) = _
  rw [first_slab_cast_apply]

theorem first_pay16_apply (w : Vec Ideal S1024x768 .f32) (s : Vec Ideal S1024x1x128 .f32) (R : Vec Ideal S128x768 .f32) (l : Fin 128) (d : Fin 768) :
    k0_pay16 (F := Ideal) w s R (ix2 l d) = R (ix2 l d) + ∑ v : Fin 1024, s (ix3 v 0 l) * w (ix2 v d) := by
  unfold k0_pay16; exact first_mainA_apply w s R l d
theorem first_pay17_apply (w : Vec Ideal S1024x768 .f32) (s : Vec Ideal S1024x1x128 .f32) (R : Vec Ideal S128x768 .f32) (l : Fin 128) (d : Fin 768) :
    k0_pay17 (F := Ideal) w s R (ix2 l d) = R (ix2 l d) + ∑ v : Fin 1024, s (ix3 v 0 l) * w (ix2 v d) := by
  unfold k0_pay17; exact first_mainA_apply w s R l d
theorem first_pay18_apply (w : Vec Ideal S1024x768 .f32) (s : Vec Ideal S1024x1x128 .f32) (R : Vec Ideal S128x768 .f32) (l : Fin 128) (d : Fin 768) :
    k0_pay18 (F := Ideal) w s R (ix2 l d) = R (ix2 l d) + ∑ v : Fin 1024, s (ix3 v 0 l) * w (ix2 v d) := by
  unfold k0_pay18; exact first_mainA_apply w s R l d
theorem first_pay19_apply (w : FVec Ideal S1024x768 .bf16) (s : Vec Ideal S1024x1x128 .f32) (R : Vec Ideal S128x768 .f32) (l : Fin 128) (d : Fin 768) :
    k0_pay19 (F := Ideal) w s R (ix2 l d) = R (ix2 l d) + ∑ v : Fin 1024, s (ix3 v 0 l) * w (ix2 v d) := by
  unfold k0_pay19; exact first_mainB_apply w s R l d
theorem first_pay20_apply (w : FVec Ideal S1024x768 .bf16) (s : Vec Ideal S1024x1x128 .f32) (R : Vec Ideal S128x768 .f32) (l : Fin 128) (d : Fin 768) :
    k0_pay20 (F := Ideal) w s R (ix2 l d) = R (ix2 l d) + ∑ v : Fin 1024, s (ix3 v 0 l) * w (ix2 v d) := by
  unfold k0_pay20; exact first_mainB_apply w s R l d
theorem first_pay21_apply (w : FVec Ideal S1024x768 .bf16) (s : Vec Ideal S1024x1x128 .f32) (R : Vec Ideal S128x768 .f32) (l : Fin 128) (d : Fin 768) :
    k0_pay21 (F := Ideal) w s R (ix2 l d) = R (ix2 l d) + ∑ v : Fin 1024, s (ix3 v 0 l) * w (ix2 v d) := by
  unfold k0_pay21; exact first_mainB_apply w s R l d
theorem first_pay2_apply (w : FVec Ideal S1024x768 .bf16) (s : Vec Ideal S1024x1x128 .f32) (R : Vec Ideal S128x768 .f32) (l : Fin 128) (d : Fin 768) :
    k0_pay2 (F := Ideal) w s R (ix2 l d) = R (ix2 l d) + ∑ v : Fin 1024, s (ix3 v 0 l) * w (ix2 v d) := by
  unfold k0_pay2; exact first_mainB_apply w s R l d
/-- The main payload whose slab was cast and narrowed before it. -/
theorem first_pay1_apply (w : FVec Ideal S1024x768 .bf16) (s : Vec Ideal S1024x1x128 .f32) (R : Vec Ideal S128x768 .f32) (l : Fin 128) (d : Fin 768) :
    k0_pay1 (F := Ideal) w (k0_pay22 (F := Ideal) s) R (ix2 l d) = R (ix2 l d) + ∑ v : Fin 1024, s (ix3 v 0 l) * w (ix2 v d) := by
  unfold k0_pay1 k0_pay22; exact first_mainB_apply w s R l d

/-! ## Rows, row groups, and the three stages of the block

Row r of the block lies in group r / 128, at place r % 128 of it. After the whole-block store every entry is the
positional entry plus the bias; after the tail stores the tail product of the row's group is added; after the main
stores the main product as well. -/

abbrev first_grp (r : Fin 1024) : Fin 8 := ⟨r.val / 128, by have := r.isLt; omega⟩
abbrev first_lane (r : Fin 1024) : Fin 128 := ⟨r.val % 128, by omega⟩

theorem first_grp_at (o g : ℕ) (hg : g < 8) (ho : o = 128 * g) (l : Fin 128) (h : o + l.val < 1024) :
    first_grp ⟨o + l.val, h⟩ = ⟨g, hg⟩ := Fin.ext (by show (o + l.val) / 128 = g; have := l.isLt; omega)
theorem first_lane_at (o g : ℕ) (ho : o = 128 * g) (l : Fin 128) (h : o + l.val < 1024) :
    first_lane ⟨o + l.val, h⟩ = l := Fin.ext (by show (o + l.val) % 128 = l.val; have := l.isLt; omega)

def first_posAt (x1 : Vec Ideal S1024x1024 .f32) (x3 : Vec Ideal S768x1024 .f32) (x4 : Vec Ideal S1x768 .f32)
    (r : Fin 1024) (d : Fin 768) : EReal :=
  (∑ q : Fin 1024, x1 (ix2 r q) * x3 (ix2 d q)) + x4 (ix2 0 d)
def first_tailAt (x1 : Vec Ideal S1024x1024 .f32) (x3 : Vec Ideal S768x1024 .f32) (x4 : Vec Ideal S1x768 .f32)
    (x5 : Vec Ideal S8x81x128 .f32) (x6 : Vec Ideal S81x768 .f32) (r : Fin 1024) (d : Fin 768) : EReal :=
  first_posAt x1 x3 x4 r d + ∑ v : Fin 81, x5 (ix3 (first_grp r) v (first_lane r)) * x6 (ix2 v d)
def first_mainAt (x0 : Vec Ideal S1024x8x128 .f32) (x1 : Vec Ideal S1024x1024 .f32) (x2 : Vec Ideal S1024x768 .f32)
    (x3 : Vec Ideal S768x1024 .f32) (x4 : Vec Ideal S1x768 .f32) (x5 : Vec Ideal S8x81x128 .f32) (x6 : Vec Ideal S81x768 .f32)
    (r : Fin 1024) (d : Fin 768) : EReal :=
  first_tailAt x1 x3 x4 x5 x6 r d + ∑ v : Fin 1024, x0 (ix3 v (first_grp r) (first_lane r)) * x2 (ix2 v d)

/-- The three stages as contents of the block. -/
def first_posF (x1 : Vec Ideal S1024x1024 .f32) (x3 : Vec Ideal S768x1024 .f32) (x4 : Vec Ideal S1x768 .f32) :
    Vec Ideal S1024x768 .f32 := fun y => first_posAt x1 x3 x4 (y 0) (y 1)
def first_tailF (x1 : Vec Ideal S1024x1024 .f32) (x3 : Vec Ideal S768x1024 .f32) (x4 : Vec Ideal S1x768 .f32)
    (x5 : Vec Ideal S8x81x128 .f32) (x6 : Vec Ideal S81x768 .f32) : Vec Ideal S1024x768 .f32 :=
  fun y => first_tailAt x1 x3 x4 x5 x6 (y 0) (y 1)
def first_mainF (x0 : Vec Ideal S1024x8x128 .f32) (x1 : Vec Ideal S1024x1024 .f32) (x2 : Vec Ideal S1024x768 .f32)
    (x3 : Vec Ideal S768x1024 .f32) (x4 : Vec Ideal S1x768 .f32) (x5 : Vec Ideal S8x81x128 .f32) (x6 : Vec Ideal S81x768 .f32) :
    Vec Ideal S1024x768 .f32 := fun y => first_mainAt x0 x1 x2 x3 x4 x5 x6 (y 0) (y 1)

/-- A tail store's entry: rows holding the first stage, plus the tail product of group g. -/
theorem first_tail_step (x1 : Vec Ideal S1024x1024 .f32) (x3 : Vec Ideal S768x1024 .f32) (x4 : Vec Ideal S1x768 .f32)
    (x5 : Vec Ideal S8x81x128 .f32) (x6 : Vec Ideal S81x768 .f32)
    (o g : ℕ) (hg : g < 8) (ho : o = 128 * g) (l : Fin 128) (d : Fin 768) (h : o + l.val < 1024)
    (R : EReal) (hR : R = first_posAt x1 x3 x4 ⟨o + l.val, h⟩ d)
    (S : Fin 81 → EReal) (hS : ∀ v, S v = x5 (ix3 (⟨g, hg⟩ : Fin 8) v l) * x6 (ix2 v d)) :
    R + ∑ v : Fin 81, S v = first_tailAt x1 x3 x4 x5 x6 ⟨o + l.val, h⟩ d := by
  unfold first_tailAt
  rw [first_grp_at o g hg ho l h, first_lane_at o g ho l h, hR]
  exact congrArg (first_posAt x1 x3 x4 ⟨o + l.val, h⟩ d + ·) (Finset.sum_congr rfl fun v _ => hS v)

/-- A main store's entry: rows holding the second stage, plus the main product of group g. -/
theorem first_main_step (x0 : Vec Ideal S1024x8x128 .f32) (x1 : Vec Ideal S1024x1024 .f32) (x2 : Vec Ideal S1024x768 .f32)
    (x3 : Vec Ideal S768x1024 .f32) (x4 : Vec Ideal S1x768 .f32) (x5 : Vec Ideal S8x81x128 .f32) (x6 : Vec Ideal S81x768 .f32)
    (o g : ℕ) (hg : g < 8) (ho : o = 128 * g) (l : Fin 128) (d : Fin 768) (h : o + l.val < 1024)
    (R : EReal) (hR : R = first_tailAt x1 x3 x4 x5 x6 ⟨o + l.val, h⟩ d)
    (S : Fin 1024 → EReal) (hS : ∀ v, S v = x0 (ix3 v (⟨g, hg⟩ : Fin 8) l) * x2 (ix2 v d)) :
    R + ∑ v : Fin 1024, S v = first_mainAt x0 x1 x2 x3 x4 x5 x6 ⟨o + l.val, h⟩ d := by
  unfold first_mainAt
  rw [first_grp_at o g hg ho l h, first_lane_at o g ho l h, hR]
  exact congrArg (first_tailAt x1 x3 x4 x5 x6 ⟨o + l.val, h⟩ d + ·) (Finset.sum_congr rfl fun v _ => hS v)

/-! ## Rectangles of the block, and loads through them -/

theorem first_hz2 : (![0, 0] : Fin 2 → ℕ) = fun _ => 0 := funext fun a => by fin_cases a <;> rfl

/-- The row group at offset o puts its entry (l, d) at row o + l, column d. -/
theorem first_emb_rows (o : ℕ) (inb : ∀ a, (![o, 0] : Fin 2 → ℕ) a + S128x768.size a ≤ S1024x768.size a)
    (l : Fin 128) (d : Fin 768) (h : o + l.val < 1024) :
    (Rect.unit (s := S1024x768) ![o, 0] S128x768.size inb).emb (ix2 l d) = ix2 (⟨o + l.val, h⟩ : Fin 1024) d := by
  funext a
  refine Fin.ext ?_
  match a with
  | ⟨0, _⟩ => show o + 1 * l.val = o + l.val; omega
  | ⟨1, _⟩ => show 0 + 1 * d.val = d.val; omega

/-- A row at or past the end of a row group is not in it. -/
theorem first_not_mem_rows (o : ℕ) (sz : Fin 2 → ℕ) (inb : ∀ a, (![o, 0] : Fin 2 → ℕ) a + sz a ≤ S1024x768.size a)
    (y : S1024x768.Idx) (hy : o + sz 0 ≤ (y 0).val) : y ∉ (Rect.unit (s := S1024x768) ![o, 0] sz inb).set := by
  rw [Rect.mem_set_unit]
  intro hm
  have h0 := (hm 0).2
  change (y 0).val < o + sz 0 at h0
  omega

/-- A load of a whole buffer reads its contents. -/
theorem first_read_whole {S : Shape} (M : Memref sig .tc .vmem S .f32) (h : M.IsWhole) (off : Fin S.rank → ℕ)
    (hoff : off = fun _ => 0) (inb : ∀ a, off a + S.size a ≤ S.size a) (X : Vec Ideal S .f32) :
    View.readAt (Elt Ideal) M.view (Rect.unit off S.size inb).toLoadRect (h.unread X) = X := by
  rw [View.readAt_eq_ld, h.read_unread, View.ld_unit_zero hoff]

/-- Slab g of the activation block, at vocabulary entry v and place l. -/
theorem first_slab_read (arg1 : Memref sig .tc .vmem S1024x8x128 .f32) (harg1 : arg1.IsWhole) (x0 : Vec Ideal S1024x8x128 .f32)
    (g : ℕ) (hg : g < 8) (inb : ∀ a, (![0, g, 0] : Fin 3 → ℕ) a + S1024x1x128.size a ≤ S1024x8x128.size a)
    (v : Fin 1024) (l : Fin 128) :
    View.readAt (Elt Ideal) arg1.view (Rect.unit (s := S1024x8x128) ![0, g, 0] S1024x1x128.size inb).toLoadRect (harg1.unread x0) (ix3 v 0 l)
      = x0 (ix3 v ⟨g, hg⟩ l) := by
  rw [View.readAt_eq_ld, harg1.read_unread]
  show x0 _ = x0 _
  refine congrArg x0 (funext fun a => Fin.ext ?_)
  match a with
  | ⟨0, _⟩ => show 0 + 1 * v.val = v.val; omega
  | ⟨1, _⟩ => show g + 1 * 0 = g; omega
  | ⟨2, _⟩ => show 0 + 1 * l.val = l.val; omega

/-- Slab g of the tail block, at tail entry v and place l. -/
theorem first_tslab_read (arg6 : Memref sig .tc .vmem S8x81x128 .f32) (harg6 : arg6.IsWhole) (x5 : Vec Ideal S8x81x128 .f32)
    (g : ℕ) (hg : g < 8) (inb : ∀ a, (![g, 0, 0] : Fin 3 → ℕ) a + S1x81x128.size a ≤ S8x81x128.size a)
    (v : Fin 81) (l : Fin 128) :
    View.readAt (Elt Ideal) arg6.view (Rect.unit (s := S8x81x128) ![g, 0, 0] S1x81x128.size inb).toLoadRect (harg6.unread x5) (ix3 0 v l)
      = x5 (ix3 ⟨g, hg⟩ v l) := by
  rw [View.readAt_eq_ld, harg6.read_unread]
  show x5 _ = x5 _
  refine congrArg x5 (funext fun a => Fin.ext ?_)
  match a with
  | ⟨0, _⟩ => show g + 1 * 0 = g; omega
  | ⟨1, _⟩ => show 0 + 1 * v.val = v.val; omega
  | ⟨2, _⟩ => show 0 + 1 * l.val = l.val; omega

/-- A load of a row group after any stores reads, entry by entry, what those stores leave at its rows. -/
theorem first_load_rows (arg8 : Memref sig .tc .vmem S1024x768 .f32) (L : List (View.Piece (Elt Ideal) S1024x768 .f32))
    (o : ℕ) (inb : ∀ a, (![o, 0] : Fin 2 → ℕ) a + S128x768.size a ≤ S1024x768.size a)
    (l : Fin 128) (d : Fin 768) (h : o + l.val < 1024) :
    arg8.view.readCov L (Rect.unit (s := S1024x768) ![o, 0] S128x768.size inb).toLoadRect (ix2 l d)
      = View.canon L (ix2 (⟨o + l.val, h⟩ : Fin 1024) d) := by
  rw [View.readCov_eq_canon']
  show View.canon L ((Rect.unit (s := S1024x768) ![o, 0] S128x768.size inb).emb (ix2 l d)) = _
  rw [first_emb_rows o inb l d h]

/-! ## The seventeen stores

The run's pieces are named stage by stage: the list after the whole-block store, after each tail store, after each
main store; each store's payload reads rows loaded from the list before it. Below, in that order: what each list
leaves on the rows no store of its stage has reached yet, what each load therefore reads, each payload's entry, and
the contents after a whole stage. -/

section Pieces

variable {c : Dev nD}
  {arg1 : Memref sig .tc .vmem S1024x8x128 .f32} {harg1 : arg1.IsWhole}
  {arg2 : Memref sig .tc .vmem S1024x1024 .f32} {harg2 : arg2.IsWhole}
  {arg3 : Memref sig .tc .vmem S1024x768 .f32} {harg3 : arg3.IsWhole}
  {arg4 : Memref sig .tc .vmem S768x1024 .f32} {harg4 : arg4.IsWhole}
  {arg5 : Memref sig .tc .vmem S1x768 .f32} {harg5 : arg5.IsWhole}
  {arg6 : Memref sig .tc .vmem S8x81x128 .f32} {harg6 : arg6.IsWhole}
  {arg7 : Memref sig .tc .vmem S81x768 .f32} {harg7 : arg7.IsWhole}
  {arg8 : Memref sig .tc .vmem S1024x768 .f32}
  {x0 : Vec Ideal S1024x8x128 .f32} {x1 : Vec Ideal S1024x1024 .f32} {x2 : Vec Ideal S1024x768 .f32}
  {x3 : Vec Ideal S768x1024 .f32} {x4 : Vec Ideal S1x768 .f32} {x5 : Vec Ideal S8x81x128 .f32} {x6 : Vec Ideal S81x768 .f32}

/-! ### The first stage and the tail stores -/

/-- The whole-block store leaves the first stage everywhere. -/
theorem first_canonT1 (y : S1024x768.Idx) : View.canon (firstRun.sl.H7_1 (F := Ideal) c arg2 harg2 arg4 harg4 arg5 harg5 x1 x3 x4) y = first_posF x1 x3 x4 y := by
  unfold firstRun.sl.H7_1
  rw [View.canon_unit_zero first_hz2]
  obtain ⟨r, d, rfl⟩ : ∃ (r : Fin 1024) (d : Fin 768), y = ix2 r d := ⟨y 0, y 1, eq_ix2 y⟩
  refine (first_pay3_apply _ _ _ r d).trans ?_
  rw [first_read_whole arg2 harg2 ![0, 0] first_hz2 _ x1, first_read_whole arg4 harg4 ![0, 0] first_hz2 _ x3,
    first_read_whole arg5 harg5 ![0, 0] first_hz2 _ x4]
  rfl

/-- Rows from 128 on still hold the first stage after 1 tail store. -/
theorem first_canonT2 (y : S1024x768.Idx) (hy : 128 ≤ (y 0).val) : View.canon (firstRun.sl.H7_2 (F := Ideal) c arg2 harg2 arg4 harg4 arg5 harg5 arg6 harg6 arg7 harg7 arg8 x1 x3 x4 x5 x6) y = first_posF x1 x3 x4 y := by
  unfold firstRun.sl.H7_2
  refine (View.canon_cons_of_not_mem _ _ ?_).trans (first_canonT1 y)
  dsimp only
  exact first_not_mem_rows 0 _ _ y (by show 0 + 128 ≤ (y 0).val; omega)

/-- Rows from 256 on still hold the first stage after 2 tail stores. -/
theorem first_canonT3 (y : S1024x768.Idx) (hy : 256 ≤ (y 0).val) : View.canon (firstRun.sl.H7_3 (F := Ideal) c arg2 harg2 arg4 harg4 arg5 harg5 arg6 harg6 arg7 harg7 arg8 x1 x3 x4 x5 x6) y = first_posF x1 x3 x4 y := by
  unfold firstRun.sl.H7_3
  refine (View.canon_cons_of_not_mem _ _ ?_).trans (first_canonT2 y (by omega))
  dsimp only
  exact first_not_mem_rows 128 _ _ y (by show 128 + 128 ≤ (y 0).val; omega)

/-- Rows from 384 on still hold the first stage after 3 tail stores. -/
theorem first_canonT4 (y : S1024x768.Idx) (hy : 384 ≤ (y 0).val) : View.canon (firstRun.sl.H7_4 (F := Ideal) c arg2 harg2 arg4 harg4 arg5 harg5 arg6 harg6 arg7 harg7 arg8 x1 x3 x4 x5 x6) y = first_posF x1 x3 x4 y := by
  unfold firstRun.sl.H7_4
  refine (View.canon_cons_of_not_mem _ _ ?_).trans (first_canonT3 y (by omega))
  dsimp only
  exact first_not_mem_rows 256 _ _ y (by show 256 + 128 ≤ (y 0).val; omega)

/-- Rows from 512 on still hold the first stage after 4 tail stores. -/
theorem first_canonT5 (y : S1024x768.Idx) (hy : 512 ≤ (y 0).val) : View.canon (firstRun.sl.H7_5 (F := Ideal) c arg2 harg2 arg4 harg4 arg5 harg5 arg6 harg6 arg7 harg7 arg8 x1 x3 x4 x5 x6) y = first_posF x1 x3 x4 y := by
  unfold firstRun.sl.H7_5
  refine (View.canon_cons_of_not_mem _ _ ?_).trans (first_canonT4 y (by omega))
  dsimp only
  exact first_not_mem_rows 384 _ _ y (by show 384 + 128 ≤ (y 0).val; omega)

/-- Rows from 640 on still hold the first stage after 5 tail stores. -/
theorem first_canonT6 (y : S1024x768.Idx) (hy : 640 ≤ (y 0).val) : View.canon (firstRun.sl.H7_6 (F := Ideal) c arg2 harg2 arg4 harg4 arg5 harg5 arg6 harg6 arg7 harg7 arg8 x1 x3 x4 x5 x6) y = first_posF x1 x3 x4 y := by
  unfold firstRun.sl.H7_6
  refine (View.canon_cons_of_not_mem _ _ ?_).trans (first_canonT5 y (by omega))
  dsimp only
  exact first_not_mem_rows 512 _ _ y (by show 512 + 128 ≤ (y 0).val; omega)

/-- Rows from 768 on still hold the first stage after 6 tail stores. -/
theorem first_canonT7 (y : S1024x768.Idx) (hy : 768 ≤ (y 0).val) : View.canon (firstRun.sl.H7_7 (F := Ideal) c arg2 harg2 arg4 harg4 arg5 harg5 arg6 harg6 arg7 harg7 arg8 x1 x3 x4 x5 x6) y = first_posF x1 x3 x4 y := by
  unfold firstRun.sl.H7_7
  refine (View.canon_cons_of_not_mem _ _ ?_).trans (first_canonT6 y (by omega))
  dsimp only
  exact first_not_mem_rows 640 _ _ y (by show 640 + 128 ≤ (y 0).val; omega)

/-- Rows from 896 on still hold the first stage after 7 tail stores. -/
theorem first_canonT8 (y : S1024x768.Idx) (hy : 896 ≤ (y 0).val) : View.canon (firstRun.sl.H7_8 (F := Ideal) c arg2 harg2 arg4 harg4 arg5 harg5 arg6 harg6 arg7 harg7 arg8 x1 x3 x4 x5 x6) y = first_posF x1 x3 x4 y := by
  unfold firstRun.sl.H7_8
  refine (View.canon_cons_of_not_mem _ _ ?_).trans (first_canonT7 y (by omega))
  dsimp only
  exact first_not_mem_rows 768 _ _ y (by show 768 + 128 ≤ (y 0).val; omega)

/-- The rows a tail store of group 0 loads hold the first stage. -/
theorem first_loadT0 (l : Fin 128) (d : Fin 768) :
    (firstRun.sl.v84 (F := Ideal) c arg2 harg2 arg4 harg4 arg5 harg5 arg8 x1 x3 x4) (ix2 l d) = first_posAt x1 x3 x4 ⟨0 + l.val, by have := l.isLt; omega⟩ d := by
  unfold firstRun.sl.v84
  exact (first_load_rows arg8 _ 0 _ l d _).trans (first_canonT1 _)

/-- The rows a tail store of group 1 loads hold the first stage. -/
theorem first_loadT1 (l : Fin 128) (d : Fin 768) :
    (firstRun.sl.v92 (F := Ideal) c arg2 harg2 arg4 harg4 arg5 harg5 arg6 harg6 arg7 harg7 arg8 x1 x3 x4 x5 x6) (ix2 l d) = first_posAt x1 x3 x4 ⟨128 + l.val, by have := l.isLt; omega⟩ d := by
  unfold firstRun.sl.v92
  exact (first_load_rows arg8 _ 128 _ l d _).trans (first_canonT2 _ (by show 128 ≤ 128 + l.val; omega))

/-- The rows a tail store of group 2 loads hold the first stage. -/
theorem first_loadT2 (l : Fin 128) (d : Fin 768) :
    (firstRun.sl.v100 (F := Ideal) c arg2 harg2 arg4 harg4 arg5 harg5 arg6 harg6 arg7 harg7 arg8 x1 x3 x4 x5 x6) (ix2 l d) = first_posAt x1 x3 x4 ⟨256 + l.val, by have := l.isLt; omega⟩ d := by
  unfold firstRun.sl.v100
  exact (first_load_rows arg8 _ 256 _ l d _).trans (first_canonT3 _ (by show 256 ≤ 256 + l.val; omega))

/-- The rows a tail store of group 3 loads hold the first stage. -/
theorem first_loadT3 (l : Fin 128) (d : Fin 768) :
    (firstRun.sl.v108 (F := Ideal) c arg2 harg2 arg4 harg4 arg5 harg5 arg6 harg6 arg7 harg7 arg8 x1 x3 x4 x5 x6) (ix2 l d) = first_posAt x1 x3 x4 ⟨384 + l.val, by have := l.isLt; omega⟩ d := by
  unfold firstRun.sl.v108
  exact (first_load_rows arg8 _ 384 _ l d _).trans (first_canonT4 _ (by show 384 ≤ 384 + l.val; omega))

/-- The rows a tail store of group 4 loads hold the first stage. -/
theorem first_loadT4 (l : Fin 128) (d : Fin 768) :
    (firstRun.sl.v116 (F := Ideal) c arg2 harg2 arg4 harg4 arg5 harg5 arg6 harg6 arg7 harg7 arg8 x1 x3 x4 x5 x6) (ix2 l d) = first_posAt x1 x3 x4 ⟨512 + l.val, by have := l.isLt; omega⟩ d := by
  unfold firstRun.sl.v116
  exact (first_load_rows arg8 _ 512 _ l d _).trans (first_canonT5 _ (by show 512 ≤ 512 + l.val; omega))

/-- The rows a tail store of group 5 loads hold the first stage. -/
theorem first_loadT5 (l : Fin 128) (d : Fin 768) :
    (firstRun.sl.v124 (F := Ideal) c arg2 harg2 arg4 harg4 arg5 harg5 arg6 harg6 arg7 harg7 arg8 x1 x3 x4 x5 x6) (ix2 l d) = first_posAt x1 x3 x4 ⟨640 + l.val, by have := l.isLt; omega⟩ d := by
  unfold firstRun.sl.v124
  exact (first_load_rows arg8 _ 640 _ l d _).trans (first_canonT6 _ (by show 640 ≤ 640 + l.val; omega))

/-- The rows a tail store of group 6 loads hold the first stage. -/
theorem first_loadT6 (l : Fin 128) (d : Fin 768) :
    (firstRun.sl.v132 (F := Ideal) c arg2 harg2 arg4 harg4 arg5 harg5 arg6 harg6 arg7 harg7 arg8 x1 x3 x4 x5 x6) (ix2 l d) = first_posAt x1 x3 x4 ⟨768 + l.val, by have := l.isLt; omega⟩ d := by
  unfold firstRun.sl.v132
  exact (first_load_rows arg8 _ 768 _ l d _).trans (first_canonT7 _ (by show 768 ≤ 768 + l.val; omega))

/-- The rows a tail store of group 7 loads hold the first stage. -/
theorem first_loadT7 (l : Fin 128) (d : Fin 768) :
    (firstRun.sl.v140 (F := Ideal) c arg2 harg2 arg4 harg4 arg5 harg5 arg6 harg6 arg7 harg7 arg8 x1 x3 x4 x5 x6) (ix2 l d) = first_posAt x1 x3 x4 ⟨896 + l.val, by have := l.isLt; omega⟩ d := by
  unfold firstRun.sl.v140
  exact (first_load_rows arg8 _ 896 _ l d _).trans (first_canonT8 _ (by show 896 ≤ 896 + l.val; omega))

/-- The narrowed tail weights, named by the run, read as the weights. -/
theorem first_wtail (v : Fin 81) (d : Fin 768) : (firstRun.sl.r (F := Ideal) c arg7 harg7 x6) (ix2 v d) = x6 (ix2 v d) := by
  unfold firstRun.sl.r
  rw [first_pay4_apply, first_read_whole arg7 harg7 ![0, 0] first_hz2 _ x6]

/-- The tail store of group 0 writes the second stage on its rows. -/
theorem first_pieceT0 (x : S128x768.Idx) :
    k0_pay5 (F := Ideal) (View.readAt (Elt Ideal) arg7.view (Rect.unit (s := S81x768) ![0, 0] S81x768.size inb_S81x768_S81x768_0_0).toLoadRect (harg7.unread x6)) (firstRun.sl.v84 (F := Ideal) c arg2 harg2 arg4 harg4 arg5 harg5 arg8 x1 x3 x4) (View.readAt (Elt Ideal) arg6.view (Rect.unit (s := S8x81x128) ![0, 0, 0] S1x81x128.size inb_S8x81x128_S1x81x128_0_0_0).toLoadRect (harg6.unread x5)) x
      = first_tailF x1 x3 x4 x5 x6 ((Rect.unit (s := S1024x768) ![0, 0] S128x768.size inb_S1024x768_S128x768_0_0).emb x) := by
  obtain ⟨l, d, rfl⟩ : ∃ (l : Fin 128) (d : Fin 768), x = ix2 l d := ⟨x 0, x 1, eq_ix2 x⟩
  refine (first_pay5_apply _ _ _ l d).trans ?_
  refine (first_tail_step x1 x3 x4 x5 x6 0 0 (by decide) rfl l d (by have := l.isLt; omega) _ (first_loadT0 l d) _ (fun v => ?_)).trans ?_
  · rw [first_tslab_read arg6 harg6 x5 0 (by decide) _ v l, first_read_whole arg7 harg7 ![0, 0] first_hz2 _ x6]
  · exact (congrArg (first_tailF x1 x3 x4 x5 x6) (first_emb_rows 0 _ l d _)).symm

/-- The tail store of group 1 writes the second stage on its rows. -/
theorem first_pieceT1 (x : S128x768.Idx) :
    k0_pay6 (F := Ideal) (View.readAt (Elt Ideal) arg7.view (Rect.unit (s := S81x768) ![0, 0] S81x768.size inb_S81x768_S81x768_0_0).toLoadRect (harg7.unread x6)) (firstRun.sl.v92 (F := Ideal) c arg2 harg2 arg4 harg4 arg5 harg5 arg6 harg6 arg7 harg7 arg8 x1 x3 x4 x5 x6) (View.readAt (Elt Ideal) arg6.view (Rect.unit (s := S8x81x128) ![1, 0, 0] S1x81x128.size inb_S8x81x128_S1x81x128_1_0_0).toLoadRect (harg6.unread x5)) x
      = first_tailF x1 x3 x4 x5 x6 ((Rect.unit (s := S1024x768) ![128, 0] S128x768.size inb_S1024x768_S128x768_128_0).emb x) := by
  obtain ⟨l, d, rfl⟩ : ∃ (l : Fin 128) (d : Fin 768), x = ix2 l d := ⟨x 0, x 1, eq_ix2 x⟩
  refine (first_pay6_apply _ _ _ l d).trans ?_
  refine (first_tail_step x1 x3 x4 x5 x6 128 1 (by decide) rfl l d (by have := l.isLt; omega) _ (first_loadT1 l d) _ (fun v => ?_)).trans ?_
  · rw [first_tslab_read arg6 harg6 x5 1 (by decide) _ v l, first_read_whole arg7 harg7 ![0, 0] first_hz2 _ x6]
  · exact (congrArg (first_tailF x1 x3 x4 x5 x6) (first_emb_rows 128 _ l d _)).symm

/-- The tail store of group 2 writes the second stage on its rows. -/
theorem first_pieceT2 (x : S128x768.Idx) :
    k0_pay7 (F := Ideal) (firstRun.sl.r (F := Ideal) c arg7 harg7 x6) (firstRun.sl.v100 (F := Ideal) c arg2 harg2 arg4 harg4 arg5 harg5 arg6 harg6 arg7 harg7 arg8 x1 x3 x4 x5 x6) (View.readAt (Elt Ideal) arg6.view (Rect.unit (s := S8x81x128) ![2, 0, 0] S1x81x128.size inb_S8x81x128_S1x81x128_2_0_0).toLoadRect (harg6.unread x5)) x
      = first_tailF x1 x3 x4 x5 x6 ((Rect.unit (s := S1024x768) ![256, 0] S128x768.size inb_S1024x768_S128x768_256_0).emb x) := by
  obtain ⟨l, d, rfl⟩ : ∃ (l : Fin 128) (d : Fin 768), x = ix2 l d := ⟨x 0, x 1, eq_ix2 x⟩
  refine (first_pay7_apply _ _ _ l d).trans ?_
  refine (first_tail_step x1 x3 x4 x5 x6 256 2 (by decide) rfl l d (by have := l.isLt; omega) _ (first_loadT2 l d) _ (fun v => ?_)).trans ?_
  · rw [first_tslab_read arg6 harg6 x5 2 (by decide) _ v l, first_wtail v d]
  · exact (congrArg (first_tailF x1 x3 x4 x5 x6) (first_emb_rows 256 _ l d _)).symm

/-- The tail store of group 3 writes the second stage on its rows. -/
theorem first_pieceT3 (x : S128x768.Idx) :
    k0_pay8 (F := Ideal) (firstRun.sl.r (F := Ideal) c arg7 harg7 x6) (firstRun.sl.v108 (F := Ideal) c arg2 harg2 arg4 harg4 arg5 harg5 arg6 harg6 arg7 harg7 arg8 x1 x3 x4 x5 x6) (View.readAt (Elt Ideal) arg6.view (Rect.unit (s := S8x81x128) ![3, 0, 0] S1x81x128.size inb_S8x81x128_S1x81x128_3_0_0).toLoadRect (harg6.unread x5)) x
      = first_tailF x1 x3 x4 x5 x6 ((Rect.unit (s := S1024x768) ![384, 0] S128x768.size inb_S1024x768_S128x768_384_0).emb x) := by
  obtain ⟨l, d, rfl⟩ : ∃ (l : Fin 128) (d : Fin 768), x = ix2 l d := ⟨x 0, x 1, eq_ix2 x⟩
  refine (first_pay8_apply _ _ _ l d).trans ?_
  refine (first_tail_step x1 x3 x4 x5 x6 384 3 (by decide) rfl l d (by have := l.isLt; omega) _ (first_loadT3 l d) _ (fun v => ?_)).trans ?_
  · rw [first_tslab_read arg6 harg6 x5 3 (by decide) _ v l, first_wtail v d]
  · exact (congrArg (first_tailF x1 x3 x4 x5 x6) (first_emb_rows 384 _ l d _)).symm

/-- The tail store of group 4 writes the second stage on its rows. -/
theorem first_pieceT4 (x : S128x768.Idx) :
    k0_pay9 (F := Ideal) (firstRun.sl.r (F := Ideal) c arg7 harg7 x6) (firstRun.sl.v116 (F := Ideal) c arg2 harg2 arg4 harg4 arg5 harg5 arg6 harg6 arg7 harg7 arg8 x1 x3 x4 x5 x6) (View.readAt (Elt Ideal) arg6.view (Rect.unit (s := S8x81x128) ![4, 0, 0] S1x81x128.size inb_S8x81x128_S1x81x128_4_0_0).toLoadRect (harg6.unread x5)) x
      = first_tailF x1 x3 x4 x5 x6 ((Rect.unit (s := S1024x768) ![512, 0] S128x768.size inb_S1024x768_S128x768_512_0).emb x) := by
  obtain ⟨l, d, rfl⟩ : ∃ (l : Fin 128) (d : Fin 768), x = ix2 l d := ⟨x 0, x 1, eq_ix2 x⟩
  refine (first_pay9_apply _ _ _ l d).trans ?_
  refine (first_tail_step x1 x3 x4 x5 x6 512 4 (by decide) rfl l d (by have := l.isLt; omega) _ (first_loadT4 l d) _ (fun v => ?_)).trans ?_
  · rw [first_tslab_read arg6 harg6 x5 4 (by decide) _ v l, first_wtail v d]
  · exact (congrArg (first_tailF x1 x3 x4 x5 x6) (first_emb_rows 512 _ l d _)).symm

/-- The tail store of group 5 writes the second stage on its rows. -/
theorem first_pieceT5 (x : S128x768.Idx) :
    k0_pay12 (F := Ideal) (firstRun.sl.r (F := Ideal) c arg7 harg7 x6) (firstRun.sl.r_1 (F := Ideal) c arg2 harg2 arg4 harg4 arg5 harg5 arg6 harg6 arg7 harg7 arg8 x1 x3 x4 x5 x6) (firstRun.sl.r_2 (F := Ideal) c arg6 harg6 x5) x
      = first_tailF x1 x3 x4 x5 x6 ((Rect.unit (s := S1024x768) ![640, 0] S128x768.size inb_S1024x768_S128x768_640_0).emb x) := by
  obtain ⟨l, d, rfl⟩ : ∃ (l : Fin 128) (d : Fin 768), x = ix2 l d := ⟨x 0, x 1, eq_ix2 x⟩
  unfold firstRun.sl.r_1 firstRun.sl.r_2
  refine (first_pay12_apply _ _ _ l d).trans ?_
  refine (first_tail_step x1 x3 x4 x5 x6 640 5 (by decide) rfl l d (by have := l.isLt; omega) _ (first_loadT5 l d) _ (fun v => ?_)).trans ?_
  · rw [first_tslab_read arg6 harg6 x5 5 (by decide) _ v l, first_wtail v d]
  · exact (congrArg (first_tailF x1 x3 x4 x5 x6) (first_emb_rows 640 _ l d _)).symm

/-- The tail store of group 6 writes the second stage on its rows. -/
theorem first_pieceT6 (x : S128x768.Idx) :
    k0_pay13 (F := Ideal) (firstRun.sl.r (F := Ideal) c arg7 harg7 x6) (firstRun.sl.v132 (F := Ideal) c arg2 harg2 arg4 harg4 arg5 harg5 arg6 harg6 arg7 harg7 arg8 x1 x3 x4 x5 x6) (View.readAt (Elt Ideal) arg6.view (Rect.unit (s := S8x81x128) ![6, 0, 0] S1x81x128.size inb_S8x81x128_S1x81x128_6_0_0).toLoadRect (harg6.unread x5)) x
      = first_tailF x1 x3 x4 x5 x6 ((Rect.unit (s := S1024x768) ![768, 0] S128x768.size inb_S1024x768_S128x768_768_0).emb x) := by
  obtain ⟨l, d, rfl⟩ : ∃ (l : Fin 128) (d : Fin 768), x = ix2 l d := ⟨x 0, x 1, eq_ix2 x⟩
  refine (first_pay13_apply _ _ _ l d).trans ?_
  refine (first_tail_step x1 x3 x4 x5 x6 768 6 (by decide) rfl l d (by have := l.isLt; omega) _ (first_loadT6 l d) _ (fun v => ?_)).trans ?_
  · rw [first_tslab_read arg6 harg6 x5 6 (by decide) _ v l, first_wtail v d]
  · exact (congrArg (first_tailF x1 x3 x4 x5 x6) (first_emb_rows 768 _ l d _)).symm

/-- The tail store of group 7 writes the second stage on its rows. -/
theorem first_pieceT7 (x : S128x768.Idx) :
    k0_pay14 (F := Ideal) (firstRun.sl.r (F := Ideal) c arg7 harg7 x6) (firstRun.sl.v140 (F := Ideal) c arg2 harg2 arg4 harg4 arg5 harg5 arg6 harg6 arg7 harg7 arg8 x1 x3 x4 x5 x6) (View.readAt (Elt Ideal) arg6.view (Rect.unit (s := S8x81x128) ![7, 0, 0] S1x81x128.size inb_S8x81x128_S1x81x128_7_0_0).toLoadRect (harg6.unread x5)) x
      = first_tailF x1 x3 x4 x5 x6 ((Rect.unit (s := S1024x768) ![896, 0] S128x768.size inb_S1024x768_S128x768_896_0).emb x) := by
  obtain ⟨l, d, rfl⟩ : ∃ (l : Fin 128) (d : Fin 768), x = ix2 l d := ⟨x 0, x 1, eq_ix2 x⟩
  refine (first_pay14_apply _ _ _ l d).trans ?_
  refine (first_tail_step x1 x3 x4 x5 x6 896 7 (by decide) rfl l d (by have := l.isLt; omega) _ (first_loadT7 l d) _ (fun v => ?_)).trans ?_
  · rw [first_tslab_read arg6 harg6 x5 7 (by decide) _ v l, first_wtail v d]
  · exact (congrArg (first_tailF x1 x3 x4 x5 x6) (first_emb_rows 896 _ l d _)).symm

/-- After the eight tail stores the block holds the second stage: the tail stores are blocks of it, over the whole-block store. -/
theorem first_canonT9 (y : S1024x768.Idx) : View.canon (firstRun.sl.H7_9 (F := Ideal) c arg2 harg2 arg4 harg4 arg5 harg5 arg6 harg6 arg7 harg7 arg8 x1 x3 x4 x5 x6) y = first_tailF x1 x3 x4 x5 x6 y := by
  unfold firstRun.sl.H7_9 firstRun.sl.H7_8 firstRun.sl.H7_7 firstRun.sl.H7_6 firstRun.sl.H7_5 firstRun.sl.H7_4 firstRun.sl.H7_3 firstRun.sl.H7_2
  refine View.canon_append_of_pieces (first_tailF x1 x3 x4 x5 x6) (firstRun.sl.H7_1 (F := Ideal) c arg2 harg2 arg4 harg4 arg5 harg5 x1 x3 x4) [_, _, _, _, _, _, _, _] ?_ y ?_
  · refine List.forall_mem_cons.mpr ⟨fun x => first_pieceT7 x, List.forall_mem_cons.mpr ⟨fun x => first_pieceT6 x,
      List.forall_mem_cons.mpr ⟨fun x => first_pieceT5 x, List.forall_mem_cons.mpr ⟨fun x => first_pieceT4 x,
      List.forall_mem_cons.mpr ⟨fun x => first_pieceT3 x, List.forall_mem_cons.mpr ⟨fun x => first_pieceT2 x,
      List.forall_mem_cons.mpr ⟨fun x => first_pieceT1 x, List.forall_mem_cons.mpr ⟨fun x => first_pieceT0 x,
      fun p hp => absurd hp List.not_mem_nil⟩⟩⟩⟩⟩⟩⟩⟩
  · exact View.cover_of_tiledL (s := S1024x768) _ S128x768.size (by sl_kernel_rfl) y

/-! ### The main stores -/

/-- Rows from 128 on still hold the second stage after 1 main store. -/
theorem first_canonM10 (y : S1024x768.Idx) (hy : 128 ≤ (y 0).val) : View.canon (firstRun.sl.H7_10 (F := Ideal) c arg1 harg1 arg2 harg2 arg3 harg3 arg4 harg4 arg5 harg5 arg6 harg6 arg7 harg7 arg8 x0 x1 x2 x3 x4 x5 x6) y = first_tailF x1 x3 x4 x5 x6 y := by
  unfold firstRun.sl.H7_10
  refine (View.canon_cons_of_not_mem _ _ ?_).trans (first_canonT9 y)
  dsimp only
  exact first_not_mem_rows 0 _ _ y (by show 0 + 128 ≤ (y 0).val; omega)

/-- Rows from 256 on still hold the second stage after 2 main stores. -/
theorem first_canonM11 (y : S1024x768.Idx) (hy : 256 ≤ (y 0).val) : View.canon (firstRun.sl.H7_11 (F := Ideal) c arg1 harg1 arg2 harg2 arg3 harg3 arg4 harg4 arg5 harg5 arg6 harg6 arg7 harg7 arg8 x0 x1 x2 x3 x4 x5 x6) y = first_tailF x1 x3 x4 x5 x6 y := by
  unfold firstRun.sl.H7_11
  refine (View.canon_cons_of_not_mem _ _ ?_).trans (first_canonM10 y (by omega))
  dsimp only
  exact first_not_mem_rows 128 _ _ y (by show 128 + 128 ≤ (y 0).val; omega)

/-- Rows from 384 on still hold the second stage after 3 main stores. -/
theorem first_canonM12 (y : S1024x768.Idx) (hy : 384 ≤ (y 0).val) : View.canon (firstRun.sl.H7_12 (F := Ideal) c arg1 harg1 arg2 harg2 arg3 harg3 arg4 harg4 arg5 harg5 arg6 harg6 arg7 harg7 arg8 x0 x1 x2 x3 x4 x5 x6) y = first_tailF x1 x3 x4 x5 x6 y := by
  unfold firstRun.sl.H7_12
  refine (View.canon_cons_of_not_mem _ _ ?_).trans (first_canonM11 y (by omega))
  dsimp only
  exact first_not_mem_rows 256 _ _ y (by show 256 + 128 ≤ (y 0).val; omega)

/-- Rows from 512 on still hold the second stage after 4 main stores. -/
theorem first_canonM13 (y : S1024x768.Idx) (hy : 512 ≤ (y 0).val) : View.canon (firstRun.sl.H7_13 (F := Ideal) c arg1 harg1 arg2 harg2 arg3 harg3 arg4 harg4 arg5 harg5 arg6 harg6 arg7 harg7 arg8 x0 x1 x2 x3 x4 x5 x6) y = first_tailF x1 x3 x4 x5 x6 y := by
  unfold firstRun.sl.H7_13
  refine (View.canon_cons_of_not_mem _ _ ?_).trans (first_canonM12 y (by omega))
  dsimp only
  exact first_not_mem_rows 384 _ _ y (by show 384 + 128 ≤ (y 0).val; omega)

/-- Rows from 640 on still hold the second stage after 5 main stores. -/
theorem first_canonM14 (y : S1024x768.Idx) (hy : 640 ≤ (y 0).val) : View.canon (firstRun.sl.H7_14 (F := Ideal) c arg1 harg1 arg2 harg2 arg3 harg3 arg4 harg4 arg5 harg5 arg6 harg6 arg7 harg7 arg8 x0 x1 x2 x3 x4 x5 x6) y = first_tailF x1 x3 x4 x5 x6 y := by
  unfold firstRun.sl.H7_14
  refine (View.canon_cons_of_not_mem _ _ ?_).trans (first_canonM13 y (by omega))
  dsimp only
  exact first_not_mem_rows 512 _ _ y (by show 512 + 128 ≤ (y 0).val; omega)

/-- Rows from 768 on still hold the second stage after 6 main stores. -/
theorem first_canonM15 (y : S1024x768.Idx) (hy : 768 ≤ (y 0).val) : View.canon (firstRun.sl.H7_15 (F := Ideal) c arg1 harg1 arg2 harg2 arg3 harg3 arg4 harg4 arg5 harg5 arg6 harg6 arg7 harg7 arg8 x0 x1 x2 x3 x4 x5 x6) y = first_tailF x1 x3 x4 x5 x6 y := by
  unfold firstRun.sl.H7_15
  refine (View.canon_cons_of_not_mem _ _ ?_).trans (first_canonM14 y (by omega))
  dsimp only
  exact first_not_mem_rows 640 _ _ y (by show 640 + 128 ≤ (y 0).val; omega)

/-- Rows from 896 on still hold the second stage after 7 main stores. -/
theorem first_canonM16 (y : S1024x768.Idx) (hy : 896 ≤ (y 0).val) : View.canon (firstRun.sl.H7_16 (F := Ideal) c arg1 harg1 arg2 harg2 arg3 harg3 arg4 harg4 arg5 harg5 arg6 harg6 arg7 harg7 arg8 x0 x1 x2 x3 x4 x5 x6) y = first_tailF x1 x3 x4 x5 x6 y := by
  unfold firstRun.sl.H7_16
  refine (View.canon_cons_of_not_mem _ _ ?_).trans (first_canonM15 y (by omega))
  dsimp only
  exact first_not_mem_rows 768 _ _ y (by show 768 + 128 ≤ (y 0).val; omega)

/-- The rows a main store of group 0 loads hold the second stage. -/
theorem first_loadM0 (l : Fin 128) (d : Fin 768) :
    (firstRun.sl.v9 (F := Ideal) c arg2 harg2 arg4 harg4 arg5 harg5 arg6 harg6 arg7 harg7 arg8 x1 x3 x4 x5 x6) (ix2 l d) = first_tailAt x1 x3 x4 x5 x6 ⟨0 + l.val, by have := l.isLt; omega⟩ d := by
  unfold firstRun.sl.v9
  exact (first_load_rows arg8 _ 0 _ l d _).trans (first_canonT9 _)

/-- The rows a main store of group 1 loads hold the second stage. -/
theorem first_loadM1 (l : Fin 128) (d : Fin 768) :
    (firstRun.sl.v17 (F := Ideal) c arg1 harg1 arg2 harg2 arg3 harg3 arg4 harg4 arg5 harg5 arg6 harg6 arg7 harg7 arg8 x0 x1 x2 x3 x4 x5 x6) (ix2 l d) = first_tailAt x1 x3 x4 x5 x6 ⟨128 + l.val, by have := l.isLt; omega⟩ d := by
  unfold firstRun.sl.v17
  exact (first_load_rows arg8 _ 128 _ l d _).trans (first_canonM10 _ (by show 128 ≤ 128 + l.val; omega))

/-- The rows a main store of group 2 loads hold the second stage. -/
theorem first_loadM2 (l : Fin 128) (d : Fin 768) :
    (firstRun.sl.v25 (F := Ideal) c arg1 harg1 arg2 harg2 arg3 harg3 arg4 harg4 arg5 harg5 arg6 harg6 arg7 harg7 arg8 x0 x1 x2 x3 x4 x5 x6) (ix2 l d) = first_tailAt x1 x3 x4 x5 x6 ⟨256 + l.val, by have := l.isLt; omega⟩ d := by
  unfold firstRun.sl.v25
  exact (first_load_rows arg8 _ 256 _ l d _).trans (first_canonM11 _ (by show 256 ≤ 256 + l.val; omega))

/-- The rows a main store of group 3 loads hold the second stage. -/
theorem first_loadM3 (l : Fin 128) (d : Fin 768) :
    (firstRun.sl.v33 (F := Ideal) c arg1 harg1 arg2 harg2 arg3 harg3 arg4 harg4 arg5 harg5 arg6 harg6 arg7 harg7 arg8 x0 x1 x2 x3 x4 x5 x6) (ix2 l d) = first_tailAt x1 x3 x4 x5 x6 ⟨384 + l.val, by have := l.isLt; omega⟩ d := by
  unfold firstRun.sl.v33
  exact (first_load_rows arg8 _ 384 _ l d _).trans (first_canonM12 _ (by show 384 ≤ 384 + l.val; omega))

/-- The rows a main store of group 4 loads hold the second stage. -/
theorem first_loadM4 (l : Fin 128) (d : Fin 768) :
    (firstRun.sl.v41 (F := Ideal) c arg1 harg1 arg2 harg2 arg3 harg3 arg4 harg4 arg5 harg5 arg6 harg6 arg7 harg7 arg8 x0 x1 x2 x3 x4 x5 x6) (ix2 l d) = first_tailAt x1 x3 x4 x5 x6 ⟨512 + l.val, by have := l.isLt; omega⟩ d := by
  unfold firstRun.sl.v41
  exact (first_load_rows arg8 _ 512 _ l d _).trans (first_canonM13 _ (by show 512 ≤ 512 + l.val; omega))

/-- The rows a main store of group 5 loads hold the second stage. -/
theorem first_loadM5 (l : Fin 128) (d : Fin 768) :
    (firstRun.sl.v49 (F := Ideal) c arg1 harg1 arg2 harg2 arg3 harg3 arg4 harg4 arg5 harg5 arg6 harg6 arg7 harg7 arg8 x0 x1 x2 x3 x4 x5 x6) (ix2 l d) = first_tailAt x1 x3 x4 x5 x6 ⟨640 + l.val, by have := l.isLt; omega⟩ d := by
  unfold firstRun.sl.v49
  exact (first_load_rows arg8 _ 640 _ l d _).trans (first_canonM14 _ (by show 640 ≤ 640 + l.val; omega))

/-- The rows a main store of group 6 loads hold the second stage. -/
theorem first_loadM6 (l : Fin 128) (d : Fin 768) :
    (firstRun.sl.v57 (F := Ideal) c arg1 harg1 arg2 harg2 arg3 harg3 arg4 harg4 arg5 harg5 arg6 harg6 arg7 harg7 arg8 x0 x1 x2 x3 x4 x5 x6) (ix2 l d) = first_tailAt x1 x3 x4 x5 x6 ⟨768 + l.val, by have := l.isLt; omega⟩ d := by
  unfold firstRun.sl.v57
  exact (first_load_rows arg8 _ 768 _ l d _).trans (first_canonM15 _ (by show 768 ≤ 768 + l.val; omega))

/-- The rows a main store of group 7 loads hold the second stage. -/
theorem first_loadM7 (l : Fin 128) (d : Fin 768) :
    (firstRun.sl.v65 (F := Ideal) c arg1 harg1 arg2 harg2 arg3 harg3 arg4 harg4 arg5 harg5 arg6 harg6 arg7 harg7 arg8 x0 x1 x2 x3 x4 x5 x6) (ix2 l d) = first_tailAt x1 x3 x4 x5 x6 ⟨896 + l.val, by have := l.isLt; omega⟩ d := by
  unfold firstRun.sl.v65
  exact (first_load_rows arg8 _ 896 _ l d _).trans (first_canonM16 _ (by show 896 ≤ 896 + l.val; omega))

/-- The narrowed main weights, named by the run, read as the weights. -/
theorem first_wmain (v : Fin 1024) (d : Fin 768) : (firstRun.sl.r_3 (F := Ideal) c arg3 harg3 x2) (ix2 v d) = x2 (ix2 v d) := by
  unfold firstRun.sl.r_3
  rw [first_pay15_apply, first_read_whole arg3 harg3 ![0, 0] first_hz2 _ x2]

/-- The main store of group 0 writes the third stage on its rows. -/
theorem first_pieceM0 (x : S128x768.Idx) :
    k0_pay16 (F := Ideal) (View.readAt (Elt Ideal) arg3.view (Rect.unit (s := S1024x768) ![0, 0] S1024x768.size inb_S1024x768_S1024x768_0_0).toLoadRect (harg3.unread x2)) (View.readAt (Elt Ideal) arg1.view (Rect.unit (s := S1024x8x128) ![0, 0, 0] S1024x1x128.size inb_S1024x8x128_S1024x1x128_0_0_0).toLoadRect (harg1.unread x0)) (firstRun.sl.v9 (F := Ideal) c arg2 harg2 arg4 harg4 arg5 harg5 arg6 harg6 arg7 harg7 arg8 x1 x3 x4 x5 x6) x
      = first_mainF x0 x1 x2 x3 x4 x5 x6 ((Rect.unit (s := S1024x768) ![0, 0] S128x768.size inb_S1024x768_S128x768_0_0).emb x) := by
  obtain ⟨l, d, rfl⟩ : ∃ (l : Fin 128) (d : Fin 768), x = ix2 l d := ⟨x 0, x 1, eq_ix2 x⟩
  refine (first_pay16_apply _ _ _ l d).trans ?_
  refine (first_main_step x0 x1 x2 x3 x4 x5 x6 0 0 (by decide) rfl l d (by have := l.isLt; omega) _ (first_loadM0 l d) _ (fun v => ?_)).trans ?_
  · rw [first_slab_read arg1 harg1 x0 0 (by decide) _ v l, first_read_whole arg3 harg3 ![0, 0] first_hz2 _ x2]
  · exact (congrArg (first_mainF x0 x1 x2 x3 x4 x5 x6) (first_emb_rows 0 _ l d _)).symm

/-- The main store of group 1 writes the third stage on its rows. -/
theorem first_pieceM1 (x : S128x768.Idx) :
    k0_pay17 (F := Ideal) (View.readAt (Elt Ideal) arg3.view (Rect.unit (s := S1024x768) ![0, 0] S1024x768.size inb_S1024x768_S1024x768_0_0).toLoadRect (harg3.unread x2)) (View.readAt (Elt Ideal) arg1.view (Rect.unit (s := S1024x8x128) ![0, 1, 0] S1024x1x128.size inb_S1024x8x128_S1024x1x128_0_1_0).toLoadRect (harg1.unread x0)) (firstRun.sl.v17 (F := Ideal) c arg1 harg1 arg2 harg2 arg3 harg3 arg4 harg4 arg5 harg5 arg6 harg6 arg7 harg7 arg8 x0 x1 x2 x3 x4 x5 x6) x
      = first_mainF x0 x1 x2 x3 x4 x5 x6 ((Rect.unit (s := S1024x768) ![128, 0] S128x768.size inb_S1024x768_S128x768_128_0).emb x) := by
  obtain ⟨l, d, rfl⟩ : ∃ (l : Fin 128) (d : Fin 768), x = ix2 l d := ⟨x 0, x 1, eq_ix2 x⟩
  refine (first_pay17_apply _ _ _ l d).trans ?_
  refine (first_main_step x0 x1 x2 x3 x4 x5 x6 128 1 (by decide) rfl l d (by have := l.isLt; omega) _ (first_loadM1 l d) _ (fun v => ?_)).trans ?_
  · rw [first_slab_read arg1 harg1 x0 1 (by decide) _ v l, first_read_whole arg3 harg3 ![0, 0] first_hz2 _ x2]
  · exact (congrArg (first_mainF x0 x1 x2 x3 x4 x5 x6) (first_emb_rows 128 _ l d _)).symm

/-- The main store of group 2 writes the third stage on its rows. -/
theorem first_pieceM2 (x : S128x768.Idx) :
    firstRun.sl.r_4 (F := Ideal) c arg1 harg1 arg2 harg2 arg3 harg3 arg4 harg4 arg5 harg5 arg6 harg6 arg7 harg7 arg8 x0 x1 x2 x3 x4 x5 x6 x
      = first_mainF x0 x1 x2 x3 x4 x5 x6 ((Rect.unit (s := S1024x768) ![256, 0] S128x768.size inb_S1024x768_S128x768_256_0).emb x) := by
  obtain ⟨l, d, rfl⟩ : ∃ (l : Fin 128) (d : Fin 768), x = ix2 l d := ⟨x 0, x 1, eq_ix2 x⟩
  unfold firstRun.sl.r_4
  refine (first_pay18_apply _ _ _ l d).trans ?_
  refine (first_main_step x0 x1 x2 x3 x4 x5 x6 256 2 (by decide) rfl l d (by have := l.isLt; omega) _ (first_loadM2 l d) _ (fun v => ?_)).trans ?_
  · rw [first_slab_read arg1 harg1 x0 2 (by decide) _ v l, first_read_whole arg3 harg3 ![0, 0] first_hz2 _ x2]
  · exact (congrArg (first_mainF x0 x1 x2 x3 x4 x5 x6) (first_emb_rows 256 _ l d _)).symm

/-- The main store of group 3 writes the third stage on its rows. -/
theorem first_pieceM3 (x : S128x768.Idx) :
    k0_pay19 (F := Ideal) (firstRun.sl.r_3 (F := Ideal) c arg3 harg3 x2) (View.readAt (Elt Ideal) arg1.view (Rect.unit (s := S1024x8x128) ![0, 3, 0] S1024x1x128.size inb_S1024x8x128_S1024x1x128_0_3_0).toLoadRect (harg1.unread x0)) (firstRun.sl.v33 (F := Ideal) c arg1 harg1 arg2 harg2 arg3 harg3 arg4 harg4 arg5 harg5 arg6 harg6 arg7 harg7 arg8 x0 x1 x2 x3 x4 x5 x6) x
      = first_mainF x0 x1 x2 x3 x4 x5 x6 ((Rect.unit (s := S1024x768) ![384, 0] S128x768.size inb_S1024x768_S128x768_384_0).emb x) := by
  obtain ⟨l, d, rfl⟩ : ∃ (l : Fin 128) (d : Fin 768), x = ix2 l d := ⟨x 0, x 1, eq_ix2 x⟩
  refine (first_pay19_apply _ _ _ l d).trans ?_
  refine (first_main_step x0 x1 x2 x3 x4 x5 x6 384 3 (by decide) rfl l d (by have := l.isLt; omega) _ (first_loadM3 l d) _ (fun v => ?_)).trans ?_
  · rw [first_slab_read arg1 harg1 x0 3 (by decide) _ v l, first_wmain v d]
  · exact (congrArg (first_mainF x0 x1 x2 x3 x4 x5 x6) (first_emb_rows 384 _ l d _)).symm

/-- The main store of group 4 writes the third stage on its rows. -/
theorem first_pieceM4 (x : S128x768.Idx) :
    k0_pay20 (F := Ideal) (firstRun.sl.r_3 (F := Ideal) c arg3 harg3 x2) (View.readAt (Elt Ideal) arg1.view (Rect.unit (s := S1024x8x128) ![0, 4, 0] S1024x1x128.size inb_S1024x8x128_S1024x1x128_0_4_0).toLoadRect (harg1.unread x0)) (firstRun.sl.v41 (F := Ideal) c arg1 harg1 arg2 harg2 arg3 harg3 arg4 harg4 arg5 harg5 arg6 harg6 arg7 harg7 arg8 x0 x1 x2 x3 x4 x5 x6) x
      = first_mainF x0 x1 x2 x3 x4 x5 x6 ((Rect.unit (s := S1024x768) ![512, 0] S128x768.size inb_S1024x768_S128x768_512_0).emb x) := by
  obtain ⟨l, d, rfl⟩ : ∃ (l : Fin 128) (d : Fin 768), x = ix2 l d := ⟨x 0, x 1, eq_ix2 x⟩
  refine (first_pay20_apply _ _ _ l d).trans ?_
  refine (first_main_step x0 x1 x2 x3 x4 x5 x6 512 4 (by decide) rfl l d (by have := l.isLt; omega) _ (first_loadM4 l d) _ (fun v => ?_)).trans ?_
  · rw [first_slab_read arg1 harg1 x0 4 (by decide) _ v l, first_wmain v d]
  · exact (congrArg (first_mainF x0 x1 x2 x3 x4 x5 x6) (first_emb_rows 512 _ l d _)).symm

/-- The main store of group 5 writes the third stage on its rows. -/
theorem first_pieceM5 (x : S128x768.Idx) :
    k0_pay21 (F := Ideal) (firstRun.sl.r_3 (F := Ideal) c arg3 harg3 x2) (View.readAt (Elt Ideal) arg1.view (Rect.unit (s := S1024x8x128) ![0, 5, 0] S1024x1x128.size inb_S1024x8x128_S1024x1x128_0_5_0).toLoadRect (harg1.unread x0)) (firstRun.sl.v49 (F := Ideal) c arg1 harg1 arg2 harg2 arg3 harg3 arg4 harg4 arg5 harg5 arg6 harg6 arg7 harg7 arg8 x0 x1 x2 x3 x4 x5 x6) x
      = first_mainF x0 x1 x2 x3 x4 x5 x6 ((Rect.unit (s := S1024x768) ![640, 0] S128x768.size inb_S1024x768_S128x768_640_0).emb x) := by
  obtain ⟨l, d, rfl⟩ : ∃ (l : Fin 128) (d : Fin 768), x = ix2 l d := ⟨x 0, x 1, eq_ix2 x⟩
  refine (first_pay21_apply _ _ _ l d).trans ?_
  refine (first_main_step x0 x1 x2 x3 x4 x5 x6 640 5 (by decide) rfl l d (by have := l.isLt; omega) _ (first_loadM5 l d) _ (fun v => ?_)).trans ?_
  · rw [first_slab_read arg1 harg1 x0 5 (by decide) _ v l, first_wmain v d]
  · exact (congrArg (first_mainF x0 x1 x2 x3 x4 x5 x6) (first_emb_rows 640 _ l d _)).symm

/-- The main store of group 6 writes the third stage on its rows. -/
theorem first_pieceM6 (x : S128x768.Idx) :
    k0_pay1 (F := Ideal) (firstRun.sl.r_3 (F := Ideal) c arg3 harg3 x2) (firstRun.sl.r_5 (F := Ideal) c arg1 harg1 x0) (firstRun.sl.v57 (F := Ideal) c arg1 harg1 arg2 harg2 arg3 harg3 arg4 harg4 arg5 harg5 arg6 harg6 arg7 harg7 arg8 x0 x1 x2 x3 x4 x5 x6) x
      = first_mainF x0 x1 x2 x3 x4 x5 x6 ((Rect.unit (s := S1024x768) ![768, 0] ![128, 768] inb_S1024x768_S128x768_768_0).emb x) := by
  obtain ⟨l, d, rfl⟩ : ∃ (l : Fin 128) (d : Fin 768), x = ix2 l d := ⟨x 0, x 1, eq_ix2 x⟩
  unfold firstRun.sl.r_5
  refine (first_pay1_apply _ _ _ l d).trans ?_
  refine (first_main_step x0 x1 x2 x3 x4 x5 x6 768 6 (by decide) rfl l d (by have := l.isLt; omega) _ (first_loadM6 l d) _ (fun v => ?_)).trans ?_
  · rw [first_slab_read arg1 harg1 x0 6 (by decide) _ v l, first_wmain v d]
  · exact (congrArg (first_mainF x0 x1 x2 x3 x4 x5 x6) (first_emb_rows 768 _ l d _)).symm

/-- The main store of group 7 writes the third stage on its rows. -/
theorem first_pieceM7 (x : S128x768.Idx) :
    k0_pay2 (F := Ideal) (firstRun.sl.r_3 (F := Ideal) c arg3 harg3 x2) (View.readAt (Elt Ideal) arg1.view (Rect.unit (s := S1024x8x128) ![0, 7, 0] ![1024, 1, 128] inb_S1024x8x128_S1024x1x128_0_7_0).toLoadRect (harg1.unread x0)) (firstRun.sl.v65 (F := Ideal) c arg1 harg1 arg2 harg2 arg3 harg3 arg4 harg4 arg5 harg5 arg6 harg6 arg7 harg7 arg8 x0 x1 x2 x3 x4 x5 x6) x
      = first_mainF x0 x1 x2 x3 x4 x5 x6 ((Rect.unit (s := S1024x768) ![896, 0] ![128, 768] inb_S1024x768_S128x768_896_0).emb x) := by
  obtain ⟨l, d, rfl⟩ : ∃ (l : Fin 128) (d : Fin 768), x = ix2 l d := ⟨x 0, x 1, eq_ix2 x⟩
  refine (first_pay2_apply _ _ _ l d).trans ?_
  refine (first_main_step x0 x1 x2 x3 x4 x5 x6 896 7 (by decide) rfl l d (by have := l.isLt; omega) _ (first_loadM7 l d) _ (fun v => ?_)).trans ?_
  · rw [first_slab_read arg1 harg1 x0 7 (by decide) _ v l, first_wmain v d]
  · exact (congrArg (first_mainF x0 x1 x2 x3 x4 x5 x6) (first_emb_rows 896 _ l d _)).symm

/-- After all seventeen stores the block holds the third stage: the main stores are blocks of it, over the nine earlier stores. -/
theorem first_canonAll (y : S1024x768.Idx) :
    View.canon ((⟨Rect.unit (s := S1024x768) ![896, 0] ![128, 768] inb_S1024x768_S128x768_896_0,
        k0_pay2 (F := Ideal) (firstRun.sl.r_3 (F := Ideal) c arg3 harg3 x2) (View.readAt (Elt Ideal) arg1.view (Rect.unit (s := S1024x8x128) ![0, 7, 0] ![1024, 1, 128] inb_S1024x8x128_S1024x1x128_0_7_0).toLoadRect (harg1.unread x0)) (firstRun.sl.v65 (F := Ideal) c arg1 harg1 arg2 harg2 arg3 harg3 arg4 harg4 arg5 harg5 arg6 harg6 arg7 harg7 arg8 x0 x1 x2 x3 x4 x5 x6)⟩ : View.Piece (Elt Ideal) S1024x768 .f32)
      :: firstRun.sl.H7_16 (F := Ideal) c arg1 harg1 arg2 harg2 arg3 harg3 arg4 harg4 arg5 harg5 arg6 harg6 arg7 harg7 arg8 x0 x1 x2 x3 x4 x5 x6) y = first_mainF x0 x1 x2 x3 x4 x5 x6 y := by
  unfold firstRun.sl.H7_16 firstRun.sl.H7_15 firstRun.sl.H7_14 firstRun.sl.H7_13 firstRun.sl.H7_12 firstRun.sl.H7_11 firstRun.sl.H7_10
  refine View.canon_append_of_pieces (first_mainF x0 x1 x2 x3 x4 x5 x6) (firstRun.sl.H7_9 (F := Ideal) c arg2 harg2 arg4 harg4 arg5 harg5 arg6 harg6 arg7 harg7 arg8 x1 x3 x4 x5 x6) [_, _, _, _, _, _, _, _] ?_ y ?_
  · refine List.forall_mem_cons.mpr ⟨fun x => first_pieceM7 x, List.forall_mem_cons.mpr ⟨fun x => first_pieceM6 x,
      List.forall_mem_cons.mpr ⟨fun x => first_pieceM5 x, List.forall_mem_cons.mpr ⟨fun x => first_pieceM4 x,
      List.forall_mem_cons.mpr ⟨fun x => first_pieceM3 x, List.forall_mem_cons.mpr ⟨fun x => first_pieceM2 x,
      List.forall_mem_cons.mpr ⟨fun x => first_pieceM1 x, List.forall_mem_cons.mpr ⟨fun x => first_pieceM0 x,
      fun p hp => absurd hp List.not_mem_nil⟩⟩⟩⟩⟩⟩⟩⟩
  · exact View.cover_of_tiledL (s := S1024x768) _ S128x768.size (by sl_kernel_rfl) y

end Pieces

/-! ## The first step's block at an entry -/

theorem outFirst_apply (c : Dev nD) (i : grid0.Coords) (arg1 : Memref sig .tc .vmem S1024x8x128 .f32) (harg1 : arg1.IsWhole) (arg2 : Memref sig .tc .vmem S1024x1024 .f32) (harg2 : arg2.IsWhole) (arg3 : Memref sig .tc .vmem S1024x768 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S8x81x128 .f32) (harg6 : arg6.IsWhole) (arg7 : Memref sig .tc .vmem S81x768 .f32) (harg7 : arg7.IsWhole) (arg8 : Memref sig .tc .vmem S1024x768 .f32) (harg8 : arg8.IsWhole) (hc : isFirst i)
    (x0 : Vec Ideal S1024x8x128 .f32) (x1 : Vec Ideal S1024x1024 .f32) (x2 : Vec Ideal S1024x768 .f32) (x3 : Vec Ideal S768x1024 .f32)
    (x4 : Vec Ideal S1x768 .f32) (x5 : Vec Ideal S8x81x128 .f32) (x6 : Vec Ideal S81x768 .f32)
    (g : Fin 8) (l : Fin 128) (d : Fin 768) :
    outFirst (F := Ideal) c i arg1 harg1 arg2 harg2 arg3 harg3 arg4 harg4 arg5 harg5 arg6 harg6 arg7 harg7 arg8 harg8 hc x0 x1 x2 x3 x4 x5 x6 (ix2 ⟨128 * g.val + l.val, by omega⟩ d)
      = (((∑ q : Fin 1024, x1 (ix2 ⟨128 * g.val + l.val, by omega⟩ q) * x3 (ix2 d q)) + x4 (ix2 0 d))
          + ∑ v : Fin 81, x5 (ix3 g v l) * x6 (ix2 v d))
        + ∑ v : Fin 1024, x0 (ix3 v g l) * x2 (ix2 v d) := by
  unfold outFirst
  refine (congrFun (View.read_writes_junk_eq_canon outView _) _).trans ?_
  unfold firstRun
  dsimp only
  refine (first_canonAll _).trans ?_
  show first_mainAt x0 x1 x2 x3 x4 x5 x6 ⟨128 * g.val + l.val, by have := g.isLt; have := l.isLt; omega⟩ d = _
  unfold first_mainAt first_tailAt first_posAt
  rw [first_grp_at (128 * g.val) g.val g.isLt rfl l _, first_lane_at (128 * g.val) g.val rfl l _]

end Cert.KernelIdeal.Acc

end
-- ==== Proof.KIBlocksA.lean ====
/-
  The two vocabulary-blocked inputs, block by block, as entries of the argument arrays.

  The activations reach the region as a [50257, 8, 128] array: the argument input_ids of shape [1, 1024, 50257] with its
  axes permuted to [50257, 1, 1024] and the 1024 positions of each vocabulary row regrouped as 8 groups of 128. So
  entry (p, g, l) of that array is input_ids[0, 128·g + l, p]: both sides sit at the same row-major position
  1024·p + 128·g + l of the permuted array. The weights reach the region as the transpose [50257, 768] of the
  argument of shape [768, 50257], so entry (p, d) is the argument's entry (d, p).

  At grid point t the activation window holds vocabulary rows 1024·t … 1024·t + 1023 (block index t on the first axis,
  0 on the others), and the weight window the same rows of the transposed weights. Since 49·1024 ≤ 50257 no block runs
  past the end of its array, so the whole staging buffer is the fetched block and the filler value is read nowhere.
  Hence the activation block at (v, g, l) is input_ids[0, 128·g + l, 1024·t + v] and the weight block at (v, d) is the
  weight argument at (d, 1024·t + v).
-/
import proofs.«134926_g86148454023849_cont_9to1_m_880_16_alg».proof.Proof.KICarried
import Idealize.ShloMosaic.Lib.ValueIdx
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-! ## A block that is not cut fills its whole buffer -/

/-- Where the block is cut on no axis, the buffer after a fetch holds at every index the fetched block's entry at the
    same coordinates, whatever it held before. -/
theorem fill_apply_of_clip_none {G : Pipeline.Grid} (w : Window sig G) (i : G.Coords) (h : ∀ a, w.clip i a = none) {α : Type}
    (d : w.block.Idx → α) (g : (w.xblock i).Idx → α) (j : w.block.Idx) :
    w.fill i d g j = g fun a => ⟨(j a).val, by
      show (j a).val < (w.clip i a).extent (w.size a)
      rw [h a]; exact (j a).isLt⟩ := by
  have hm : w.moved i j = true := (w.moved_iff _ j).mpr fun a => by
    show (j a).val < (w.clip i a).extent (w.size a)
    rw [h a]; exact (j a).isLt
  unfold Window.fill; rw [dif_pos hm]

/-! ## The block indices on the grid -/

/-- At point `t` the activation window is at block `t` along the vocabulary axis and at block 0 on the other two. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- The weight window likewise: block `t` along the vocabulary axis, block 0 along the feature axis. -/
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-! ## The two arrays as the region finds them -/

/-- The activation array on entry to the region: the argument with its axes permuted to [50257, 1, 1024], regrouped
    as [50257, 8, 128]. -/
theorem V_v1 (c : Dev nD) : (V m c main_v1 : S50257x8x128.Idx → EReal) =
    shapeCast S50257x8x128 (transpose S50257x1x1024 [2, 0, 1] (m ((c : Thread nD τ).loc main_arg0)) transposes_S1x1024x50257_S50257x1x1024_2_0_1) shapeCasts_S50257x1x1024_S50257x8x128 := by
  dsimp only [Gen.V, Gen.V0]
  simp only [Gen.hostOps0, List.flatten_cons, List.flatten_nil, List.append_nil, List.cons_append, List.nil_append]
  after_results
  rfl

/-- The weight array on entry to the region: the transpose of the argument. -/
theorem V_v2 (c : Dev nD) : (V m c main_v2 : S50257x768.Idx → EReal) =
    transpose S50257x768 [1, 0] (m ((c : Thread nD τ).loc main_arg2)) transposes_S768x50257_S50257x768_1_0 := by
  dsimp only [Gen.V, Gen.V0]
  simp only [Gen.hostOps0, List.flatten_cons, List.flatten_nil, List.append_nil, List.cons_append, List.nil_append]
  after_results

/-- Entry (p, g, l) of the regrouped, permuted array is the operand's entry (0, 128·g + l, p): the regrouping keeps
    the row-major position, (p·1 + 0)·1024 + (128·g + l) = (p·8 + g)·128 + l, and the permutation sends result axes
    (0, 1, 2) to operand axes (2, 0, 1). -/
theorem v1_apply (x : S1x1024x50257.Idx → EReal) (p : Fin 50257) (g : Fin 8) (l : Fin 128) :
    shapeCast S50257x8x128 (transpose S50257x1x1024 [2, 0, 1] x transposes_S1x1024x50257_S50257x1x1024_2_0_1) shapeCasts_S50257x1x1024_S50257x8x128 (ix3 p g l)
      = x (ix3 0 ⟨128 * g.val + l.val, by omega⟩ p) := by
  refine (shapeCast_apply _ _ (ix3 p g l) (ix3 p (0 : Fin 1) (⟨128 * g.val + l.val, by omega⟩ : Fin 1024))
    (by rw [Shape.rowMajor_val_three, Shape.rowMajor_val_three]
        show (p.val * 1 + 0) * 1024 + (128 * g.val + l.val) = (p.val * 8 + g.val) * 128 + l.val
        omega)).trans ?_
  exact transpose_apply _ _ _ _ _ (fun b => match b with | ⟨0, _⟩ => rfl | ⟨1, _⟩ => rfl | ⟨2, _⟩ => rfl)

/-- Entry (p, d) of the transposed array is the operand's entry (d, p). -/
theorem v2_apply (x : S768x50257.Idx → EReal) (p : Fin 50257) (d : Fin 768) :
    transpose S50257x768 [1, 0] x transposes_S768x50257_S50257x768_1_0 (ix2 p d) = x (ix2 d p) :=
  transpose_apply _ _ _ _ _ (fun b => match b with | ⟨0, _⟩ => rfl | ⟨1, _⟩ => rfl)

/-! ## The blocks read off the arrays -/

/-- The activation block at point `t` is rows 1024·t … 1024·t + 1023 of the array the region finds: on each axis an
    entry of the block sits at block index × block size + its own coordinate. -/
theorem blk0_read (c : Dev nD) (t : Fin cfg0.N) (v : Fin 1024) (g : Fin 8) (l : Fin 128) :
    blk0 (F := Ideal) m c t (ix3 v g l)
      = (V m c main_v1 : S50257x8x128.Idx → EReal) (ix3 ⟨1024 * t.val + v.val, by have := t.isLt; have : cfg0.N = 49 := N_0; omega⟩ g l) := by
  unfold blk0
  rw [fill_apply_of_clip_none win0_0 (grid0.coords t) (noClip0 t)]
  unfold iblk
  obtain ⟨e0, e1, e2⟩ := index0 t
  show (V m c main_v1 : S50257x8x128.Idx → EReal) (((cfg0.win 0).blk t).view.emb _) = _
  refine congrArg (V m c main_v1 : S50257x8x128.Idx → EReal) (funext fun a => Fin.ext ?_)
  match a with
  | ⟨0, _⟩ => show win0_0.index t (0 : Fin 3) * 1024 + 1 * v.val = 1024 * t.val + v.val; omega
  | ⟨1, _⟩ => show win0_0.index t (1 : Fin 3) * 8 + 1 * g.val = g.val; omega
  | ⟨2, _⟩ => show win0_0.index t (2 : Fin 3) * 128 + 1 * l.val = l.val; omega

/-- The weight block at point `t` is rows 1024·t … 1024·t + 1023 of the transposed weights. -/
theorem blk2_read (c : Dev nD) (t : Fin cfg0.N) (v : Fin 1024) (d : Fin 768) :
    blk2 (F := Ideal) m c t (ix2 v d)
      = (V m c main_v2 : S50257x768.Idx → EReal) (ix2 ⟨1024 * t.val + v.val, by have := t.isLt; have : cfg0.N = 49 := N_0; omega⟩ d) := by
  unfold blk2
  rw [fill_apply_of_clip_none win0_2 (grid0.coords t) (noClip2 t)]
  unfold iblk
  obtain ⟨e0, e1⟩ := index2 t
  show (V m c main_v2 : S50257x768.Idx → EReal) (((cfg0.win 2).blk t).view.emb _) = _
  refine congrArg (V m c main_v2 : S50257x768.Idx → EReal) (funext fun a => Fin.ext ?_)
  match a with
  | ⟨0, _⟩ => show win0_2.index t (0 : Fin 2) * 1024 + 1 * v.val = 1024 * t.val + v.val; omega
  | ⟨1, _⟩ => show win0_2.index t (1 : Fin 2) * 768 + 1 * d.val = d.val; omega

/-- The activation block at point `t`, at (v, g, l), is input_ids[0, 128·g + l, 1024·t + v]. -/
theorem blk0_apply (c : Dev nD) (t : Fin cfg0.N) (v : Fin 1024) (g : Fin 8) (l : Fin 128) :
    blk0 (F := Ideal) m c t (ix3 v g l)
      = m ((c : Thread nD τ).loc main_arg0) (ix3 0 ⟨128 * g.val + l.val, by omega⟩ ⟨1024 * t.val + v.val, by have := t.isLt; have : cfg0.N = 49 := N_0; omega⟩) := by
  rw [blk0_read, V_v1]
  exact v1_apply _ _ g l

/-- The weight block at point `t`, at (v, d), is the weight argument at (d, 1024·t + v). -/
theorem blk2_apply (c : Dev nD) (t : Fin cfg0.N) (v : Fin 1024) (d : Fin 768) :
    blk2 (F := Ideal) m c t (ix2 v d)
      = m ((c : Thread nD τ).loc main_arg2) (ix2 d ⟨1024 * t.val + v.val, by have := t.isLt; have : cfg0.N = 49 := N_0; omega⟩) := by
  rw [blk2_read, V_v2]
  exact v2_apply _ _ d

end Cert.KernelIdeal.Acc

end
-- ==== Proof.KIBlocksB.lean ====
/-
  The five windows fetched once, read at an index.

  Each of these windows has one block, the whole of its (small) array, at block index 0 on every axis at every one
  of the 49 points. An element of the block therefore sits in the array at its own coordinates (block index × block
  size + coordinate), and the block read at an index is the array read there. The arrays are what the lines before the
  region make of the launch memory, so each read unwinds through those lines, one index computation per line:

  * window 1: position_ids [1,1024,1024] with its unit axis dropped; entry (s, q) is position_ids[0, s, q] (the same
    row-major position (0·1024 + s)·1024 + q = s·1024 + q);
  * window 3: W_wpe [768,1024], which no line before the region writes;
  * window 4: the row [1,768] of b_wte + b_wpe; entry (0, d) is b_wte[d] + b_wpe[d] as extended reals;
  * window 5: the activations [1,1024,50257] with the vocabulary axis moved first, the sequence axis split as 8 × 128,
    the vocabulary cut to its last 81 entries 50176 … 50256, and the group axis then moved first; entry (g, v, l) is
    input_ids[0, 128·g + l, 50176 + v] (row-major: ((50176+v)·1 + 0)·1024 + (128·g + l) = ((50176+v)·8 + g)·128 + l);
  * window 6: W_wte [768,50257] transposed and cut to its last 81 rows; entry (v, d) is W_wte[d, 50176 + v].
-/
import proofs.«134926_g86148454023849_cont_9to1_m_880_16_alg».proof.Proof.KICarried
import Idealize.ShloMosaic.Lib.ValueIdx
import Idealize.ShloMosaic.Lib.Pipeline.Value
import Idealize.ShloMosaic.Lib.StableHlo.Run

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-! ## The block index of a window fetched once is zero on every axis -/

/-- The position window's block index is 0 on both axes at every point. -/
theorem idx1 : ∀ t : Fin cfg0.N, win0_1.index t (0 : Fin 2) = 0 ∧ win0_1.index t (1 : Fin 2) = 0 :=
  (by decide +kernel : ∀ t : Fin grid0.N, _)
/-- So is the position-embedding window's. -/
theorem idx3 : ∀ t : Fin cfg0.N, win0_3.index t (0 : Fin 2) = 0 ∧ win0_3.index t (1 : Fin 2) = 0 :=
  (by decide +kernel : ∀ t : Fin grid0.N, _)
/-- So is the bias row's. -/
theorem idx4 : ∀ t : Fin cfg0.N, win0_4.index t (0 : Fin 2) = 0 ∧ win0_4.index t (1 : Fin 2) = 0 :=
  (by decide +kernel : ∀ t : Fin grid0.N, _)
/-- So is the activation tail's, on its three axes. -/
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
/-- So is the weight tail's. -/
theorem idx6 : ∀ t : Fin cfg0.N, win0_6.index t (0 : Fin 2) = 0 ∧ win0_6.index t (1 : Fin 2) = 0 :=
  (by decide +kernel : ∀ t : Fin grid0.N, _)

/-! ## An element of such a block sits in the array at its own coordinates

On each axis the array coordinate is block index × block size + 1 × the coordinate inside the block, and the block
index is 0. -/

theorem emb1 (t : Fin cfg0.N) (s : Fin 1024) (q : Fin 1024) :
    ((cfg0.win 1).blk t).view.emb (ix2 s q) = ix2 s q := by
  obtain ⟨e0, e1⟩ := idx1 t
  funext a; apply Fin.ext
  match a with
  | ⟨0, _⟩ => show win0_1.index t (0 : Fin 2) * 1024 + 1 * s.val = s.val; omega
  | ⟨1, _⟩ => show win0_1.index t (1 : Fin 2) * 1024 + 1 * q.val = q.val; omega

theorem emb3 (t : Fin cfg0.N) (d : Fin 768) (q : Fin 1024) :
    ((cfg0.win 3).blk t).view.emb (ix2 d q) = ix2 d q := by
  obtain ⟨e0, e1⟩ := idx3 t
  funext a; apply Fin.ext
  match a with
  | ⟨0, _⟩ => show win0_3.index t (0 : Fin 2) * 768 + 1 * d.val = d.val; omega
  | ⟨1, _⟩ => show win0_3.index t (1 : Fin 2) * 1024 + 1 * q.val = q.val; omega

theorem emb4 (t : Fin cfg0.N) (z : Fin 1) (d : Fin 768) :
    ((cfg0.win 4).blk t).view.emb (ix2 z d) = ix2 z d := by
  obtain ⟨e0, e1⟩ := idx4 t
  funext a; apply Fin.ext
  match a with
  | ⟨0, _⟩ => show win0_4.index t (0 : Fin 2) * 1 + 1 * z.val = z.val; omega
  | ⟨1, _⟩ => show win0_4.index t (1 : Fin 2) * 768 + 1 * d.val = d.val; omega

theorem emb5 (t : Fin cfg0.N) (g : Fin 8) (v : Fin 81) (l : Fin 128) :
    ((cfg0.win 5).blk t).view.emb (ix3 g v l) = ix3 g v l := by
  obtain ⟨e0, e1, e2⟩ := idx5 t
  funext a; apply Fin.ext
  match a with
  | ⟨0, _⟩ => show win0_5.index t (0 : Fin 3) * 8 + 1 * g.val = g.val; omega
  | ⟨1, _⟩ => show win0_5.index t (1 : Fin 3) * 81 + 1 * v.val = v.val; omega
  | ⟨2, _⟩ => show win0_5.index t (2 : Fin 3) * 128 + 1 * l.val = l.val; omega

theorem emb6 (t : Fin cfg0.N) (v : Fin 81) (d : Fin 768) :
    ((cfg0.win 6).blk t).view.emb (ix2 v d) = ix2 v d := by
  obtain ⟨e0, e1⟩ := idx6 t
  funext a; apply Fin.ext
  match a with
  | ⟨0, _⟩ => show win0_6.index t (0 : Fin 2) * 81 + 1 * v.val = v.val; omega
  | ⟨1, _⟩ => show win0_6.index t (1 : Fin 2) * 768 + 1 * d.val = d.val; omega

/-! ## The arrays the windows read, as the region finds them

Each is what the host lines before the region make of the launch memory. -/

/-- position_ids with its unit axis dropped. -/
theorem V_v3 (c : Dev nD) : (V m c main_v3 : S1024x1024.Idx → EReal)
    = shapeCast S1024x1024 (m ((c : Thread nD τ).loc main_arg1) : S1x1024x1024.Idx → EReal) shapeCasts_S1x1024x1024_S1024x1024 := by
  dsimp only [Gen.V, Gen.V0]
  simp only [Gen.hostOps0, List.flatten_cons, List.flatten_nil, List.append_nil, List.cons_append, List.nil_append]
  after_results
  rfl

/-- The two bias vectors added, as a row. -/
theorem V_v5 (c : Dev nD) : (V m c main_v5 : S1x768.Idx → EReal)
    = (shapeCast S1x768 (addf (F := Ideal) (s := S768) (φ := .f32) (m ((c : Thread nD τ).loc main_arg3)) (m ((c : Thread nD τ).loc main_arg5)))
        shapeCasts_S768_S1x768 : S1x768.Idx → EReal) := by
  dsimp only [Gen.V, Gen.V0]
  simp only [Gen.hostOps0, List.flatten_cons, List.flatten_nil, List.append_nil, List.cons_append, List.nil_append]
  after_results
  rfl

/-- The activations with the vocabulary axis first, the sequence axis split 8 × 128, cut to the last 81 vocabulary
    entries, the group axis then moved first. -/
theorem V_v7 (c : Dev nD) : (V m c main_v7 : S8x81x128.Idx → EReal)
    = transpose S8x81x128 [1, 0, 2]
        (extractStridedSlice S81x8x128 ![50176, 0, 0]
          (shapeCast S50257x8x128
            (transpose S50257x1x1024 [2, 0, 1] (m ((c : Thread nD τ).loc main_arg0) : S1x1024x50257.Idx → EReal)
              transposes_S1x1024x50257_S50257x1x1024_2_0_1)
            shapeCasts_S50257x1x1024_S50257x8x128)
          slices_S50257x8x128_S81x8x128_50176_0_0)
        transposes_S81x8x128_S8x81x128_1_0_2 := by
  dsimp only [Gen.V, Gen.V0]
  simp only [Gen.hostOps0, List.flatten_cons, List.flatten_nil, List.append_nil, List.cons_append, List.nil_append]
  after_results
  rfl

/-- The weights transposed, cut to the last 81 vocabulary rows. -/
theorem V_v8 (c : Dev nD) : (V m c main_v8 : S81x768.Idx → EReal)
    = extractStridedSlice S81x768 ![50176, 0]
        (transpose S50257x768 [1, 0] (m ((c : Thread nD τ).loc main_arg2) : S768x50257.Idx → EReal) transposes_S768x50257_S50257x768_1_0)
        slices_S50257x768_S81x768_50176_0 := by
  dsimp only [Gen.V, Gen.V0]
  simp only [Gen.hostOps0, List.flatten_cons, List.flatten_nil, List.append_nil, List.cons_append, List.nil_append]
  after_results

/-! ## The five blocks at an index -/

theorem iblk1_apply (c : Dev nD) (t : Fin cfg0.N) (s : Fin 1024) (q : Fin 1024) :
    iblk (F := Ideal) m c 1 t (ix2 s q) = m ((c : Thread nD τ).loc main_arg1) (ix3 0 s q) := by
  show V m c main_v3 (((cfg0.win 1).blk t).view.emb (ix2 s q)) = _
  refine (congrArg (V m c main_v3) (emb1 t s q)).trans ?_
  refine (congrFun (V_v3 m c) _).trans ?_
  refine shapeCast_apply _ _ (ix2 s q) (ix3 0 s q) ?_
  rw [Shape.rowMajor_val_three, Shape.rowMajor_val_two]
  show (0 * 1024 + s.val) * 1024 + q.val = s.val * 1024 + q.val
  omega

theorem iblk3_apply (c : Dev nD) (t : Fin cfg0.N) (d : Fin 768) (q : Fin 1024) :
    iblk (F := Ideal) m c 3 t (ix2 d q) = m ((c : Thread nD τ).loc main_arg4) (ix2 d q) := by
  show V m c main_arg4 (((cfg0.win 3).blk t).view.emb (ix2 d q)) = _
  refine (congrArg (V m c main_arg4) (emb3 t d q)).trans ?_
  exact congrFun (V_main_arg4 m c) _

theorem iblk4_apply (c : Dev nD) (t : Fin cfg0.N) (d : Fin 768) :
    iblk (F := Ideal) m c 4 t (ix2 0 d) = @HAdd.hAdd EReal EReal EReal instHAdd (m ((c : Thread nD τ).loc main_arg3) (ix1 d)) (m ((c : Thread nD τ).loc main_arg5) (ix1 d)) := by
  show V m c main_v5 (((cfg0.win 4).blk t).view.emb (ix2 0 d)) = _
  refine (congrArg (V m c main_v5) (emb4 t 0 d)).trans ?_
  refine (congrFun (V_v5 m c) _).trans ?_
  refine (shapeCast_apply _ _ (ix2 0 d) (ix1 d) ?_).trans rfl
  rw [Shape.rowMajor_val_one, Shape.rowMajor_val_two]
  show d.val = 0 * 768 + d.val
  omega

theorem iblk5_apply (c : Dev nD) (t : Fin cfg0.N) (g : Fin 8) (v : Fin 81) (l : Fin 128) :
    iblk (F := Ideal) m c 5 t (ix3 g v l)
      = m ((c : Thread nD τ).loc main_arg0) (ix3 0 ⟨128 * g.val + l.val, by omega⟩ ⟨50176 + v.val, by omega⟩) := by
  show V m c main_v7 (((cfg0.win 5).blk t).view.emb (ix3 g v l)) = _
  refine (congrArg (V m c main_v7) (emb5 t g v l)).trans ?_
  refine (congrFun (V_v7 m c) _).trans ?_
  refine (transpose_apply _ _ _ (ix3 g v l) (ix3 v g l) fun b => ?_).trans ?_
  · match b with
    | ⟨0, _⟩ => rfl
    | ⟨1, _⟩ => rfl
    | ⟨2, _⟩ => rfl
  refine (extractStridedSlice_apply _ _ _ (ix3 v g l) (ix3 ⟨50176 + v.val, by omega⟩ g l) fun a => ?_).trans ?_
  · match a with
    | ⟨0, _⟩ => rfl
    | ⟨1, _⟩ => exact (Nat.zero_add _).symm
    | ⟨2, _⟩ => exact (Nat.zero_add _).symm
  refine (shapeCast_apply _ _ (ix3 ⟨50176 + v.val, by omega⟩ g l) (ix3 ⟨50176 + v.val, by omega⟩ 0 ⟨128 * g.val + l.val, by omega⟩) ?_).trans ?_
  · rw [Shape.rowMajor_val_three, Shape.rowMajor_val_three]
    show ((50176 + v.val) * 1 + 0) * 1024 + (128 * g.val + l.val) = ((50176 + v.val) * 8 + g.val) * 128 + l.val
    omega
  refine transpose_apply _ _ _ (ix3 ⟨50176 + v.val, by omega⟩ 0 ⟨128 * g.val + l.val, by omega⟩) (ix3 0 ⟨128 * g.val + l.val, by omega⟩ ⟨50176 + v.val, by omega⟩) fun b => ?_
  match b with
  | ⟨0, _⟩ => rfl
  | ⟨1, _⟩ => rfl
  | ⟨2, _⟩ => rfl

theorem iblk6_apply (c : Dev nD) (t : Fin cfg0.N) (v : Fin 81) (d : Fin 768) :
    iblk (F := Ideal) m c 6 t (ix2 v d) = m ((c : Thread nD τ).loc main_arg2) (ix2 d ⟨50176 + v.val, by omega⟩) := by
  show V m c main_v8 (((cfg0.win 6).blk t).view.emb (ix2 v d)) = _
  refine (congrArg (V m c main_v8) (emb6 t v d)).trans ?_
  refine (congrFun (V_v8 m c) _).trans ?_
  refine (extractStridedSlice_apply _ _ _ (ix2 v d) (ix2 ⟨50176 + v.val, by omega⟩ d) fun a => ?_).trans ?_
  · match a with
    | ⟨0, _⟩ => rfl
    | ⟨1, _⟩ => exact (Nat.zero_add _).symm
  refine transpose_apply _ _ _ (ix2 ⟨50176 + v.val, by omega⟩ d) (ix2 d ⟨50176 + v.val, by omega⟩) fun b => ?_
  match b with
  | ⟨0, _⟩ => rfl
  | ⟨1, _⟩ => rfl

end Cert.KernelIdeal.Acc

end
-- ==== Proof.Spec.lean ====
/-
  The mathematics of the embedding layer, over the extended reals, with no program in sight.

  The result at token position `s` and feature `d` is
      (∑ᵥ x[s,v]·W[d,v] + b₁[d]) + (∑_q p[s,q]·Wp[d,q] + b₂[d]),
  the token product over the whole vocabulary (50257 = 49·1024 + 81 entries) and the positional product, each with its
  bias. The same number can be built up in another order: start from the positional product plus the summed bias
  b₁[d] + b₂[d], add the product over the last 81 vocabulary entries, and then add, one after the other, the products
  over the 49 vocabulary blocks of 1024 entries. `carried` is that second arrangement after the block of each step.
-/
import Idealize.ShloMosaic.PureOps.Ideal
import Idealize.ShloMosaic.Lib.ValueIdx

noncomputable section

namespace Cert.Embed

open Idealize.ShloMosaic Idealize.ShloMosaic.ValueIdx

/-- The shapes of the six arguments and of the result. -/
abbrev Sx : Shape := ⟨3, ![1, 1024, 50257]⟩
abbrev Sp : Shape := ⟨3, ![1, 1024, 1024]⟩
abbrev Sw : Shape := ⟨2, ![768, 50257]⟩
abbrev Sb : Shape := ⟨1, ![768]⟩
abbrev Swp : Shape := ⟨2, ![768, 1024]⟩
abbrev So : Shape := ⟨3, ![1, 1024, 768]⟩

variable (x : Sx.Idx → EReal) (p : Sp.Idx → EReal) (W : Sw.Idx → EReal) (b1 : Sb.Idx → EReal)
  (Wp : Swp.Idx → EReal) (b2 : Sb.Idx → EReal)

/-- The token product's entry: x[s,·] against W[d,·] over the whole vocabulary. -/
def tokenDot (s : Fin 1024) (d : Fin 768) : EReal := ∑ v : Fin 50257, x (ix3 0 s v) * W (ix2 d v)

/-- The positional product's entry: p[s,·] against Wp[d,·]. -/
def positionDot (s : Fin 1024) (d : Fin 768) : EReal := ∑ q : Fin 1024, p (ix3 0 s q) * Wp (ix2 d q)

/-- The layer's value at (s, d): each product with its own bias, then the two added. -/
def embedAt (s : Fin 1024) (d : Fin 768) : EReal :=
  (tokenDot x W s d + b1 (ix1 d)) + (positionDot p Wp s d + b2 (ix1 d))

/-- The same as an array of the result's shape. -/
def embedOut : So.Idx → EReal := fun i => embedAt x p W b1 Wp b2 (i 1) (i 2)

/-- The token product over vocabulary block `k` alone (entries 1024·k … 1024·k + 1023). -/
def blockDot (k : Fin 49) (s : Fin 1024) (d : Fin 768) : EReal :=
  ∑ v : Fin 1024, x (ix3 0 s ⟨1024 * k.val + v.val, by omega⟩) * W (ix2 d ⟨1024 * k.val + v.val, by omega⟩)

/-- The token product over the last 81 vocabulary entries (50176 … 50256). -/
def tailDot (s : Fin 1024) (d : Fin 768) : EReal :=
  ∑ v : Fin 81, x (ix3 0 s ⟨50176 + v.val, by omega⟩) * W (ix2 d ⟨50176 + v.val, by omega⟩)

/-- What the first step builds: the positional product plus the summed bias, plus the tail product, plus block 0. -/
def firstStep (s : Fin 1024) (d : Fin 768) : EReal :=
  ((positionDot p Wp s d + (b1 (ix1 d) + b2 (ix1 d))) + tailDot x W s d) + blockDot x W 0 s d

/-- The running value after step `n`: the first step's, then one more vocabulary block added per step. -/
def carried : (n : ℕ) → n < 49 → Fin 1024 → Fin 768 → EReal
  | 0, _ => firstStep x p W b1 Wp b2
  | n + 1, h => fun s d => carried n (Nat.lt_of_succ_lt h) s d + blockDot x W ⟨n + 1, h⟩ s d

theorem carried_zero (h : 0 < 49) : carried x p W b1 Wp b2 0 h = firstStep x p W b1 Wp b2 := rfl

theorem carried_succ (n : ℕ) (h : n + 1 < 49) (s : Fin 1024) (d : Fin 768) :
    carried x p W b1 Wp b2 (n + 1) h s d = carried x p W b1 Wp b2 n (Nat.lt_of_succ_lt h) s d + blockDot x W ⟨n + 1, h⟩ s d := rfl

end Cert.Embed

end
-- ==== Proof.Regroup.lean ====
/-
  The two arrangements of the embedding layer's value agree.

  Over the extended reals addition is commutative and associative and has a zero, and nothing more is used here.
  The token product's summand is continued by zero past the end of the vocabulary, so that every sum in sight becomes a
  sum over an initial segment of the natural numbers. A sum over the first a + b numbers is the sum over the first a plus
  the sum over the next b; with a = 1024·n, b = 1024 this adds one vocabulary block per step, and with a = 50176 = 49·1024,
  b = 81 it cuts the whole vocabulary (50257 entries) into the 49 blocks and the tail of 81. What is left is a
  rearrangement of a sum of five terms.
-/
import proofs.«134926_g86148454023849_cont_9to1_m_880_16_alg».proof.Proof.Spec
import Mathlib.Algebra.BigOperators.Group.Finset.Basic
import Mathlib.Data.Fintype.BigOperators
import Mathlib.Tactic.Abel
import Mathlib.Tactic.NormNum

noncomputable section

namespace Cert.Embed

open Idealize.ShloMosaic Idealize.ShloMosaic.ValueIdx

variable (x : Sx.Idx → EReal) (p : Sp.Idx → EReal) (W : Sw.Idx → EReal) (b1 : Sb.Idx → EReal)
  (Wp : Swp.Idx → EReal) (b2 : Sb.Idx → EReal)

/-- The token product's summand at vocabulary entry `n`, continued by zero past the vocabulary's end. -/
def term (s : Fin 1024) (d : Fin 768) (n : ℕ) : EReal :=
  if h : n < 50257 then x (ix3 0 s ⟨n, h⟩) * W (ix2 d ⟨n, h⟩) else 0

/-- Inside the vocabulary the continued summand is the summand. -/
theorem term_of_lt (s : Fin 1024) (d : Fin 768) (n : ℕ) (h : n < 50257) :
    term x W s d n = x (ix3 0 s ⟨n, h⟩) * W (ix2 d ⟨n, h⟩) := dif_pos h

/-- The token product as a sum over the first 50257 natural numbers. -/
theorem tokenDot_eq_range (s : Fin 1024) (d : Fin 768) :
    tokenDot x W s d = ∑ n ∈ Finset.range 50257, term x W s d n := by
  rw [← Fin.sum_univ_eq_sum_range (term x W s d) 50257]
  unfold tokenDot
  refine Finset.sum_congr rfl fun v _ => ?_
  rw [term_of_lt x W s d v.val v.isLt]

/-- Block `k` of the token product: the 1024 numbers from 1024·k on. -/
theorem blockDot_eq_range (k : Fin 49) (s : Fin 1024) (d : Fin 768) :
    blockDot x W k s d = ∑ v ∈ Finset.range 1024, term x W s d (1024 * k.val + v) := by
  rw [← Fin.sum_univ_eq_sum_range (fun v => term x W s d (1024 * k.val + v)) 1024]
  unfold blockDot
  refine Finset.sum_congr rfl fun v _ => ?_
  exact (term_of_lt x W s d (1024 * k.val + v.val) (by omega)).symm

/-- The tail of the token product: the 81 numbers from 50176 on. -/
theorem tailDot_eq_range (s : Fin 1024) (d : Fin 768) :
    tailDot x W s d = ∑ v ∈ Finset.range 81, term x W s d (50176 + v) := by
  rw [← Fin.sum_univ_eq_sum_range (fun v => term x W s d (50176 + v)) 81]
  unfold tailDot
  refine Finset.sum_congr rfl fun v _ => ?_
  exact (term_of_lt x W s d (50176 + v.val) (by omega)).symm

/-- The first 1024·(n+1) numbers are the first 1024·n and then one more block of 1024. -/
theorem sum_range_block (g : ℕ → EReal) (n : ℕ) :
    ∑ i ∈ Finset.range (1024 * (n + 1)), g i
      = ∑ i ∈ Finset.range (1024 * n), g i + ∑ v ∈ Finset.range 1024, g (1024 * n + v) := by
  rw [Nat.mul_succ, Finset.sum_range_add]

/-- The whole vocabulary is the first 49 blocks and then the tail. -/
theorem tokenDot_split (s : Fin 1024) (d : Fin 768) :
    tokenDot x W s d = ∑ i ∈ Finset.range 50176, term x W s d i + tailDot x W s d := by
  rw [tokenDot_eq_range, tailDot_eq_range, ← Finset.sum_range_add]

/-- After step `n` the running value is the positional product, the summed bias, the tail product, and the token
    product over the first n + 1 blocks. -/
theorem carried_eq_range (n : ℕ) (h : n < 49) (s : Fin 1024) (d : Fin 768) :
    carried x p W b1 Wp b2 n h s d
      = ((positionDot p Wp s d + (b1 (ix1 d) + b2 (ix1 d))) + tailDot x W s d)
          + ∑ i ∈ Finset.range (1024 * (n + 1)), term x W s d i := by
  induction n with
  | zero =>
    rw [carried_zero]
    unfold firstStep
    rw [blockDot_eq_range, sum_range_block, Nat.mul_zero, Finset.range_zero, Finset.sum_empty, zero_add]
    rfl
  | succ n ih =>
    rw [carried_succ, ih (Nat.lt_of_succ_lt h), blockDot_eq_range, sum_range_block _ (n + 1), add_assoc]

/-- After the last step the running value is the layer's value. -/
theorem carried_last (s : Fin 1024) (d : Fin 768) :
    carried x p W b1 Wp b2 48 (by decide) s d = embedAt x p W b1 Wp b2 s d := by
  rw [carried_eq_range]
  unfold embedAt
  rw [tokenDot_split, show (1024 * (48 + 1) : ℕ) = 50176 by norm_num]
  abel

end Cert.Embed

end
-- ==== Proof.KIValue.lean ====
/-
  The kernel's result, read: after the run the layer's output buffer holds the specification's array.

  After each of the 49 points the output block holds, entry by entry, the specification's running value
  (`Cert.Embed.carried`): at the first point the positional product plus the summed bias, plus the product over the
  ragged vocabulary tail, plus the product over vocabulary block 0; at every later point one more vocabulary block's
  product is added. The block is written back once, after the last point, where the running value is the layer's value
  (the regrouping of the sums is `Cert.Embed.carried_last`); the host line after the region only reshapes the array.
-/
import proofs.«134926_g86148454023849_cont_9to1_m_880_16_alg».proof.Proof.KIValLater
import proofs.«134926_g86148454023849_cont_9to1_m_880_16_alg».proof.Proof.KIValFirst
import proofs.«134926_g86148454023849_cont_9to1_m_880_16_alg».proof.Proof.KIBlocksA
import proofs.«134926_g86148454023849_cont_9to1_m_880_16_alg».proof.Proof.KIBlocksB
import proofs.«134926_g86148454023849_cont_9to1_m_880_16_alg».proof.Proof.Regroup
import Idealize.ShloMosaic.Lib.ValueIdx
import Idealize.ShloMosaic.Lib.Pipeline.Value
import Idealize.ShloMosaic.Lib.StableHlo.Run

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-! ## The running value at an index -/

/-- The running value of the specification after step `n`, of the six argument arrays as launched. -/
abbrev carriedOf (c : Dev nD) (n : ℕ) (hn : n < 49) (s : Fin 1024) (d : Fin 768) : EReal :=
  Cert.Embed.carried (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n hn s d

/-- After every point the output block holds, at row 128·g + l and column d, the specification's running value:
    by induction on the point, the first step's and the later step's values read at an index. -/
theorem outsAt_apply (c : Dev nD) : ∀ (n : ℕ) (hn : n < cfg0.N) (hn' : n < 49) (g : Fin 8) (l : Fin 128) (d : Fin 768),
    outsAt (F := Ideal) m c n hn (ix2 ⟨128 * g.val + l.val, by omega⟩ d) = carriedOf m c n hn' ⟨128 * g.val + l.val, by omega⟩ d
  | 0, hn, hn', g, l, d => by
    rw [show outsAt (F := Ideal) m c 0 hn = outFirst c (grid0.coords ⟨0, hn⟩) (mr0 ⟨0, hn⟩) (hr0 ⟨0, hn⟩) (mr1 ⟨0, hn⟩) (hr1 ⟨0, hn⟩) (mr2 ⟨0, hn⟩) (hr2 ⟨0, hn⟩) (mr3 ⟨0, hn⟩) (hr3 ⟨0, hn⟩) (mr4 ⟨0, hn⟩) (hr4 ⟨0, hn⟩) (mr5 ⟨0, hn⟩) (hr5 ⟨0, hn⟩) (mr6 ⟨0, hn⟩) (hr6 ⟨0, hn⟩) (mr7 ⟨0, hn⟩) (hr7 ⟨0, hn⟩) ((isFirst_iff ⟨0, hn⟩).mpr rfl) (blk0 m c ⟨0, hn⟩) (iblk m c 1 ⟨0, hn⟩) (blk2 m c ⟨0, hn⟩) (iblk m c 3 ⟨0, hn⟩) (iblk m c 4 ⟨0, hn⟩) (iblk m c 5 ⟨0, hn⟩) (iblk m c 6 ⟨0, hn⟩) from rfl]
    rw [outFirst_apply]
    simp only [blk0_apply, blk2_apply, iblk1_apply, iblk3_apply, iblk4_apply, iblk5_apply, iblk6_apply]
    rfl
  | n + 1, hn, hn', g, l, d => by
    rw [show outsAt (F := Ideal) m c (n + 1) hn = outLater c (grid0.coords ⟨n + 1, hn⟩) (mr0 ⟨n + 1, hn⟩) (hr0 ⟨n + 1, hn⟩) (mr1 ⟨n + 1, hn⟩) (hr1 ⟨n + 1, hn⟩) (mr2 ⟨n + 1, hn⟩) (hr2 ⟨n + 1, hn⟩) (mr3 ⟨n + 1, hn⟩) (hr3 ⟨n + 1, hn⟩) (mr4 ⟨n + 1, hn⟩) (hr4 ⟨n + 1, hn⟩) (mr5 ⟨n + 1, hn⟩) (hr5 ⟨n + 1, hn⟩) (mr6 ⟨n + 1, hn⟩) (hr6 ⟨n + 1, hn⟩) (mr7 ⟨n + 1, hn⟩) (hr7 ⟨n + 1, hn⟩) (fun h => Nat.succ_ne_zero n ((isFirst_iff ⟨n + 1, hn⟩).mp h))
      (blk0 m c ⟨n + 1, hn⟩) (blk2 m c ⟨n + 1, hn⟩) (outsAt m c n (Nat.lt_of_succ_lt hn)) from rfl]
    rw [outLater_apply, outsAt_apply c n (Nat.lt_of_succ_lt hn) (Nat.lt_of_succ_lt hn') g l d]
    simp only [blk0_apply, blk2_apply]
    rfl

/-- The same at any row: every row is 128·(s / 128) + s % 128. -/
theorem outsAt_apply' (c : Dev nD) (n : ℕ) (hn : n < cfg0.N) (hn' : n < 49) (s : Fin 1024) (d : Fin 768) :
    outsAt (F := Ideal) m c n hn (ix2 s d) = carriedOf m c n hn' s d := by
  have hs : s = ⟨128 * (⟨s.val / 128, by omega⟩ : Fin 8).val + (⟨s.val % 128, Nat.mod_lt _ (by omega)⟩ : Fin 128).val, by dsimp only; omega⟩ :=
    Fin.ext (by dsimp only; omega)
  rw [hs]
  exact outsAt_apply m c n hn hn' _ _ d

/-! ## The result array after the run -/

/-- What the kernel's result array ends holding: the running value after the last point. -/
def outArr (c : Dev nD) : S1024x768.Idx → EReal := fun j => carriedOf m c 48 (by omega) (j 0) (j 1)

/-- The output window's block index is (0, 0) at every point: the block is the whole array. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- The one write-back, after the last point, writes the running value of the last point. -/
theorem flushed7_eq (c : Dev nD) (t : Fin cfg0.N) (hf : (cfg0.win 7).flush t = true) :
    (dats (F := Ideal) m 0 c).flushed 7 t = ((cfg0.win 7).blk t).view.read (Elt Ideal) (outArr m c) := by
  have h48 : t.val = 48 := by
    have h1 := (flush0_7 t).mp hf
    have h2 : t.val < 49 := lt_of_lt_of_eq t.isLt (show cfg0.N = 49 from N_0)
    omega
  show (cfg0.win 7).cut (grid0.coords t) ((dats m 0 c).after 7 t) = _
  rw [after_7]
  obtain ⟨e0, e1⟩ := idx7 t
  funext j
  show outsAt m c t.val t.isLt j = outArr m c (((cfg0.win 7).blk t).view.emb j)
  have hj : ((cfg0.win 7).blk t).view.emb j = j := by
    funext a; apply Fin.ext
    match a with
    | ⟨0, _⟩ => show win0_7.index t (0 : Fin 2) * 1024 + 1 * (j 0).val = (j 0).val; omega
    | ⟨1, _⟩ => show win0_7.index t (1 : Fin 2) * 768 + 1 * (j 1).val = (j 1).val; omega
  rw [hj]
  obtain ⟨s, d, rfl⟩ : ∃ (s : Fin 1024) (d : Fin 768), j = ix2 s d := ⟨j 0, j 1, eq_ix2 j⟩
  obtain ⟨n, hn⟩ := t
  obtain rfl : n = 48 := h48
  exact outsAt_apply' m c 48 hn (by omega) s d

/-- That block is the whole array. -/
theorem cover7 (i : S1024x768.Idx) : ∃ t : Fin cfg0.N, (cfg0.win 7).flush t = true ∧ i ∈ ((cfg0.win 7).blk t).view.set := by
  have h48 : 48 < cfg0.N := lt_of_lt_of_eq (by omega : 48 < 49) (show cfg0.N = 49 from N_0).symm
  refine ⟨⟨48, h48⟩, (flush0_7 _).mpr rfl, ?_⟩
  obtain ⟨e0, e1⟩ := idx7 ⟨48, h48⟩
  show i ∈ ((View.whole main_v9).slice (win0_7.rect ⟨48, h48⟩)).set
  rw [View.set_slice_whole, Rect.mem_set_unit]
  intro a
  match a with
  | ⟨0, _⟩ =>
    show win0_7.index ⟨48, h48⟩ (0 : Fin 2) * 1024 ≤ (i 0).val ∧ (i 0).val < win0_7.index ⟨48, h48⟩ (0 : Fin 2) * 1024 + 1024
    have h0 : (i 0).val < 1024 := (i 0).isLt; omega
  | ⟨1, _⟩ =>
    show win0_7.index ⟨48, h48⟩ (1 : Fin 2) * 768 ≤ (i 1).val ∧ (i 1).val < win0_7.index ⟨48, h48⟩ (1 : Fin 2) * 768 + 768
    have h1 : (i 1).val < 768 := (i 1).isLt; omega

/-- The result array after the run. -/
theorem final_out (c : Dev nD) : (dats (F := Ideal) m 0 c).arrAt 7 cfg0.N = outArr m c :=
  (dats (F := Ideal) m 0 c).arrAt_eq_of_cover 7 (outArr m c) (fun t hf => flushed7_eq m c t hf) cover7

/-- The host line after the region reshapes the result array to the layer's output shape. -/
theorem tail_eq (c : Dev nD) :
    Pipeline.afterTail₀ cfgs (dats (F := Ideal) m) 0 (V0 m) [hostOps1] c main_v10
      = Cert.Embed.embedOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 _ (Proc.devRef .tc main_v10) = _
  after_results
  have hw : Pipeline.withArrays (cfgs 0).spec c (V0 m c) (fun w => (dats (F := Ideal) m 0 c).arrAt w (cfgs 0).N) (Proc.tc.devRef main_v9) = outArr m c :=
    (Pipeline.withArrays_arr spec0 launch0.win.arr_inj c _ _ 7).trans (final_out m c)
  funext i
  show shapeCast S1x1024x768 (Pipeline.withArrays (cfgs 0).spec c (V0 m c) (fun w => (dats (F := Ideal) m 0 c).arrAt w (cfgs 0).N) (Proc.tc.devRef main_v9)) shapeCasts_S1024x768_S1x1024x768 i = _
  rw [hw]
  obtain ⟨a, s, d, rfl⟩ : ∃ (a : Fin 1) (s : Fin 1024) (d : Fin 768), i = ix3 a s d := ⟨i 0, i 1, i 2, eq_ix3 i⟩
  rw [shapeCast_apply (outArr m c) shapeCasts_S1024x768_S1x1024x768 (ix3 a s d) (ix2 s d)
    (by rw [Shape.rowMajor_val_two, Shape.rowMajor_val_three]; have := a.isLt; show s.val * 768 + d.val = (a.val * 1024 + s.val) * 768 + d.val; omega)]
  exact Cert.Embed.carried_last _ _ _ _ _ _ s d

/-! ## The run, read -/

variable (ρ : Dev nD → PrngReg)

/-- From any memory with zero counters the program runs to the end, the layer's output buffer at the
    specification's array of the six arguments and the arguments as they were. -/
theorem run_value : θ_run defs (onTc (τ := τ) (main (F := Ideal))) ⟨m, fun _ => 0, ρ⟩ (fun r => ∀ c : Dev nD,
      r.2.mem ((c.tc : Thread nD τ).loc main_v10) = Cert.Embed.embedOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.Acc
end
-- ==== Proof.RefSide.lean ====
/-
  The reference program computes the embedding layer's specification.

  The reference adds two terms, each a contraction plus a broadcast bias: the token product of x against W over the
  vocabulary axis plus b₁ spread over the positions, and the positional product of p against Wp plus b₂ spread the
  same way. Read at the index (0, s, d) the contraction over the last axis of x and the last axis of W is
  ∑ᵥ x[0,s,v]·W[d,v]; the two broadcasts in a row carry b[d] to every (0, s, d); and the sums of arrays are sums of
  elements. That is, entry by entry, the specification's value at (s, d).
-/
import proofs.«134926_g86148454023849_cont_9to1_m_880_16_alg».proof.Proof.Gen.ReferenceIdeal.Run
import proofs.«134926_g86148454023849_cont_9to1_m_880_16_alg».proof.Proof.Gen.ReferenceIdeal.Read
import proofs.«134926_g86148454023849_cont_9to1_m_880_16_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Where each operand is read, in coordinates

  At the result index (0, s, d) and the contracted position k, the token product reads x at (0, s, k) and W at (d, k);
  the positional product reads p at (0, s, k) and Wp at (d, k); the two broadcasts together read the bias at d. -/

/-- The token product's left operand is read at (0, s, k). -/
theorem lidx_token (s : Fin 1024) (d : Fin 768) (k : Fin 50257) :
    Read.lidx_main_v0 (ix3 (0 : Fin 1) s d) k = ix3 (0 : Fin 1) s k :=
  funext fun a => Fin.ext (by match a with | ⟨0, _⟩ => rfl | ⟨1, _⟩ => rfl | ⟨2, _⟩ => rfl)

/-- The token product's right operand is read at (d, k). -/
theorem ridx_token (s : Fin 1024) (d : Fin 768) (k : Fin 50257) :
    Read.ridx_main_v0 (ix3 (0 : Fin 1) s d) k = ix2 d k :=
  funext fun a => Fin.ext (by match a with | ⟨0, _⟩ => rfl | ⟨1, _⟩ => rfl)

/-- The positional product's left operand is read at (0, s, k). -/
theorem lidx_position (s : Fin 1024) (d : Fin 768) (k : Fin 1024) :
    Read.lidx_main_v4 (ix3 (0 : Fin 1) s d) k = ix3 (0 : Fin 1) s k :=
  funext fun a => Fin.ext (by match a with | ⟨0, _⟩ => rfl | ⟨1, _⟩ => rfl | ⟨2, _⟩ => rfl)

/-- The positional product's right operand is read at (d, k). -/
theorem ridx_position (s : Fin 1024) (d : Fin 768) (k : Fin 1024) :
    Read.ridx_main_v4 (ix3 (0 : Fin 1) s d) k = ix2 d k :=
  funext fun a => Fin.ext (by match a with | ⟨0, _⟩ => rfl | ⟨1, _⟩ => rfl)

/-- The first bias, broadcast twice, is read at d. -/
theorem idx_bias1 (s : Fin 1024) (d : Fin 768) :
    Read.idx_main_v1 (Read.idx_main_v2 (ix3 (0 : Fin 1) s d)) = ix1 d :=
  funext fun a => Fin.ext (by match a with | ⟨0, _⟩ => rfl)

/-- The second bias, broadcast twice, is read at d. -/
theorem idx_bias2 (s : Fin 1024) (d : Fin 768) :
    Read.idx_main_v5 (Read.idx_main_v6 (ix3 (0 : Fin 1) s d)) = ix1 d :=
  funext fun a => Fin.ext (by match a with | ⟨0, _⟩ => rfl)

/-! ## The result -/

/-- The reference's result, as a term of its six arguments, is the specification: at (0, s, d) it is
    (∑ᵥ x[0,s,v]·W[d,v] + b₁[d]) + (∑_q p[0,s,q]·Wp[d,q] + b₂[d]). -/
theorem result_eq (x : FVec Ideal S1x1024x50257 .f32) (p : FVec Ideal S1x1024x1024 .f32) (W : FVec Ideal S768x50257 .f32)
    (b1 : FVec Ideal S768 .f32) (Wp : FVec Ideal S768x1024 .f32) (b2 : FVec Ideal S768 .f32) :
    addf (addf (Host.dotGeneral dot_S1x1024x50257_S768x50257_S1x1024x768_2_1_01_0_n_n none x W)
            (broadcastInDim S1x1024x768 ![0, 1, 2] bcast_S1x1x768_S1x1024x768_0_1_2 (broadcastInDim S1x1x768 ![2] bcast_S768_S1x1x768_2 b1)))
         (addf (Host.dotGeneral dot_S1x1024x1024_S768x1024_S1x1024x768_2_1_01_0_n_n none p Wp)
            (broadcastInDim S1x1024x768 ![0, 1, 2] bcast_S1x1x768_S1x1024x768_0_1_2 (broadcastInDim S1x1x768 ![2] bcast_S768_S1x1x768_2 b2)))
      = Cert.Embed.embedOut x p W b1 Wp b2 := by
  refine (Read.val_main_v8_eq (F := Ideal) x p W b1 Wp b2).trans ?_
  funext i
  -- every index of the result is (0, s, d): the leading axis has one position
  obtain ⟨a, s, d, rfl⟩ : ∃ (a : Fin 1) (s : Fin 1024) (d : Fin 768), i = ix3 a s d := ⟨i 0, i 1, i 2, eq_ix3 i⟩
  obtain rfl : a = 0 := Fin.eq_zero a
  -- read the outer sum, the two inner sums, and under them each product and each pair of broadcasts
  rw [Read.val_main_v8_apply, Read.val_main_v3_apply, Read.val_main_v7_apply, Read.val_main_v0_apply,
    Read.val_main_v2_apply, Read.val_main_v1_apply, Read.val_main_v4_apply, Read.val_main_v6_apply,
    Read.val_main_v5_apply]
  simp only [lidx_token, ridx_token, lidx_position, ridx_position, idx_bias1, idx_bias2, Ideal.addf_def]
  rfl

end Cert.ReferenceIdeal.RefValue

end
-- ==== Proof.lean ====
/-
  The certificate of the fused embedding kernel against its reference, over the extended reals.

  The kernel computes input_ids·W_wteᵀ + position_ids·W_wpeᵀ + b_wte + b_wpe in one pass over 49 vocabulary blocks of
  1024 entries: the first grid point resets the output block to the positional product plus the summed bias and adds the
  product over the last 81 vocabulary entries; every point adds the product over its own block. The reference computes
  each product over its whole contracted axis, adds each bias, and adds the two. Over the extended reals the two are
  the same number because addition is commutative and associative and a sum over 50257 = 49·1024 + 81 entries splits
  into the blocks' sums and the tail's; no finiteness is used. Changes of float format are the identity there.

  The three frames: both kernel programs run to the end under the pipeline's launch theorem, the body's two cases run
  symbolically and the output block's contents carried from point to point; the reference's frame is its run. The
  idealization rewrote nothing, so there is nothing to preserve.
-/
import proofs.«134926_g86148454023849_cont_9to1_m_880_16_alg».proof.Defs
import proofs.«134926_g86148454023849_cont_9to1_m_880_16_alg».proof.Proof.Gen.Kernel
import proofs.«134926_g86148454023849_cont_9to1_m_880_16_alg».proof.Proof.Gen.KernelIdeal
import proofs.«134926_g86148454023849_cont_9to1_m_880_16_alg».proof.Proof.Gen.ReferenceIdeal
import proofs.«134926_g86148454023849_cont_9to1_m_880_16_alg».proof.Proof.Gen.ReferenceIdeal.Run
import proofs.«134926_g86148454023849_cont_9to1_m_880_16_alg».proof.Proof.Gen.Pre_finite_inputs
import proofs.«134926_g86148454023849_cont_9to1_m_880_16_alg».proof.Proof.KCarried
import proofs.«134926_g86148454023849_cont_9to1_m_880_16_alg».proof.Proof.KIValue
import proofs.«134926_g86148454023849_cont_9to1_m_880_16_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_kernel : Cert.frame_Kernel (hKernel := Cert.Kernel.Gen.facts) (hPre_finite_inputs := Cert.Pre_finite_inputs.Gen.facts) :=
  fun m ρ _ => Cert.Kernel.Acc.frame (F := Bits) m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Acc.frame (F := Ideal) m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification's array of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Acc.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
